-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S10000x2048 : Shape := ⟨2, ![10000, 2048]⟩
abbrev S10000x256 : Shape := ⟨2, ![10000, 256]⟩
abbrev S256x256 : Shape := ⟨2, ![256, 256]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S10000x2048 : S_.BroadcastsInDim S10000x2048 (![] : Fin 0 → Fin S10000x2048.rank)
  reducesTo_S10000x2048_S_d0_1 : S10000x2048.ReducesTo [0, 1] S_
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S2048x256 .f32) (main_arg1 : FVec F S10000x2048 .f32) (main_arg2 : FVec F S10000x256 .f32) (main_arg3 : FVec F S256x256 .f32) (main_arg4 : FVec F S256 .f32) (main_arg5 : FVec F S256 .f32) (main_arg6 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S10000x2048 .f32 := Host.absf main_arg1
  let main_cst_0 : FVec F S_ .f32 := constant S_ .f32 0x7F800000#32
  let main_v5 : FVec F S10000x2048 .f32 := broadcastInDim S10000x2048 ![] bcast_S_S10000x2048 main_cst_0
  let main_v6 : IVec S10000x2048 1 := cmpf .olt main_v4 main_v5
  let main_c_1 : IVec S_ 1 := constantI S_ 1 1#1
  let main_v7 : IVec S_ 1 := (fun x v => Host.reduce IntOp.andi x v reducesTo_S10000x2048_S_d0_1 h_S_) main_v6 main_c_1
  let main_v8 : IVec S_ 1 := andi main_v3 main_v7
  let main_v9 : FVec F S10000x256 .f32 := Host.absf main_arg2
  let main_cst_2 : FVec F S_ .f32 := constant S_ .f32 0x7F800000#32
  let main_v10 : FVec F S10000x256 .f32 := broadcastInDim S10000x256 ![] bcast_S_S10000x256 main_cst_2
  let main_v11 : IVec S10000x256 1 := cmpf .olt main_v9 main_v10
  let main_c_3 : IVec S_ 1 := constantI S_ 1 1#1
  let main_v12 : IVec S_ 1 := (fun x v => Host.reduce IntOp.andi x v reducesTo_S10000x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S2048x256 : Shape := ⟨2, ![2048, 256]⟩
abbrev S10000x2048 : Shape := ⟨2, ![10000, 2048]⟩
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S1256x512 : Shape := ⟨2, ![1256, 512]⟩
abbrev S1256x256 : Shape := ⟨2, ![1256, 256]⟩
abbrev S1256x1 : Shape := ⟨2, ![1256, 1]⟩
abbrev S1256 : Shape := ⟨1, ![1256]⟩
abbrev S512x256 : Shape := ⟨2, ![512, 256]⟩

abbrev nBuf : Space → Nat
  | .hbm => 12
  | .vmem => 18
  | .smem => 0
  | _ => 0

abbrev bufTy : (tb : Table) → Fin (tcTables nBuf tb) → BufTy
  | .hbm, ⟨0, _⟩ => ⟨S2048x256, .f32⟩
  | .hbm, ⟨1, _⟩ => ⟨S10000x2048, .f32⟩
  | .hbm, ⟨2, _⟩ => ⟨S10000x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S10000x256, .f32⟩
  | .local _ .vmem, ⟨0, _⟩ => ⟨S2048x256, .f32⟩
  | .local _ .vmem, ⟨1, _⟩ => ⟨S256x256, .f32⟩
  | .local _ .vmem, ⟨2, _⟩ => ⟨S1x256, .f32⟩
  | .local _ .vmem, ⟨3, _⟩ => ⟨S1256x512, .f32⟩
  | .local _ .vmem, ⟨4, _⟩ => ⟨S1256x512, .f32⟩
  | .local _ .vmem, ⟨5, _⟩ => ⟨S1256x512, .f32⟩
  | .local _ .vmem, ⟨6, _⟩ => ⟨S1256x512, .f32⟩
  | .local _ .vmem, ⟨7, _⟩ => ⟨S1256x512, .f32⟩
  | .local _ .vmem, ⟨8, _⟩ => ⟨S1256x512, .f32⟩
  | .local _ .vmem, ⟨9, _⟩ => ⟨S1256x512, .f32⟩
  | .local _ .vmem, ⟨10, _⟩ => ⟨S1256x512, .f32⟩
  | .local _ .vmem, ⟨11, _⟩ => ⟨S1256x256, .f32⟩
  | .local _ .vmem, ⟨12, _⟩ => ⟨S1256x256, .f32⟩
  | .local _ .vmem, ⟨13, _⟩ => ⟨S1x256, .f32⟩
  | .local _ .vmem, ⟨14, _⟩ => ⟨S1x256, .f32⟩
  | .local _ .vmem, ⟨15, _⟩ => ⟨S1256x256, .f32⟩
  | .local _ .vmem, ⟨16, _⟩ => ⟨S1256x256, .f32⟩
  | .local _ .vmem, ⟨17, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S2048x256 : S2048x256.ShapeCasts S2048x256
  inb_S1256x512_S1256x512_0_0 : ∀ a, (![0, 0] : Fin 2 → Nat) a + S1256x512.size a ≤ S1256x512.size a
  h_S1256x512 : 0 < S1256x512.numel
  reduces_S1256x512_S1256 : S1256x512.Reduces [1] S1256
  shapeCasts_S1256_S1256x1 : S1256.ShapeCasts S1256x1
  inb_S2048x256_S512x256_0_0 : ∀ a, (![0, 0] : Fin 2 → Nat) a + S512x256.size a ≤ S2048x256.size a
  h_S512x256 : 0 < S512x256.numel
  inb_S2048x256_S512x256_512_0 : ∀ a, (![512, 0] : Fin 2 → Nat) a + S512x256.size a ≤ S2048x256.size a
  inb_S2048x256_S512x256_1024_0 : ∀ a, (![1024, 0] : Fin 2 → Nat) a + S512x256.size a ≤ S2048x256.size a
  inb_S2048x256_S512x256_1536_0 : ∀ a, (![1536, 0] : Fin 2 → Nat) a + S512x256.size a ≤ S2048x256.size a
  inb_S1256x256_S1256x256_0_0 : ∀ a, (![0, 0] : Fin 2 → Nat) a + S1256x256.size a ≤ S1256x256.size a
  h_S1256x256 : 0 < S1256x256.numel
  broadcasts_S1256x1_S1256x256 : S1256x1.Broadcasts S1256x256
  reduces_S1256x256_S1256 : S1256x256.Reduces [1] S1256
  broadcasts_S1x256_S1256x256 : S1x256.Broadcasts S1256x256
  dot_S2048x256_S256x256_S2048x256_1_0_0_1_n_n_wf : DotDims.WF S2048x256 S256x256 S2048x256 [1] [0] [0] [1] [] []
  dot_S1256x512_S512x256_S1256x256_1_0_0_1_n_n_wf : DotDims.WF S1256x512 S512x256 S1256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .f32 = 32 ∨ (Rect.block (s := S2048x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1256x512.size a < S10000x2048.size a
  hwx0_3 : ∀ i : grid0.Coords, EltTy.bits .f32 = 32 ∨ (Rect.unit (s := S10000x2048) (fun a => cc0_transform_3 i a * S1256x512.size a) (fun a => (Pipeline.Clip.of (cc0_transform_3 i a) (S1256x512.size a) (S10000x2048.size a)).extent (S1256x512.size a)) fun a => Pipeline.Clip.inb (Pipeline.Clip.ok_of (hstart0_3 i a))).WholeWords (EltTy.packing .f32)
  hwxs0_3 : ∀ i : grid0.Coords, EltTy.bits .f32 = 32 ∨ (Rect.unit (s := S1256x512) (fun _ => 0) (fun a => (Pipeline.Clip.of (cc0_transform_3 i a) (S1256x512.size a) (S10000x2048.size a)).extent (S1256x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1256x512.size a < S10000x2048.size a
  hwx0_4 : ∀ i : grid0.Coords, EltTy.bits .f32 = 32 ∨ (Rect.unit (s := S10000x2048) (fun a => cc0_transform_4 i a * S1256x512.size a) (fun a => (Pipeline.Clip.of (cc0_transform_4 i a) (S1256x512.size a) (S10000x2048.size a)).extent (S1256x512.size a)) fun a => Pipeline.Clip.inb (Pipeline.Clip.ok_of (hstart0_4 i a))).WholeWords (EltTy.packing .f32)
  hwxs0_4 : ∀ i : grid0.Coords, EltTy.bits .f32 = 32 ∨ (Rect.unit (s := S1256x512) (fun _ => 0) (fun a => (Pipeline.Clip.of (cc0_transform_4 i a) (S1256x512.size a) (S10000x2048.size a)).extent (S1256x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1256x512.size a < S10000x2048.size a
  hwx0_5 : ∀ i : grid0.Coords, EltTy.bits .f32 = 32 ∨ (Rect.unit (s := S10000x2048) (fun a => cc0_transform_5 i a * S1256x512.size a) (fun a => (Pipeline.Clip.of (cc0_transform_5 i a) (S1256x512.size a) (S10000x2048.size a)).extent (S1256x512.size a)) fun a => Pipeline.Clip.inb (Pipeline.Clip.ok_of (hstart0_5 i a))).WholeWords (EltTy.packing .f32)
  hwxs0_5 : ∀ i : grid0.Coords, EltTy.bits .f32 = 32 ∨ (Rect.unit (s := S1256x512) (fun _ => 0) (fun a => (Pipeline.Clip.of (cc0_transform_5 i a) (S1256x512.size a) (S10000x2048.size a)).extent (S1256x512.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1256x512.size a < S10000x2048.size a
  hwx0_6 : ∀ i : grid0.Coords, EltTy.bits .f32 = 32 ∨ (Rect.unit (s := S10000x2048) (fun a => cc0_transform_6 i a * S1256x512.size a) (fun a => (Pipeline.Clip.of (cc0_transform_6 i a) (S1256x512.size a) (S10000x2048.size a)).extent (S1256x512.size a)) fun a => Pipeline.Clip.inb (Pipeline.Clip.ok_of (hstart0_6 i a))).WholeWords (EltTy.packing .f32)
  hwxs0_6 : ∀ i : grid0.Coords, EltTy.bits .f32 = 32 ∨ (Rect.unit (s := S1256x512) (fun _ => 0) (fun a => (Pipeline.Clip.of (cc0_transform_6 i a) (S1256x512.size a) (S10000x2048.size a)).extent (S1256x512.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1256x256.size a < S10000x256.size a
  hwx0_7 : ∀ i : grid0.Coords, EltTy.bits .f32 = 32 ∨ (Rect.unit (s := S10000x256) (fun a => cc0_transform_7 i a * S1256x256.size a) (fun a => (Pipeline.Clip.of (cc0_transform_7 i a) (S1256x256.size a) (S10000x256.size a)).extent (S1256x256.size a)) fun a => Pipeline.Clip.inb (Pipeline.Clip.ok_of (hstart0_7 i a))).WholeWords (EltTy.packing .f32)
  hwxs0_7 : ∀ i : grid0.Coords, EltTy.bits .f32 = 32 ∨ (Rect.unit (s := S1256x256) (fun _ => 0) (fun a => (Pipeline.Clip.of (cc0_transform_7 i a) (S1256x256.size a) (S10000x256.size a)).extent (S1256x256.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S1256x256.size a < S10000x256.size a
  hwx0_10 : ∀ i : grid0.Coords, EltTy.bits .f32 = 32 ∨ (Rect.unit (s := S10000x256) (fun a => cc0_transform_10 i a * S1256x256.size a) (fun a => (Pipeline.Clip.of (cc0_transform_10 i a) (S1256x256.size a) (S10000x256.size a)).extent (S1256x256.size a)) fun a => Pipeline.Clip.inb (Pipeline.Clip.ok_of (hstart0_10 i a))).WholeWords (EltTy.packing .f32)
  hwxs0_10 : ∀ i : grid0.Coords, EltTy.bits .f32 = 32 ∨ (Rect.unit (s := S1256x256) (fun _ => 0) (fun a => (Pipeline.Clip.of (cc0_transform_10 i a) (S1256x256.size a) (S10000x256.size a)).extent (S1256x256.size a)) fun a => (Nat.zero_add _).trans_le (Pipeline.Clip.extent_le (Pipeline.Clip.ok_of (hstart0_10 i a)))).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1256x512_S512x256_S1256x256_1_0_0_1_n_n : DotDims S1256x512 S512x256 S1256x256 where
  lhsContracting := [1]
  rhsContracting := [0]
  lhsNonContracting := [0]
  rhsNonContracting := [1]
  lhsBatch := []
  rhsBatch := []
  wf := dot_S1256x512_S512x256_S1256x256_1_0_0_1_n_n_wf

abbrev win0_0 : Pipeline.Window sig grid0 :=
  Pipeline.Window.ofSpec (Memref.whole main_arg0) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_arg1) S1256x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg1) S1256x512.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_arg1) S1256x512.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_arg1) S1256x512.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_arg2) S1256x256.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpec (Memref.whole main_v2) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpecClip (Memref.whole main_v4) S1256x256.size cc0_transform_10 reads0_10 true false 2 stage0_10 sem0_10
    hrank0 hreads0_10 hstart0_10 nbuf0_10 (Memref.isWhole_whole _) hwx0_10 hwxs0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x256 : Shape := ⟨2, ![2048, 256]⟩
abbrev S10000x2048 : Shape := ⟨2, ![10000, 2048]⟩
abbrev S10000x256 : Shape := ⟨2, ![10000, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S10000 : Shape := ⟨1, ![10000]⟩
abbrev S10000x1 : Shape := ⟨2, ![10000, 1]⟩

abbrev nBuf : Space → Nat
  | .hbm => 70
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S10000x2048, .f32⟩
  | .hbm, ⟨2, _⟩ => ⟨S10000x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S2048x256, .f32⟩
  | .hbm, ⟨9, _⟩ => ⟨S1x256, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S_, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x2048, .f32⟩
  | .hbm, ⟨20, _⟩ => ⟨S10000x2048, .f32⟩
  | .hbm, ⟨21, _⟩ => ⟨S10000x256, .f32⟩
  | .hbm, ⟨22, _⟩ => ⟨S_, .f32⟩
  | .hbm, ⟨23, _⟩ => ⟨S10000x256, .f32⟩
  | .hbm, ⟨24, _⟩ => ⟨S10000x256, .f32⟩
  | .hbm, ⟨25, _⟩ => ⟨S10000x256, .f32⟩
  | .hbm, ⟨26, _⟩ => ⟨S_, .f32⟩
  | .hbm, ⟨27, _⟩ => ⟨S10000, .f32⟩
  | .hbm, ⟨28, _⟩ => ⟨S10000x1, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S_, .i32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S_, .f32⟩
  | .hbm, ⟨37, _⟩ => ⟨S10000x1, .f32⟩
  | .hbm, ⟨38, _⟩ => ⟨S10000x1, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S10000, .f32⟩
  | .hbm, ⟨47, _⟩ => ⟨S10000x1, .f32⟩
  | .hbm, ⟨48, _⟩ => ⟨S10000x1, .f32⟩
  | .hbm, ⟨49, _⟩ => ⟨S10000x1, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S10000x1, .f32⟩
  | .hbm, ⟨55, _⟩ => ⟨S10000x1, .f32⟩
  | .hbm, ⟨56, _⟩ => ⟨S10000x256, .f32⟩
  | .hbm, ⟨57, _⟩ => ⟨S10000x256, .f32⟩
  | .hbm, ⟨58, _⟩ => ⟨S_, .f32⟩
  | .hbm, ⟨59, _⟩ => ⟨S10000x1, .f32⟩
  | .hbm, ⟨60, _⟩ => ⟨S10000x1, .f32⟩
  | .hbm, ⟨61, _⟩ => ⟨S10000x1, .f32⟩
  | .hbm, ⟨62, _⟩ => ⟨S10000x256, .f32⟩
  | .hbm, ⟨63, _⟩ => ⟨S10000x256, .f32⟩
  | .hbm, ⟨64, _⟩ => ⟨S1x256, .f32⟩
  | .hbm, ⟨65, _⟩ => ⟨S10000x256, .f32⟩
  | .hbm, ⟨66, _⟩ => ⟨S10000x256, .f32⟩
  | .hbm, ⟨67, _⟩ => ⟨S1x256, .f32⟩
  | .hbm, ⟨68, _⟩ => ⟨S10000x256, .f32⟩
  | .hbm, ⟨69, _⟩ => ⟨S10000x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_call2_cst : Ref sig .tc := ⟨.hbm, 33, rfl⟩
abbrev main_call2_v0 : Ref sig .tc := ⟨.hbm, 34, rfl⟩
abbrev main_call2_v1 : Ref sig .tc := ⟨.hbm, 35, rfl⟩
abbrev main_call2_cst_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_cst_1 : Ref sig .tc := ⟨.hbm, 43, rfl⟩
abbrev main_call2_v8 : Ref sig .tc := ⟨.hbm, 44, rfl⟩
abbrev main_call2_cst_2 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_v12 : Ref sig .tc := ⟨.hbm, 49, rfl⟩
abbrev main_call2_cst_3 : Ref sig .tc := ⟨.hbm, 50, rfl⟩
abbrev main_call2_v13 : Ref sig .tc := ⟨.hbm, 51, rfl⟩
abbrev main_call2_cst_4 : Ref sig .tc := ⟨.hbm, 52, rfl⟩
abbrev main_call2_call0_v0 : Ref sig .tc := ⟨.hbm, 53, rfl⟩
abbrev main_call2_call0_v1 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_3 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  reducesTo_S10000x2048_S10000_d1 : S10000x2048.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x2048_0_1 : S10000x1.BroadcastsInDim S10000x2048 (![0, 1] : Fin 2 → Fin S10000x2048.rank)
  bcast_S_S10000x256 : S_.BroadcastsInDim S10000x256 (![] : Fin 0 → Fin S10000x256.rank)
  reducesTo_S10000x256_S10000_d1 : S10000x256.ReducesTo [1] S10000
  bcast_S10000x1_S10000x256_0_1 : S10000x1.BroadcastsInDim S10000x256 (![0, 1] : Fin 2 → Fin S10000x256.rank)
  bcast_S1x256_S10000x256_0_1 : S1x256.BroadcastsInDim S10000x256 (![0, 1] : Fin 2 → Fin S10000x256.rank)
  dot_S2048x256_S256x256_S2048x256_1_0_0_1_n_n_wf : DotDims.WF S2048x256 S256x256 S2048x256 [1] [0] [0] [1] [] []
  dot_S10000x2048_S2048x256_S10000x256_1_0_0_1_n_n_wf : DotDims.WF S10000x2048 S2048x256 S10000x256 [1] [0] [0] [1] [] []

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S10000x2048_S2048x256_S10000x256_1_0_0_1_n_n : DotDims S10000x2048 S2048x256 S10000x256 where
  lhsContracting := [1]
  rhsContracting := [0]
  lhsNonContracting := [0]
  rhsNonContracting := [1]
  lhsBatch := []
  rhsBatch := []
  wf := dot_S10000x2048_S2048x256_S10000x256_1_0_0_1_n_n_wf

class Facts : Prop extends Facts₀ where

variable [Facts]
-- ==== Proof.KEntry.lean ====
/-
  What the kernel region finds when it is entered: @main first transposes the linear map and reshapes the bias and
  the two normalisation rows to one-row matrices, and touches none of its arguments; the region's eleven windows then
  stage the question features, the transposed map, the bias row, the weight matrix four times (one 512-column
  quarter each), the embeddings, the two normalisation rows, and the result.
-/
import proofs.«156365_g712964571491_cont_9to1c4b_112_17_alg».proof.Proof.Gen.Kernel.Launch
import proofs.«156365_g712964571491_cont_9to1c4b_112_17_alg».proof.Proof.Gen.Kernel.Points
import Idealize.ShloMosaic.Lib.Pipeline.Frame
import Idealize.ShloMosaic.Lib.StableHlo.Run
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: after @main's four host operations. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

/-- @main reduces to the region entered at those contents. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results
theorem V_arg3 (c : Dev nD) : V m c main_arg3 = m ((c : Thread nD τ).loc main_arg3) := by
  dsimp only [V, V0, hostOps0]; after_results
theorem V_arg4 (c : Dev nD) : V m c main_arg4 = m ((c : Thread nD τ).loc main_arg4) := by
  dsimp only [V, V0, hostOps0]; after_results
theorem V_arg5 (c : Dev nD) : V m c main_arg5 = m ((c : Thread nD τ).loc main_arg5) := by
  dsimp only [V, V0, hostOps0]; after_results
theorem V_arg6 (c : Dev nD) : V m c main_arg6 = m ((c : Thread nD τ).loc main_arg6) := by
  dsimp only [V, V0, hostOps0]; after_results

/-- The transposed linear map, and the three one-row matrices. -/
theorem V_v0 (c : Dev nD) : (V m c main_v0 : S256x256.Idx → Elt F .f32)
    = transpose S256x256 [1, 0] (m ((c : Thread nD τ).loc main_arg3)) transposes_S256x256_S256x256_1_0 := by
  dsimp only [V, V0, hostOps0]; after_results
theorem V_v1 (c : Dev nD) : (V m c main_v1 : S1x256.Idx → Elt F .f32)
    = shapeCast S1x256 (m ((c : Thread nD τ).loc main_arg4)) shapeCasts_S256_S1x256 := by
  dsimp only [V, V0, hostOps0]; after_results; rfl
theorem V_v2 (c : Dev nD) : (V m c main_v2 : S1x256.Idx → Elt F .f32)
    = shapeCast S1x256 (m ((c : Thread nD τ).loc main_arg5)) shapeCasts_S256_S1x256 := by
  dsimp only [V, V0, hostOps0]; after_results; rfl
theorem V_v3 (c : Dev nD) : (V m c main_v3 : S1x256.Idx → Elt F .f32)
    = shapeCast S1x256 (m ((c : Thread nD τ).loc main_arg6)) shapeCasts_S256_S1x256 := by
  dsimp only [V, V0, hostOps0]; after_results; rfl

end Cert.Kernel.Entry

end
-- ==== Proof.KShares.lean ====
/-
  How the launch's holdings meet the kernel region's windows. The region's eleven windows read EIGHT distinct
  arrays: windows 3, 4, 5 and 6 all read the weight matrix (one 512-column quarter each), the other seven windows an
  array each (the question features, the transposed map, the bias row, the embeddings, the two normalisation rows,
  the result). At the region's entry each distinct array is held whole at the full share; the region wants one
  points-to per window, an input window's at its own share. The full share of the weight matrix is therefore
  split in four, a half of a half to each of its windows: a share is the composite of its left and right halves,
  and a points-to splits along its share.
-/
import proofs.«156365_g712964571491_cont_9to1c4b_112_17_alg».proof.Proof.Gen.Kernel.Launch
import Idealize.ShloMosaic.Lib.Pipeline.Launch

set_option maxRecDepth 16384

noncomputable section

namespace Cert.Kernel.Shares

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The share each window holds its array at: the full share where the window has the array to itself, a quarter
    of it (a half of a half) for each of the four windows on the weight matrix. -/
abbrev quarter : Fin cfg0.W → PosShare TreeShare :=
  fun | 0 => fullShare | 1 => fullShare | 2 => fullShare | 3 => fullShare.left.left | 4 => fullShare.left.right | 5 => fullShare.right.left | 6 => fullShare.right.right | 7 => fullShare | 8 => fullShare | 9 => fullShare | 10 => fullShare | ⟨_ + 11, h⟩ => absurd h (Nat.not_lt.2 (Nat.le_add_left _ _))

/-- The distinct arrays behind the eleven windows are these eight. -/
theorem image_eq : (Finset.univ.image (Pipeline.arrRef spec0) : Finset (Ref sig .tc))
    = {main_arg0, main_v0, main_v1, main_arg1, main_arg2, main_v2, main_v3, main_v4} := by decide

/-- The eight distinct arrays whole at the full share give every window its array at its share: the seven
    windows that have an array to themselves take it as it is, and the weight matrix's full share is halved
    and each half halved again, a quarter to each of its four windows. -/
theorem arrays_of_arrBufs (c : Dev nD) (V : (b : Ref sig .tc) → Buf (Elt F) ((c : Thread nD τ).loc b))
    (A : (w : Fin cfg0.W) → Buf (Elt F) ((cfg0.win w).arr.view.loc (c : Thread nD τ))) (hA : ∀ w, A w = V (Pipeline.arrRef spec0 w)) :
    (Pipeline.arrBufs (Ix := Unit) (Name := ℕ) (U := UR sig nD τ) (Lvl := ℕ) spec0 c V : sProp (MT nD τ sig Unit (Elt F) ℕ (UR sig nD τ) ℕ))
      ⊢ bigSep Finset.univ fun w : Fin cfg0.W => (cfg0.win w).arr.view.loc (c : Thread nD τ) ↦[(cfg0.win w).arr.view.set]{if (cfg0.win w).isOut then fullShare else quarter w} A w := by
  obtain rfl : A = fun w => V (Pipeline.arrRef spec0 w) := funext hA
  unfold Pipeline.arrBufs
  rw [image_eq, bigSep_W0]
  rw [show (cfg0.win 0).arr.view.set = Finset.univ from (arr_whole0 0).set_eq_univ,
    show (cfg0.win 1).arr.view.set = Finset.univ from (arr_whole0 1).set_eq_univ,
    show (cfg0.win 2).arr.view.set = Finset.univ from (arr_whole0 2).set_eq_univ,
    show (cfg0.win 3).arr.view.set = Finset.univ from (arr_whole0 3).set_eq_univ,
    show (cfg0.win 7).arr.view.set = Finset.univ from (arr_whole0 7).set_eq_univ,
    show (cfg0.win 8).arr.view.set = Finset.univ from (arr_whole0 8).set_eq_univ,
    show (cfg0.win 9).arr.view.set = Finset.univ from (arr_whole0 9).set_eq_univ,
    show (cfg0.win 10).arr.view.set = Finset.univ from (arr_whole0 10).set_eq_univ]
  change _ ⊢ iprop((((c : Thread nD τ).loc main_arg0) ↦{fullShare} V main_arg0)
    ∗ (((c : Thread nD τ).loc main_v0) ↦{fullShare} V main_v0)
    ∗ (((c : Thread nD τ).loc main_v1) ↦{fullShare} V main_v1)
    ∗ (((c : Thread nD τ).loc main_arg1) ↦{fullShare.left.left} V main_arg1)
    ∗ (((c : Thread nD τ).loc main_arg1) ↦{fullShare.left.right} V main_arg1)
    ∗ (((c : Thread nD τ).loc main_arg1) ↦{fullShare.right.left} V main_arg1)
    ∗ (((c : Thread nD τ).loc main_arg1) ↦{fullShare.right.right} V main_arg1)
    ∗ (((c : Thread nD τ).loc main_arg2) ↦{fullShare} V main_arg2)
    ∗ (((c : Thread nD τ).loc main_v2) ↦{fullShare} V main_v2)
    ∗ (((c : Thread nD τ).loc main_v3) ↦{fullShare} V main_v3)
    ∗ (((c : Thread nD τ).loc main_v4) ↦{fullShare} V main_v4))
  rw [bigSep_insert (by decide), bigSep_insert (by decide), bigSep_insert (by decide), bigSep_insert (by decide),
    bigSep_insert (by decide), bigSep_insert (by decide), bigSep_insert (by decide), bigSep_singleton]
  change iprop((((c : Thread nD τ).loc main_arg0) ↦{fullShare} V main_arg0)
    ∗ (((c : Thread nD τ).loc main_v0) ↦{fullShare} V main_v0)
    ∗ (((c : Thread nD τ).loc main_v1) ↦{fullShare} V main_v1)
    ∗ (((c : Thread nD τ).loc main_arg1) ↦{fullShare} V main_arg1)
    ∗ (((c : Thread nD τ).loc main_arg2) ↦{fullShare} V main_arg2)
    ∗ (((c : Thread nD τ).loc main_v2) ↦{fullShare} V main_v2)
    ∗ (((c : Thread nD τ).loc main_v3) ↦{fullShare} V main_v3)
    ∗ (((c : Thread nD τ).loc main_v4) ↦{fullShare} V main_v4)) ⊢ _
  iintro ⟨H0, Hv0, Hv1, H1, H2, Hv2, Hv3, Hv4⟩
  ihave H1 := (pointsTo_share (PosShare.mem_left_op_right fullShare)).1 $$ H1
  icases H1 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [H0]; · iexact H0
  isplitl [Hv0]; · iexact Hv0
  isplitl [Hv1]; · iexact Hv1
  isplitl [Hll]; · iexact Hll
  isplitl [Hlr]; · iexact Hlr
  isplitl [Hrl]; · iexact Hrl
  isplitl [Hrr]; · iexact Hrr
  isplitl [H2]; · iexact H2
  isplitl [Hv2]; · iexact Hv2
  isplitl [Hv3]; · iexact Hv3
  iexact Hv4

/-- The same through proof data whose input shares are `quarter`. -/
theorem arrays_of_arrBufs_dat (c : Dev nD) (V : (b : Ref sig .tc) → Buf (Elt F) ((c : Thread nD τ).loc b))
    (dat : Pipeline.Dat τ (Elt F) Unit ℕ (UR sig nD τ) ℕ cfg0 c) (hq : dat.q = quarter)
    (A : (w : Fin cfg0.W) → Buf (Elt F) ((cfg0.win w).arr.view.loc (c : Thread nD τ))) (hA : ∀ w, A w = V (Pipeline.arrRef spec0 w)) :
    (Pipeline.arrBufs (Ix := Unit) (Name := ℕ) (U := UR sig nD τ) (Lvl := ℕ) spec0 c V : sProp (MT nD τ sig Unit (Elt F) ℕ (UR sig nD τ) ℕ))
      ⊢ dat.arrays A := by
  unfold Pipeline.Dat.arrays Pipeline.Dat.share
  rw [hq]
  exact arrays_of_arrBufs c V A hA

/-- The same through relational proof data whose input shares are `quarter`. -/
theorem arrays_of_arrBufs_rdat (c : Dev nD) (V : (b : Ref sig .tc) → Buf (Elt F) ((c : Thread nD τ).loc b))
    (rd : Pipeline.RDat τ (Elt F) Unit ℕ (UR sig nD τ) ℕ cfg0 c) (hq : rd.q = quarter)
    (A : (w : Fin cfg0.W) → Buf (Elt F) ((cfg0.win w).arr.view.loc (c : Thread nD τ))) (hA : ∀ w, A w = V (Pipeline.arrRef spec0 w)) :
    (Pipeline.arrBufs (Ix := Unit) (Name := ℕ) (U := UR sig nD τ) (Lvl := ℕ) spec0 c V : sProp (MT nD τ sig Unit (Elt F) ℕ (UR sig nD τ) ℕ))
      ⊢ rd.arrays A := by
  unfold Pipeline.RDat.arrays Pipeline.RDat.share
  rw [hq]
  exact arrays_of_arrBufs c V A hA

end Cert.Kernel.Shares

end
-- ==== Proof.KData.lean ====
/-
  The kernel region as the pipeline runs it: the arrays, the buffers, and what the body finds in each.

  The grid has eight points; at each the pipeline hands the body eleven staging buffers. Five of them (the question
  features, the transposed map, the bias row, the two normalisation rows) are filled once, at the first point, with
  the whole of their arrays and keep it. Five (the four 512-column quarters of the weight matrix and the embeddings)
  are filled at every point with the point's 1256 rows; the eighth block reaches 48 rows past the arrays' 10000, and
  there the buffer's last rows hold words nothing names. The eleventh takes the body's result and is written back at
  every point, the eighth time only its first 1208 rows. The four quarter windows read ONE array, so that array is
  held a quarter share each.

  What the body leaves in the result's buffer, and the invariant it keeps, are left open here: the claim that the
  program runs and keeps its arguments says nothing of either; the claim about its value names both.
-/
import proofs.«156365_g712964571491_cont_9to1c4b_112_17_alg».proof.Proof.KEntry
import proofs.«156365_g712964571491_cont_9to1c4b_112_17_alg».proof.Proof.KShares
import Idealize.ShloMosaic.Lib.Pipeline.Kit
import Idealize.ShloMosaic.Lib.Pipeline.Frame
import Idealize.ShloMosaic.Lib.Tactic

set_option maxRecDepth 16384

noncomputable section

namespace Cert.Kernel.Frame

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffer, whole. -/
abbrev scrM : Memref sig .tc .vmem S2048x256 .f32 := Memref.whole cc0_scratch0

/-- The windows' arrays as the region finds them. -/
abbrev arrs (c : Dev nD) (w : Fin cfg0.W) : Buf (Elt F) ((cfg0.win w).arr.view.loc (c : Thread nD τ)) :=
  V m c (Pipeline.arrRef spec0 w)

/-- What the buffer of a window filled only at the first point holds at point `t`: what was last fetched into it. -/
abbrev held (c : Dev nD) (w : Fin cfg0.W) (t : Fin cfg0.N) : (cfg0.win w).block.Idx → Elt F (cfg0.win w).elt :=
  Pipeline.heldIn cfg0 (arrs m c) w t.val t.isLt

/-- The part of a row block that lies inside its array, as the fetch at point `t` reads it, -/
abbrev part (c : Dev nD) (w : Fin cfg0.W) (t : Fin cfg0.N) : ((cfg0.win w).xblock (grid0.coords t)).Idx → Elt F (cfg0.win w).elt :=
  ((cfg0.win w).blk t).view.read (Elt F) (arrs m c w)

/-- and the buffer it lands in, the rows past the array's end at `d`. -/
abbrev landed (c : Dev nD) (w : Fin cfg0.W) (t : Fin cfg0.N) (d : (cfg0.win w).block.Idx → Elt F (cfg0.win w).elt) :
    (cfg0.win w).block.Idx → Elt F (cfg0.win w).elt :=
  (cfg0.win w).fill (grid0.coords t) d (part m c w t)

/-- The same with the zero word past the array's end: a name for what the body hands back, which is stated on the
    rows inside the array only. -/
abbrev landed0 (c : Dev nD) (w : Fin cfg0.W) (t : Fin cfg0.N) : (cfg0.win w).block.Idx → Elt F (cfg0.win w).elt :=
  landed m c w t (fun _ => Classical.arbitrary _)

/-- The result's window is the one forgotten. -/
abbrev forgetOut : Fin cfg0.W → Bool :=
  fun | 0 => false | 1 => false | 2 => false | 3 => false | 4 => false | 5 => false | 6 => false | 7 => false | 8 => false | 9 => false | 10 => true | ⟨_ + 11, h⟩ => absurd h (Nat.not_lt.2 (Nat.le_add_left _ _))

/-- The region invariant, the same at every point: the scratch at some contents and the generator register at some state. -/
abbrev Inv (c : Dev nD) : sProp 𝕄 := iprop((∃ d, owns (c : Thread nD τ) scrM fullShare d) ∗ (∃ r, prngReg c r))

theorem inv_eq (c : Dev nD) : (Pipeline.ΦA spec0 c : sProp 𝕄) = Inv (F := F) c := by
  unfold Pipeline.ΦA; rw [scopedRest0_eq]; simp only [Inv, scrM, owns_whole]; rfl

/-- An account of what the body leaves in the result's buffer, point by point; and an invariant, point by point. -/
abbrev OutAt (F : FTy → Type) [FloatOps F] : Type := Fin cfg0.N → (cfg0.win 10).block.Idx → Elt F (cfg0.win 10).elt
abbrev InvAt (F : FTy → Type) [FloatOps F] : Type := Fin (cfg0.N + 1) → sProp (MT nD τ sig Unit (Elt F) ℕ (UR sig nD τ) ℕ)

/-- The proof data, for any account `out` of what the body leaves in the result's buffer and any invariant `Φ`: the
    arrays as the region finds them; after the body the five once-filled buffers at what they held and the five
    row-block buffers at their blocks; the weight matrix's share dealt in quarters. -/
def datsOf (c : Dev nD) (out : OutAt F) (inv : InvAt F) :
    Dat τ (Elt F) Unit ℕ (UR sig nD τ) ℕ cfg0 c where
  A w := arrs m c w
  after w t := match w with
    | ⟨0, _⟩ => held m c 0 t
    | ⟨1, _⟩ => held m c 1 t
    | ⟨2, _⟩ => held m c 2 t
    | ⟨3, _⟩ => landed0 m c 3 t
    | ⟨4, _⟩ => landed0 m c 4 t
    | ⟨5, _⟩ => landed0 m c 5 t
    | ⟨6, _⟩ => landed0 m c 6 t
    | ⟨7, _⟩ => landed0 m c 7 t
    | ⟨8, _⟩ => held m c 8 t
    | ⟨9, _⟩ => held m c 9 t
    | ⟨10, _⟩ => out t
  Φ := inv
  q := Shares.quarter
  owed _ := 0

theorem after_0 (out : OutAt F) (inv : InvAt F) (c : Dev nD) (t : Fin cfg0.N) : (datsOf m c out inv).after 0 t = held m c 0 t := by dsimp only [datsOf]
theorem after_1 (out : OutAt F) (inv : InvAt F) (c : Dev nD) (t : Fin cfg0.N) : (datsOf m c out inv).after 1 t = held m c 1 t := by dsimp only [datsOf]
theorem after_2 (out : OutAt F) (inv : InvAt F) (c : Dev nD) (t : Fin cfg0.N) : (datsOf m c out inv).after 2 t = held m c 2 t := by dsimp only [datsOf]
theorem after_3 (out : OutAt F) (inv : InvAt F) (c : Dev nD) (t : Fin cfg0.N) : (datsOf m c out inv).after 3 t = landed0 m c 3 t := by dsimp only [datsOf]
theorem after_4 (out : OutAt F) (inv : InvAt F) (c : Dev nD) (t : Fin cfg0.N) : (datsOf m c out inv).after 4 t = landed0 m c 4 t := by dsimp only [datsOf]
theorem after_5 (out : OutAt F) (inv : InvAt F) (c : Dev nD) (t : Fin cfg0.N) : (datsOf m c out inv).after 5 t = landed0 m c 5 t := by dsimp only [datsOf]
theorem after_6 (out : OutAt F) (inv : InvAt F) (c : Dev nD) (t : Fin cfg0.N) : (datsOf m c out inv).after 6 t = landed0 m c 6 t := by dsimp only [datsOf]
theorem after_7 (out : OutAt F) (inv : InvAt F) (c : Dev nD) (t : Fin cfg0.N) : (datsOf m c out inv).after 7 t = landed0 m c 7 t := by dsimp only [datsOf]
theorem after_8 (out : OutAt F) (inv : InvAt F) (c : Dev nD) (t : Fin cfg0.N) : (datsOf m c out inv).after 8 t = held m c 8 t := by dsimp only [datsOf]
theorem after_9 (out : OutAt F) (inv : InvAt F) (c : Dev nD) (t : Fin cfg0.N) : (datsOf m c out inv).after 9 t = held m c 9 t := by dsimp only [datsOf]
theorem after_10 (out : OutAt F) (inv : InvAt F) (c : Dev nD) (t : Fin cfg0.N) : (datsOf m c out inv).after 10 t = out t := by dsimp only [datsOf]

/-! ## What the body finds in each buffer -/

/-- A once-filled window's buffer holds what was last fetched into it, at every point. -/
theorem before_held (out : OutAt F) (inv : InvAt F) (c : Dev nD) (w : Fin cfg0.W) (hw : (cfg0.win w).isOut = false)
    (hclip : ∀ (i : grid0.Coords) a, (cfg0.win w).clip i a = none)
    (hafter : ∀ t, (datsOf m c out inv).after w t = held m c w t) (t : Fin cfg0.N) (d) :
    (datsOf m c out inv).before w t d = held m c w t :=
  (datsOf m c out inv).before_eq_heldIn w hw (fun _ => rfl) hclip hafter t d

theorem before_0 (out : OutAt F) (inv : InvAt F) (c : Dev nD) (t : Fin cfg0.N) (d) : (datsOf m c out inv).before 0 t d = held m c 0 t :=
  before_held m out inv c 0 rfl (fun _ _ => rfl) (after_0 m out inv c) t d
theorem before_1 (out : OutAt F) (inv : InvAt F) (c : Dev nD) (t : Fin cfg0.N) (d) : (datsOf m c out inv).before 1 t d = held m c 1 t :=
  before_held m out inv c 1 rfl (fun _ _ => rfl) (after_1 m out inv c) t d
theorem before_2 (out : OutAt F) (inv : InvAt F) (c : Dev nD) (t : Fin cfg0.N) (d) : (datsOf m c out inv).before 2 t d = held m c 2 t :=
  before_held m out inv c 2 rfl (fun _ _ => rfl) (after_2 m out inv c) t d
theorem before_8 (out : OutAt F) (inv : InvAt F) (c : Dev nD) (t : Fin cfg0.N) (d) : (datsOf m c out inv).before 8 t d = held m c 8 t :=
  before_held m out inv c 8 rfl (fun _ _ => rfl) (after_8 m out inv c) t d
theorem before_9 (out : OutAt F) (inv : InvAt F) (c : Dev nD) (t : Fin cfg0.N) (d) : (datsOf m c out inv).before 9 t d = held m c 9 t :=
  before_held m out inv c 9 rfl (fun _ _ => rfl) (after_9 m out inv c) t d

/-- A row-block window's buffer has just been fetched into. -/
theorem before_3 (out : OutAt F) (inv : InvAt F) (c : Dev nD) (t : Fin cfg0.N) (d) : (datsOf m c out inv).before 3 t d = landed m c 3 t d := by
  rw [(datsOf m c out inv).before_fetched 3 t (fetch0_3 t)]; rfl
theorem before_4 (out : OutAt F) (inv : InvAt F) (c : Dev nD) (t : Fin cfg0.N) (d) : (datsOf m c out inv).before 4 t d = landed m c 4 t d := by
  rw [(datsOf m c out inv).before_fetched 4 t (fetch0_4 t)]; rfl
theorem before_5 (out : OutAt F) (inv : InvAt F) (c : Dev nD) (t : Fin cfg0.N) (d) : (datsOf m c out inv).before 5 t d = landed m c 5 t d := by
  rw [(datsOf m c out inv).before_fetched 5 t (fetch0_5 t)]; rfl
theorem before_6 (out : OutAt F) (inv : InvAt F) (c : Dev nD) (t : Fin cfg0.N) (d) : (datsOf m c out inv).before 6 t d = landed m c 6 t d := by
  rw [(datsOf m c out inv).before_fetched 6 t (fetch0_6 t)]; rfl
theorem before_7 (out : OutAt F) (inv : InvAt F) (c : Dev nD) (t : Fin cfg0.N) (d) : (datsOf m c out inv).before 7 t d = landed m c 7 t d := by
  rw [(datsOf m c out inv).before_fetched 7 t (fetch0_7 t)]; rfl

/-- What a row-block buffer is handed back at, on the rows inside the array, is its block. -/
theorem cut_landed0 (c : Dev nD) (w : Fin cfg0.W) (t : Fin cfg0.N) :
    (cfg0.win w).cut (grid0.coords t) (landed0 m c w t) = part m c w t := (cfg0.win w).cut_fill _ _ _

end Cert.Kernel.Frame

end
-- ==== Proof.KBodyLater.lean ====
/-
  The kernel body at a grid point other than the first, run on arbitrary whole staging buffers.

  At such a point the body writes nothing into the scratch that holds the projected features: it reads the four
  512-column quarters of its block of the weight matrix, the four matching 512-row slices of the scratch, the
  embedding block and the two normalisation rows, and stores one value, the normalised block, over the whole
  output buffer. Every buffer it only reads is handed back as it was found.
-/
import proofs.«156365_g712964571491_cont_9to1c4b_112_17_alg».proof.Proof.Gen.Kernel.Launch
import proofs.«156365_g712964571491_cont_9to1c4b_112_17_alg».proof.Proof.Gen.Kernel.Skeleton
import proofs.«156365_g712964571491_cont_9to1c4b_112_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the grid coordinate is zero (the point that fills the scratch). -/
abbrev firstPoint (i : grid0.Coords) : Prop :=
  (Scalar.cmpi .ne (Scalar.extui (Scalar.cmpi .eq (BitVec.ofNat 32 (i 0).val) 0#32)) 0#32) = 1#1

/-- A view of the output block's shape and of the scratch's shape, through which stored contents are read back. -/
abbrev VOut : View sig .tc .vmem S1256x256 .f32 := (Memref.whole cc0_stg10_0 : Memref sig .tc .vmem S1256x256 .f32).view
abbrev VScr : View sig .tc .vmem S2048x256 .f32 := (Memref.whole cc0_scratch0 : Memref sig .tc .vmem S2048x256 .f32).view

set_option maxHeartbeats 4000000 in
/-- At a later point: the pieces the body's one store leaves in the output buffer, with the run that shows it —
    from the ten input buffers at contents x1 … s, the output buffer at anything and the scratch at P, the body
    reaches its continuation holding the inputs and the scratch as they were and the output buffer with those
    pieces written. -/
noncomputable def runLater (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : ¬firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (P : Vec F S2048x256 .f32) :
    { L : List (View.Piece (Elt F) S1256x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare a1 ∗ owns (c : Thread nD τ) arg5 fullShare a2 ∗ owns (c : Thread nD τ) arg6 fullShare a3 ∗ owns (c : Thread nD τ) arg7 fullShare a4
            ∗ owns (c : Thread nD τ) arg8 fullShare e ∗ owns (c : Thread nD τ) arg9 fullShare g ∗ owns (c : Thread nD τ) arg10 fullShare s
            ∗ (∃ d, owns (c : Thread nD τ) arg11 fullShare d) ∗ owns (c : Thread nD τ) arg12 fullShare P
            ∗ (iprop(owns (c : Thread nD τ) arg1 fullShare x1 ∗ owns (c : Thread nD τ) arg2 fullShare x2 ∗ owns (c : Thread nD τ) arg3 fullShare x3
            ∗ owns (c : Thread nD τ) arg4 fullShare a1 ∗ owns (c : Thread nD τ) arg5 fullShare a2 ∗ owns (c : Thread nD τ) arg6 fullShare a3 ∗ owns (c : Thread nD τ) arg7 fullShare a4
            ∗ owns (c : Thread nD τ) arg8 fullShare e ∗ owns (c : Thread nD τ) arg9 fullShare g ∗ owns (c : Thread nD τ) arg10 fullShare s
                ∗ (∃ f, arg11.view.loc (c : Thread nD τ) ↦[arg11.view.set]{fullShare} arg11.view.writes (Elt F) f L)
                ∗ owns (c : Thread nD τ) arg12 fullShare P) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_body_eq_skeleton]; unfold cc0__gcn_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6; obtain rfl := harg7.eq_unread hf7
    obtain rfl := harg8.eq_unread hf8; obtain rfl := harg9.eq_unread hf9; obtain rfl := harg10.eq_unread hf10; obtain rfl := harg12.eq_unread hf12
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; isplitr; · ipureintro; exact harg12.read_unread _
    iexact H12

/-- The later-point store covers the output block: one piece of the block's own size. -/
theorem coverLater (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : ¬firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (P : Vec F S2048x256 .f32) (y : S1256x256.Idx) :
    ∃ pc ∈ (runLater c i arg1 harg1 arg2 harg2 arg3 harg3 arg4 harg4 arg5 harg5 arg6 harg6 arg7 harg7 arg8 harg8 arg9 harg9 arg10 harg10 arg11 harg11 arg12 harg12 hc x1 x2 x3 a1 a2 a3 a4 e g s P).1, y ∈ pc.1.set :=
  View.cover_of_tiledL (runLater c i arg1 harg1 arg2 harg2 arg3 harg3 arg4 harg4 arg5 harg5 arg6 harg6 arg7 harg7 arg8 harg8 arg9 harg9 arg10 harg10 arg11 harg11 arg12 harg12 hc x1 x2 x3 a1 a2 a3 a4 e g s P).1 S1256x256.size (by sl_kernel_rfl) y

/-- What a later point leaves in the output buffer: its piece read back. -/
def outLater (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : ¬firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (P : Vec F S2048x256 .f32) : Vec F S1256x256 .f32 :=
  VOut.read (Elt F) (VOut.writes (Elt F) VOut.junk (runLater c i arg1 harg1 arg2 harg2 arg3 harg3 arg4 harg4 arg5 harg5 arg6 harg6 arg7 harg7 arg8 harg8 arg9 harg9 arg10 harg10 arg11 harg11 arg12 harg12 hc x1 x2 x3 a1 a2 a3 a4 e g s P).1)

end Cert.Kernel.Body

end
-- ==== Proof.KBodyFirst.lean ====
/-
  The kernel body at the first grid point, run on arbitrary whole staging buffers.

  Here the body first fills the scratch: it reads the question features, the transposed linear map and the bias
  row, and stores their product plus bias over the whole scratch. It then goes on exactly as at every other
  point, reading the four 512-row slices of what it has just stored.
-/
import proofs.«156365_g712964571491_cont_9to1c4b_112_17_alg».proof.Proof.KBodyLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: the pieces the body's stores leave in the output buffer and in the scratch, with the run
    that shows it — from the ten input buffers at contents x1 … s and the output buffer and the scratch at
    anything, the body reaches its continuation holding the inputs as they were and the output buffer and the
    scratch with those pieces written. -/
noncomputable def runFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) :
    Σ' (L : List (View.Piece (Elt F) S1256x256 .f32)), { LS : List (View.Piece (Elt F) S2048x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare a1 ∗ owns (c : Thread nD τ) arg5 fullShare a2 ∗ owns (c : Thread nD τ) arg6 fullShare a3 ∗ owns (c : Thread nD τ) arg7 fullShare a4
            ∗ owns (c : Thread nD τ) arg8 fullShare e ∗ owns (c : Thread nD τ) arg9 fullShare g ∗ owns (c : Thread nD τ) arg10 fullShare s
            ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3
            ∗ owns (c : Thread nD τ) arg4 fullShare a1 ∗ owns (c : Thread nD τ) arg5 fullShare a2 ∗ owns (c : Thread nD τ) arg6 fullShare a3 ∗ owns (c : Thread nD τ) arg7 fullShare a4
            ∗ owns (c : Thread nD τ) arg8 fullShare e ∗ owns (c : Thread nD τ) arg9 fullShare g ∗ owns (c : Thread nD τ) arg10 fullShare s
                ∗ (∃ f, arg11.view.loc (c : Thread nD τ) ↦[arg11.view.set]{fullShare} arg11.view.writes (Elt F) f L)
                ∗ (∃ f, arg12.view.loc (c : Thread nD τ) ↦[arg12.view.set]{fullShare} arg12.view.writes (Elt F) f LS)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__gcn_body_eq_skeleton]; unfold cc0__gcn_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; iexact H12

/-- The first-point store into the output buffer covers it: one piece of the block's own size. -/
theorem coverFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (y : S1256x256.Idx) :
    ∃ pc ∈ (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).1 S1256x256.size (by sl_kernel_rfl) y

/-- The first-point store into the scratch covers it: one piece of the scratch's own size. -/
theorem scoverFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (y : S2048x256.Idx) :
    ∃ pc ∈ (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).2.1 S2048x256.size (by sl_kernel_rfl) y

/-- What the first point leaves in the output buffer: its piece read back. -/
def outFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) : Vec F S1256x256 .f32 :=
  VOut.read (Elt F) (VOut.writes (Elt F) VOut.junk (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).1)

/-- What the first point leaves in the scratch: its piece read back. -/
def scrFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) : Vec F S2048x256 .f32 :=
  VScr.read (Elt F) (VScr.writes (Elt F) VScr.junk (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).2.1)

end Cert.Kernel.Body

end
-- ==== Proof.KFrame.lean ====
/-
  The kernel region run point by point, for the claim that the program runs to the end and leaves its arguments
  alone: the body at every grid point, handed the eleven staging buffers at what they hold, gives them back — the
  inputs as found, the result's buffer at whatever it stored — and the pipeline's rule turns that into the run of
  the whole region. The weight matrix is read through four windows, so its points-to is split four ways at entry.
-/
import proofs.«156365_g712964571491_cont_9to1c4b_112_17_alg».proof.Proof.KData
import proofs.«156365_g712964571491_cont_9to1c4b_112_17_alg».proof.Proof.KBodyFirst
import Idealize.ShloMosaic.Lib.Pipeline.Kit
import Idealize.ShloMosaic.Lib.Pipeline.Frame
import Idealize.ShloMosaic.Lib.Tactic

set_option maxRecDepth 16384

noncomputable section

namespace Cert.Kernel.Frame

open Cert.Kernel Cert.Kernel.Gen Cert.Kernel.Entry Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- For this claim: the result's buffer unnamed, the invariant the same at every point. -/
abbrev dats (_ : Fin 1) (c : Dev nD) : Dat τ (Elt F) Unit ℕ (UR sig nD τ) ℕ cfg0 c :=
  datsOf m c (fun t => Dat.unnamed 10 t) (fun _ => Inv c)

/-! ## The body at every point -/

/-- What the body is called with at point `t`: the invariant, what the core owes, and the eleven buffers — the ten
    inputs at what they hold, the result's at anything; -/
def bodyPre (c : Dev nD) (t : Fin cfg0.N) : sProp 𝕄 :=
  iprop(Inv c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X))

/-- and what it returns: the inputs as found (a row block's stated on the rows inside the array), the result's
    buffer at anything again. -/
def bodyPost (c : Dev nD) (t : Fin cfg0.N) : sProp 𝕄 :=
  iprop(Inv c ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((cfg0.win 3).fill (grid0.coords t) d ((cfg0.win 3).cut (grid0.coords t) ((dats m 0 c).after 3 t))))
    ∗ (∃ d, owns (c : Thread nD τ) (st0_4 t) fullShare ((cfg0.win 4).fill (grid0.coords t) d ((cfg0.win 4).cut (grid0.coords t) ((dats m 0 c).after 4 t))))
    ∗ (∃ d, owns (c : Thread nD τ) (st0_5 t) fullShare ((cfg0.win 5).fill (grid0.coords t) d ((cfg0.win 5).cut (grid0.coords t) ((dats m 0 c).after 5 t))))
    ∗ (∃ d, owns (c : Thread nD τ) (st0_6 t) fullShare ((cfg0.win 6).fill (grid0.coords t) d ((cfg0.win 6).cut (grid0.coords t) ((dats m 0 c).after 6 t))))
    ∗ (∃ d, owns (c : Thread nD τ) (st0_7 t) fullShare ((cfg0.win 7).fill (grid0.coords t) d ((cfg0.win 7).cut (grid0.coords t) ((dats m 0 c).after 7 t))))
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X))

set_option maxHeartbeats 1600000 in
/-- At the first point the scratch is taken at anything and given back at what the body stored in it; at the
    others it is only read. Either way the ten inputs come back as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  simp only [before_0, before_1, before_2, before_3, before_4, before_5, before_6, before_7, before_8, before_9]
  have e3 (d) : (win0 3).fill (grid0.coords t) d ((win0 3).cut (grid0.coords t) (landed0 m c 3 t)) = landed m c 3 t d :=
    congrArg ((win0 3).fill (grid0.coords t) d) ((win0 3).cut_fill (grid0.coords t) _ (part m c 3 t))
  have e4 (d) : (win0 4).fill (grid0.coords t) d ((win0 4).cut (grid0.coords t) (landed0 m c 4 t)) = landed m c 4 t d :=
    congrArg ((win0 4).fill (grid0.coords t) d) ((win0 4).cut_fill (grid0.coords t) _ (part m c 4 t))
  have e5 (d) : (win0 5).fill (grid0.coords t) d ((win0 5).cut (grid0.coords t) (landed0 m c 5 t)) = landed m c 5 t d :=
    congrArg ((win0 5).fill (grid0.coords t) d) ((win0 5).cut_fill (grid0.coords t) _ (part m c 5 t))
  have e6 (d) : (win0 6).fill (grid0.coords t) d ((win0 6).cut (grid0.coords t) (landed0 m c 6 t)) = landed m c 6 t d :=
    congrArg ((win0 6).fill (grid0.coords t) d) ((win0 6).cut_fill (grid0.coords t) _ (part m c 6 t))
  have e7 (d) : (win0 7).fill (grid0.coords t) d ((win0 7).cut (grid0.coords t) (landed0 m c 7 t)) = landed m c 7 t d :=
    congrArg ((win0 7).fill (grid0.coords t) d) ((win0 7).cut_fill (grid0.coords t) _ (part m c 7 t))
  iintro ⟨⟨⟨%P, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X10, H10⟩⟩
  by_cases hc : firstPoint (grid0.coords t)
  · iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists X10; iexact H10
    isplitl [HS]; · iexists P; iexact HS
    iintro ⟨H0, H1, H2, H3, H4, H5, H6, H7, H8, H9, ⟨%f10, H10⟩, ⟨%fS, HS⟩⟩
    isplitl [HS Hg]
    · isplitl [HS]
      · unfold owns; iexists _, _; isplitr; swap; · iexact HS
        ipureintro; rfl
      · iexact Hg
    isplitl [Ho]; · iexact Ho
    isplitl [H0]; · rw [after_0]; iexact H0
    isplitl [H1]; · rw [after_1]; iexact H1
    isplitl [H2]; · rw [after_2]; iexact H2
    isplitl [H3]; · iexists d3; rw [after_3, e3 d3]; iexact H3
    isplitl [H4]; · iexists d4; rw [after_4, e4 d4]; iexact H4
    isplitl [H5]; · iexists d5; rw [after_5, e5 d5]; iexact H5
    isplitl [H6]; · iexists d6; rw [after_6, e6 d6]; iexact H6
    isplitl [H7]; · iexists d7; rw [after_7, e7 d7]; iexact H7
    isplitl [H8]; · rw [after_8]; iexact H8
    isplitl [H9]; · rw [after_9]; iexact H9
    unfold owns; iexists _, _; isplitr; swap; · iexact H10
    ipureintro; rfl
  · iapply ((runLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t) P).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists X10; iexact H10
    isplitl [HS]; · iexact HS
    iintro ⟨H0, H1, H2, H3, H4, H5, H6, H7, H8, H9, ⟨%f10, H10⟩, HS⟩
    isplitl [HS Hg]
    · isplitl [HS]
      · iexists P; iexact HS
      · iexact Hg
    isplitl [Ho]; · iexact Ho
    isplitl [H0]; · rw [after_0]; iexact H0
    isplitl [H1]; · rw [after_1]; iexact H1
    isplitl [H2]; · rw [after_2]; iexact H2
    isplitl [H3]; · iexists d3; rw [after_3, e3 d3]; iexact H3
    isplitl [H4]; · iexists d4; rw [after_4, e4 d4]; iexact H4
    isplitl [H5]; · iexists d5; rw [after_5, e5 d5]; iexact H5
    isplitl [H6]; · iexists d6; rw [after_6, e6 d6]; iexact H6
    isplitl [H7]; · iexists d7; rw [after_7, e7 d7]; iexact H7
    isplitl [H8]; · rw [after_8]; iexact H8
    isplitl [H9]; · rw [after_9]; iexact H9
    unfold owns; iexists _, _; isplitr; swap; · iexact H10
    ipureintro; rfl

/-- The pipeline's body obligation, the result's window forgotten. -/
theorem body_obligation (c : Dev nD) :
    BodyObligationLoose (dats m 0 c) (defs₀ (F := F)) Variants.none () Set.univ forgetOut := fun t => by
  rw [bigSep_W0, bigSep_W0]
  exact sound_body m c t

/-! ## The run -/

/-- The proof data read as relations, the result's window forgotten. -/
abbrev rdat (c : Dev nD) : RDat τ (Elt F) Unit ℕ (UR sig nD τ) ℕ cfg0 c := (dats m 0 c).toRForget forgetOut

/-- The configuration as one with no prefetched table, and its one admissible table contents. -/
abbrev pcs0 : Fin 1 → Pipeline.PCfg sig Λ₀ (Elt F) := fun q => (cfgs q).toPCfg (Val := Elt F)
abbrev adm0 : (q : Fin 1) → (pcs0 (F := F) q).Adm := fun q => (cfgs q).toPCfg_adm

set_option backward.isDefEq.respectTransparency.types false in
/-- From any memory with zero counters every weakly fair execution of @main ends; the three argument arrays the
    windows read end as the region found them, and so does every unscoped buffer that is no window's array. -/
theorem run_main : θ_run defs (onTc (τ := τ) (main (F := F))) (s₀ m ρ) (RDat.FramePost cfg0 (rdat m) (V m)) := by
  classical
  exact Pipeline.RDat.θ_run_region_pf (pcs0 (F := F)) adm0 (fun _ c => rdat m c) () cellOf_inj (0 : Fin 1) winFacts₀0
    (Pipeline.OwnSemFacts.none spec0) (Pipeline.PreFacts.none _) emb₁ defs₀ Variants.none m ρ main
    (fun c => (body_obligation m c).toRForget)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells (Pipeline.pin (pcs0 (F := F)) adm0) cellOf_inj) (Pipeline.launchToks (Pipeline.pin (pcs0 (F := F)) adm0) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Shares.arrays_of_arrBufs_rdat c (V m c) (rdat m c) rfl (arrs m c) (fun _ => rfl))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => by
      show _ ⊢ Inv c
      rw [← inv_eq]; unfold Pipeline.ΦA
      iintro ⟨Hp, -, Hr⟩
      isplitl [Hr] <;> iassumption)
    (hout := fun c => by
      show Inv c ⊢ _
      rw [← inv_eq, Pipeline.ownSems0_none]; unfold Pipeline.ΦA
      iintro ⟨Hr, Hp⟩
      isplitl [Hp]; · iexact Hp
      isplitr; · iempintro
      iexact Hr)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨fun w => (h c).1 w, (h c).2.2⟩)

/-- The four small arguments (the linear map, its bias, the scale and the shift) are neither scoped nor any window's
    array: they bypass the region. -/
theorem arg3_rest : main_arg3 ∈ Pipeline.restRefs sig spec0 := by decide
theorem arg4_rest : main_arg4 ∈ Pipeline.restRefs sig spec0 := by decide
theorem arg5_rest : main_arg5 ∈ Pipeline.restRefs sig spec0 := by decide
theorem arg6_rest : main_arg6 ∈ Pipeline.restRefs sig spec0 := by decide

/-- After the run each of the seven arguments holds what it held. -/
theorem args_kept (r : PUnit × MemSt nD τ sig (Elt F)) (h : RDat.FramePost cfg0 (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  ⟨(h.arr_in c (0 : Fin 11) rfl).trans (V_arg0 m c), (h.arr_in c (3 : Fin 11) rfl).trans (V_arg1 m c),
    (h.arr_in c (7 : Fin 11) rfl).trans (V_arg2 m c),
    ((h c).2 _ arg3_rest).trans (V_arg3 m c), ((h c).2 _ arg4_rest).trans (V_arg4 m c),
    ((h c).2 _ arg5_rest).trans (V_arg5 m c), ((h c).2 _ arg6_rest).trans (V_arg6 m c)⟩

end Cert.Kernel.Frame

end
-- ==== Proof.KiEntry.lean ====
/-
  What the kernel region finds when it is entered: @main first transposes the linear map and reshapes the bias and
  the two normalisation rows to one-row matrices, and touches none of its arguments; the region's eleven windows then
  stage the question features, the transposed map, the bias row, the weight matrix four times (one 512-column
  quarter each), the embeddings, the two normalisation rows, and the result.
-/
import proofs.«156365_g712964571491_cont_9to1c4b_112_17_alg».proof.Proof.Gen.KernelIdeal.Launch
import proofs.«156365_g712964571491_cont_9to1c4b_112_17_alg».proof.Proof.Gen.KernelIdeal.Points
import Idealize.ShloMosaic.Lib.Pipeline.Frame
import Idealize.ShloMosaic.Lib.StableHlo.Run
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: after @main's four host operations. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

/-- @main reduces to the region entered at those contents. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results
theorem V_arg3 (c : Dev nD) : V m c main_arg3 = m ((c : Thread nD τ).loc main_arg3) := by
  dsimp only [V, V0, hostOps0]; after_results
theorem V_arg4 (c : Dev nD) : V m c main_arg4 = m ((c : Thread nD τ).loc main_arg4) := by
  dsimp only [V, V0, hostOps0]; after_results
theorem V_arg5 (c : Dev nD) : V m c main_arg5 = m ((c : Thread nD τ).loc main_arg5) := by
  dsimp only [V, V0, hostOps0]; after_results
theorem V_arg6 (c : Dev nD) : V m c main_arg6 = m ((c : Thread nD τ).loc main_arg6) := by
  dsimp only [V, V0, hostOps0]; after_results

/-- The transposed linear map, and the three one-row matrices. -/
theorem V_v0 (c : Dev nD) : (V m c main_v0 : S256x256.Idx → Elt F .f32)
    = transpose S256x256 [1, 0] (m ((c : Thread nD τ).loc main_arg3)) transposes_S256x256_S256x256_1_0 := by
  dsimp only [V, V0, hostOps0]; after_results
theorem V_v1 (c : Dev nD) : (V m c main_v1 : S1x256.Idx → Elt F .f32)
    = shapeCast S1x256 (m ((c : Thread nD τ).loc main_arg4)) shapeCasts_S256_S1x256 := by
  dsimp only [V, V0, hostOps0]; after_results; rfl
theorem V_v2 (c : Dev nD) : (V m c main_v2 : S1x256.Idx → Elt F .f32)
    = shapeCast S1x256 (m ((c : Thread nD τ).loc main_arg5)) shapeCasts_S256_S1x256 := by
  dsimp only [V, V0, hostOps0]; after_results; rfl
theorem V_v3 (c : Dev nD) : (V m c main_v3 : S1x256.Idx → Elt F .f32)
    = shapeCast S1x256 (m ((c : Thread nD τ).loc main_arg6)) shapeCasts_S256_S1x256 := by
  dsimp only [V, V0, hostOps0]; after_results; rfl

end Cert.KernelIdeal.Entry

end
-- ==== Proof.KiShares.lean ====
/-
  How the launch's holdings meet the kernel region's windows. The region's eleven windows read EIGHT distinct
  arrays: windows 3, 4, 5 and 6 all read the weight matrix (one 512-column quarter each), the other seven windows an
  array each (the question features, the transposed map, the bias row, the embeddings, the two normalisation rows,
  the result). At the region's entry each distinct array is held whole at the full share; the region wants one
  points-to per window, an input window's at its own share. The full share of the weight matrix is therefore
  split in four, a half of a half to each of its windows: a share is the composite of its left and right halves,
  and a points-to splits along its share.
-/
import proofs.«156365_g712964571491_cont_9to1c4b_112_17_alg».proof.Proof.Gen.KernelIdeal.Launch
import Idealize.ShloMosaic.Lib.Pipeline.Launch

set_option maxRecDepth 16384

noncomputable section

namespace Cert.KernelIdeal.Shares

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The share each window holds its array at: the full share where the window has the array to itself, a quarter
    of it (a half of a half) for each of the four windows on the weight matrix. -/
abbrev quarter : Fin cfg0.W → PosShare TreeShare :=
  fun | 0 => fullShare | 1 => fullShare | 2 => fullShare | 3 => fullShare.left.left | 4 => fullShare.left.right | 5 => fullShare.right.left | 6 => fullShare.right.right | 7 => fullShare | 8 => fullShare | 9 => fullShare | 10 => fullShare | ⟨_ + 11, h⟩ => absurd h (Nat.not_lt.2 (Nat.le_add_left _ _))

/-- The distinct arrays behind the eleven windows are these eight. -/
theorem image_eq : (Finset.univ.image (Pipeline.arrRef spec0) : Finset (Ref sig .tc))
    = {main_arg0, main_v0, main_v1, main_arg1, main_arg2, main_v2, main_v3, main_v4} := by decide

/-- The eight distinct arrays whole at the full share give every window its array at its share: the seven
    windows that have an array to themselves take it as it is, and the weight matrix's full share is halved
    and each half halved again, a quarter to each of its four windows. -/
theorem arrays_of_arrBufs (c : Dev nD) (V : (b : Ref sig .tc) → Buf (Elt F) ((c : Thread nD τ).loc b))
    (A : (w : Fin cfg0.W) → Buf (Elt F) ((cfg0.win w).arr.view.loc (c : Thread nD τ))) (hA : ∀ w, A w = V (Pipeline.arrRef spec0 w)) :
    (Pipeline.arrBufs (Ix := Unit) (Name := ℕ) (U := UR sig nD τ) (Lvl := ℕ) spec0 c V : sProp (MT nD τ sig Unit (Elt F) ℕ (UR sig nD τ) ℕ))
      ⊢ bigSep Finset.univ fun w : Fin cfg0.W => (cfg0.win w).arr.view.loc (c : Thread nD τ) ↦[(cfg0.win w).arr.view.set]{if (cfg0.win w).isOut then fullShare else quarter w} A w := by
  obtain rfl : A = fun w => V (Pipeline.arrRef spec0 w) := funext hA
  unfold Pipeline.arrBufs
  rw [image_eq, bigSep_W0]
  rw [show (cfg0.win 0).arr.view.set = Finset.univ from (arr_whole0 0).set_eq_univ,
    show (cfg0.win 1).arr.view.set = Finset.univ from (arr_whole0 1).set_eq_univ,
    show (cfg0.win 2).arr.view.set = Finset.univ from (arr_whole0 2).set_eq_univ,
    show (cfg0.win 3).arr.view.set = Finset.univ from (arr_whole0 3).set_eq_univ,
    show (cfg0.win 7).arr.view.set = Finset.univ from (arr_whole0 7).set_eq_univ,
    show (cfg0.win 8).arr.view.set = Finset.univ from (arr_whole0 8).set_eq_univ,
    show (cfg0.win 9).arr.view.set = Finset.univ from (arr_whole0 9).set_eq_univ,
    show (cfg0.win 10).arr.view.set = Finset.univ from (arr_whole0 10).set_eq_univ]
  change _ ⊢ iprop((((c : Thread nD τ).loc main_arg0) ↦{fullShare} V main_arg0)
    ∗ (((c : Thread nD τ).loc main_v0) ↦{fullShare} V main_v0)
    ∗ (((c : Thread nD τ).loc main_v1) ↦{fullShare} V main_v1)
    ∗ (((c : Thread nD τ).loc main_arg1) ↦{fullShare.left.left} V main_arg1)
    ∗ (((c : Thread nD τ).loc main_arg1) ↦{fullShare.left.right} V main_arg1)
    ∗ (((c : Thread nD τ).loc main_arg1) ↦{fullShare.right.left} V main_arg1)
    ∗ (((c : Thread nD τ).loc main_arg1) ↦{fullShare.right.right} V main_arg1)
    ∗ (((c : Thread nD τ).loc main_arg2) ↦{fullShare} V main_arg2)
    ∗ (((c : Thread nD τ).loc main_v2) ↦{fullShare} V main_v2)
    ∗ (((c : Thread nD τ).loc main_v3) ↦{fullShare} V main_v3)
    ∗ (((c : Thread nD τ).loc main_v4) ↦{fullShare} V main_v4))
  rw [bigSep_insert (by decide), bigSep_insert (by decide), bigSep_insert (by decide), bigSep_insert (by decide),
    bigSep_insert (by decide), bigSep_insert (by decide), bigSep_insert (by decide), bigSep_singleton]
  change iprop((((c : Thread nD τ).loc main_arg0) ↦{fullShare} V main_arg0)
    ∗ (((c : Thread nD τ).loc main_v0) ↦{fullShare} V main_v0)
    ∗ (((c : Thread nD τ).loc main_v1) ↦{fullShare} V main_v1)
    ∗ (((c : Thread nD τ).loc main_arg1) ↦{fullShare} V main_arg1)
    ∗ (((c : Thread nD τ).loc main_arg2) ↦{fullShare} V main_arg2)
    ∗ (((c : Thread nD τ).loc main_v2) ↦{fullShare} V main_v2)
    ∗ (((c : Thread nD τ).loc main_v3) ↦{fullShare} V main_v3)
    ∗ (((c : Thread nD τ).loc main_v4) ↦{fullShare} V main_v4)) ⊢ _
  iintro ⟨H0, Hv0, Hv1, H1, H2, Hv2, Hv3, Hv4⟩
  ihave H1 := (pointsTo_share (PosShare.mem_left_op_right fullShare)).1 $$ H1
  icases H1 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [H0]; · iexact H0
  isplitl [Hv0]; · iexact Hv0
  isplitl [Hv1]; · iexact Hv1
  isplitl [Hll]; · iexact Hll
  isplitl [Hlr]; · iexact Hlr
  isplitl [Hrl]; · iexact Hrl
  isplitl [Hrr]; · iexact Hrr
  isplitl [H2]; · iexact H2
  isplitl [Hv2]; · iexact Hv2
  isplitl [Hv3]; · iexact Hv3
  iexact Hv4

/-- The same through proof data whose input shares are `quarter`. -/
theorem arrays_of_arrBufs_dat (c : Dev nD) (V : (b : Ref sig .tc) → Buf (Elt F) ((c : Thread nD τ).loc b))
    (dat : Pipeline.Dat τ (Elt F) Unit ℕ (UR sig nD τ) ℕ cfg0 c) (hq : dat.q = quarter)
    (A : (w : Fin cfg0.W) → Buf (Elt F) ((cfg0.win w).arr.view.loc (c : Thread nD τ))) (hA : ∀ w, A w = V (Pipeline.arrRef spec0 w)) :
    (Pipeline.arrBufs (Ix := Unit) (Name := ℕ) (U := UR sig nD τ) (Lvl := ℕ) spec0 c V : sProp (MT nD τ sig Unit (Elt F) ℕ (UR sig nD τ) ℕ))
      ⊢ dat.arrays A := by
  unfold Pipeline.Dat.arrays Pipeline.Dat.share
  rw [hq]
  exact arrays_of_arrBufs c V A hA

/-- The same through relational proof data whose input shares are `quarter`. -/
theorem arrays_of_arrBufs_rdat (c : Dev nD) (V : (b : Ref sig .tc) → Buf (Elt F) ((c : Thread nD τ).loc b))
    (rd : Pipeline.RDat τ (Elt F) Unit ℕ (UR sig nD τ) ℕ cfg0 c) (hq : rd.q = quarter)
    (A : (w : Fin cfg0.W) → Buf (Elt F) ((cfg0.win w).arr.view.loc (c : Thread nD τ))) (hA : ∀ w, A w = V (Pipeline.arrRef spec0 w)) :
    (Pipeline.arrBufs (Ix := Unit) (Name := ℕ) (U := UR sig nD τ) (Lvl := ℕ) spec0 c V : sProp (MT nD τ sig Unit (Elt F) ℕ (UR sig nD τ) ℕ))
      ⊢ rd.arrays A := by
  unfold Pipeline.RDat.arrays Pipeline.RDat.share
  rw [hq]
  exact arrays_of_arrBufs c V A hA

end Cert.KernelIdeal.Shares

end
-- ==== Proof.KiData.lean ====
/-
  The kernel region as the pipeline runs it: the arrays, the buffers, and what the body finds in each.

  The grid has eight points; at each the pipeline hands the body eleven staging buffers. Five of them (the question
  features, the transposed map, the bias row, the two normalisation rows) are filled once, at the first point, with
  the whole of their arrays and keep it. Five (the four 512-column quarters of the weight matrix and the embeddings)
  are filled at every point with the point's 1256 rows; the eighth block reaches 48 rows past the arrays' 10000, and
  there the buffer's last rows hold words nothing names. The eleventh takes the body's result and is written back at
  every point, the eighth time only its first 1208 rows. The four quarter windows read ONE array, so that array is
  held a quarter share each.

  What the body leaves in the result's buffer, and the invariant it keeps, are left open here: the claim that the
  program runs and keeps its arguments says nothing of either; the claim about its value names both.
-/
import proofs.«156365_g712964571491_cont_9to1c4b_112_17_alg».proof.Proof.KiEntry
import proofs.«156365_g712964571491_cont_9to1c4b_112_17_alg».proof.Proof.KiShares
import Idealize.ShloMosaic.Lib.Pipeline.Kit
import Idealize.ShloMosaic.Lib.Pipeline.Frame
import Idealize.ShloMosaic.Lib.Tactic

set_option maxRecDepth 16384

noncomputable section

namespace Cert.KernelIdeal.Frame

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffer, whole. -/
abbrev scrM : Memref sig .tc .vmem S2048x256 .f32 := Memref.whole cc0_scratch0

/-- The windows' arrays as the region finds them. -/
abbrev arrs (c : Dev nD) (w : Fin cfg0.W) : Buf (Elt F) ((cfg0.win w).arr.view.loc (c : Thread nD τ)) :=
  V m c (Pipeline.arrRef spec0 w)

/-- What the buffer of a window filled only at the first point holds at point `t`: what was last fetched into it. -/
abbrev held (c : Dev nD) (w : Fin cfg0.W) (t : Fin cfg0.N) : (cfg0.win w).block.Idx → Elt F (cfg0.win w).elt :=
  Pipeline.heldIn cfg0 (arrs m c) w t.val t.isLt

/-- The part of a row block that lies inside its array, as the fetch at point `t` reads it, -/
abbrev part (c : Dev nD) (w : Fin cfg0.W) (t : Fin cfg0.N) : ((cfg0.win w).xblock (grid0.coords t)).Idx → Elt F (cfg0.win w).elt :=
  ((cfg0.win w).blk t).view.read (Elt F) (arrs m c w)

/-- and the buffer it lands in, the rows past the array's end at `d`. -/
abbrev landed (c : Dev nD) (w : Fin cfg0.W) (t : Fin cfg0.N) (d : (cfg0.win w).block.Idx → Elt F (cfg0.win w).elt) :
    (cfg0.win w).block.Idx → Elt F (cfg0.win w).elt :=
  (cfg0.win w).fill (grid0.coords t) d (part m c w t)

/-- The same with the zero word past the array's end: a name for what the body hands back, which is stated on the
    rows inside the array only. -/
abbrev landed0 (c : Dev nD) (w : Fin cfg0.W) (t : Fin cfg0.N) : (cfg0.win w).block.Idx → Elt F (cfg0.win w).elt :=
  landed m c w t (fun _ => Classical.arbitrary _)

/-- The result's window is the one forgotten. -/
abbrev forgetOut : Fin cfg0.W → Bool :=
  fun | 0 => false | 1 => false | 2 => false | 3 => false | 4 => false | 5 => false | 6 => false | 7 => false | 8 => false | 9 => false | 10 => true | ⟨_ + 11, h⟩ => absurd h (Nat.not_lt.2 (Nat.le_add_left _ _))

/-- The region invariant, the same at every point: the scratch at some contents and the generator register at some state. -/
abbrev Inv (c : Dev nD) : sProp 𝕄 := iprop((∃ d, owns (c : Thread nD τ) scrM fullShare d) ∗ (∃ r, prngReg c r))

theorem inv_eq (c : Dev nD) : (Pipeline.ΦA spec0 c : sProp 𝕄) = Inv (F := F) c := by
  unfold Pipeline.ΦA; rw [scopedRest0_eq]; simp only [Inv, scrM, owns_whole]; rfl

/-- An account of what the body leaves in the result's buffer, point by point; and an invariant, point by point. -/
abbrev OutAt (F : FTy → Type) [FloatOps F] : Type := Fin cfg0.N → (cfg0.win 10).block.Idx → Elt F (cfg0.win 10).elt
abbrev InvAt (F : FTy → Type) [FloatOps F] : Type := Fin (cfg0.N + 1) → sProp (MT nD τ sig Unit (Elt F) ℕ (UR sig nD τ) ℕ)

/-- The proof data, for any account `out` of what the body leaves in the result's buffer and any invariant `Φ`: the
    arrays as the region finds them; after the body the five once-filled buffers at what they held and the five
    row-block buffers at their blocks; the weight matrix's share dealt in quarters. -/
def datsOf (c : Dev nD) (out : OutAt F) (inv : InvAt F) :
    Dat τ (Elt F) Unit ℕ (UR sig nD τ) ℕ cfg0 c where
  A w := arrs m c w
  after w t := match w with
    | ⟨0, _⟩ => held m c 0 t
    | ⟨1, _⟩ => held m c 1 t
    | ⟨2, _⟩ => held m c 2 t
    | ⟨3, _⟩ => landed0 m c 3 t
    | ⟨4, _⟩ => landed0 m c 4 t
    | ⟨5, _⟩ => landed0 m c 5 t
    | ⟨6, _⟩ => landed0 m c 6 t
    | ⟨7, _⟩ => landed0 m c 7 t
    | ⟨8, _⟩ => held m c 8 t
    | ⟨9, _⟩ => held m c 9 t
    | ⟨10, _⟩ => out t
  Φ := inv
  q := Shares.quarter
  owed _ := 0

theorem after_0 (out : OutAt F) (inv : InvAt F) (c : Dev nD) (t : Fin cfg0.N) : (datsOf m c out inv).after 0 t = held m c 0 t := by dsimp only [datsOf]
theorem after_1 (out : OutAt F) (inv : InvAt F) (c : Dev nD) (t : Fin cfg0.N) : (datsOf m c out inv).after 1 t = held m c 1 t := by dsimp only [datsOf]
theorem after_2 (out : OutAt F) (inv : InvAt F) (c : Dev nD) (t : Fin cfg0.N) : (datsOf m c out inv).after 2 t = held m c 2 t := by dsimp only [datsOf]
theorem after_3 (out : OutAt F) (inv : InvAt F) (c : Dev nD) (t : Fin cfg0.N) : (datsOf m c out inv).after 3 t = landed0 m c 3 t := by dsimp only [datsOf]
theorem after_4 (out : OutAt F) (inv : InvAt F) (c : Dev nD) (t : Fin cfg0.N) : (datsOf m c out inv).after 4 t = landed0 m c 4 t := by dsimp only [datsOf]
theorem after_5 (out : OutAt F) (inv : InvAt F) (c : Dev nD) (t : Fin cfg0.N) : (datsOf m c out inv).after 5 t = landed0 m c 5 t := by dsimp only [datsOf]
theorem after_6 (out : OutAt F) (inv : InvAt F) (c : Dev nD) (t : Fin cfg0.N) : (datsOf m c out inv).after 6 t = landed0 m c 6 t := by dsimp only [datsOf]
theorem after_7 (out : OutAt F) (inv : InvAt F) (c : Dev nD) (t : Fin cfg0.N) : (datsOf m c out inv).after 7 t = landed0 m c 7 t := by dsimp only [datsOf]
theorem after_8 (out : OutAt F) (inv : InvAt F) (c : Dev nD) (t : Fin cfg0.N) : (datsOf m c out inv).after 8 t = held m c 8 t := by dsimp only [datsOf]
theorem after_9 (out : OutAt F) (inv : InvAt F) (c : Dev nD) (t : Fin cfg0.N) : (datsOf m c out inv).after 9 t = held m c 9 t := by dsimp only [datsOf]
theorem after_10 (out : OutAt F) (inv : InvAt F) (c : Dev nD) (t : Fin cfg0.N) : (datsOf m c out inv).after 10 t = out t := by dsimp only [datsOf]

/-! ## What the body finds in each buffer -/

/-- A once-filled window's buffer holds what was last fetched into it, at every point. -/
theorem before_held (out : OutAt F) (inv : InvAt F) (c : Dev nD) (w : Fin cfg0.W) (hw : (cfg0.win w).isOut = false)
    (hclip : ∀ (i : grid0.Coords) a, (cfg0.win w).clip i a = none)
    (hafter : ∀ t, (datsOf m c out inv).after w t = held m c w t) (t : Fin cfg0.N) (d) :
    (datsOf m c out inv).before w t d = held m c w t :=
  (datsOf m c out inv).before_eq_heldIn w hw (fun _ => rfl) hclip hafter t d

theorem before_0 (out : OutAt F) (inv : InvAt F) (c : Dev nD) (t : Fin cfg0.N) (d) : (datsOf m c out inv).before 0 t d = held m c 0 t :=
  before_held m out inv c 0 rfl (fun _ _ => rfl) (after_0 m out inv c) t d
theorem before_1 (out : OutAt F) (inv : InvAt F) (c : Dev nD) (t : Fin cfg0.N) (d) : (datsOf m c out inv).before 1 t d = held m c 1 t :=
  before_held m out inv c 1 rfl (fun _ _ => rfl) (after_1 m out inv c) t d
theorem before_2 (out : OutAt F) (inv : InvAt F) (c : Dev nD) (t : Fin cfg0.N) (d) : (datsOf m c out inv).before 2 t d = held m c 2 t :=
  before_held m out inv c 2 rfl (fun _ _ => rfl) (after_2 m out inv c) t d
theorem before_8 (out : OutAt F) (inv : InvAt F) (c : Dev nD) (t : Fin cfg0.N) (d) : (datsOf m c out inv).before 8 t d = held m c 8 t :=
  before_held m out inv c 8 rfl (fun _ _ => rfl) (after_8 m out inv c) t d
theorem before_9 (out : OutAt F) (inv : InvAt F) (c : Dev nD) (t : Fin cfg0.N) (d) : (datsOf m c out inv).before 9 t d = held m c 9 t :=
  before_held m out inv c 9 rfl (fun _ _ => rfl) (after_9 m out inv c) t d

/-- A row-block window's buffer has just been fetched into. -/
theorem before_3 (out : OutAt F) (inv : InvAt F) (c : Dev nD) (t : Fin cfg0.N) (d) : (datsOf m c out inv).before 3 t d = landed m c 3 t d := by
  rw [(datsOf m c out inv).before_fetched 3 t (fetch0_3 t)]; rfl
theorem before_4 (out : OutAt F) (inv : InvAt F) (c : Dev nD) (t : Fin cfg0.N) (d) : (datsOf m c out inv).before 4 t d = landed m c 4 t d := by
  rw [(datsOf m c out inv).before_fetched 4 t (fetch0_4 t)]; rfl
theorem before_5 (out : OutAt F) (inv : InvAt F) (c : Dev nD) (t : Fin cfg0.N) (d) : (datsOf m c out inv).before 5 t d = landed m c 5 t d := by
  rw [(datsOf m c out inv).before_fetched 5 t (fetch0_5 t)]; rfl
theorem before_6 (out : OutAt F) (inv : InvAt F) (c : Dev nD) (t : Fin cfg0.N) (d) : (datsOf m c out inv).before 6 t d = landed m c 6 t d := by
  rw [(datsOf m c out inv).before_fetched 6 t (fetch0_6 t)]; rfl
theorem before_7 (out : OutAt F) (inv : InvAt F) (c : Dev nD) (t : Fin cfg0.N) (d) : (datsOf m c out inv).before 7 t d = landed m c 7 t d := by
  rw [(datsOf m c out inv).before_fetched 7 t (fetch0_7 t)]; rfl

/-- What a row-block buffer is handed back at, on the rows inside the array, is its block. -/
theorem cut_landed0 (c : Dev nD) (w : Fin cfg0.W) (t : Fin cfg0.N) :
    (cfg0.win w).cut (grid0.coords t) (landed0 m c w t) = part m c w t := (cfg0.win w).cut_fill _ _ _

end Cert.KernelIdeal.Frame

end
-- ==== Proof.KiBodyLater.lean ====
/-
  The kernel body at a grid point other than the first, run on arbitrary whole staging buffers.

  At such a point the body writes nothing into the scratch that holds the projected features: it reads the four
  512-column quarters of its block of the weight matrix, the four matching 512-row slices of the scratch, the
  embedding block and the two normalisation rows, and stores one value, the normalised block, over the whole
  output buffer. Every buffer it only reads is handed back as it was found.
-/
import proofs.«156365_g712964571491_cont_9to1c4b_112_17_alg».proof.Proof.Gen.KernelIdeal.Launch
import proofs.«156365_g712964571491_cont_9to1c4b_112_17_alg».proof.Proof.Gen.KernelIdeal.Skeleton
import proofs.«156365_g712964571491_cont_9to1c4b_112_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the grid coordinate is zero (the point that fills the scratch). -/
abbrev firstPoint (i : grid0.Coords) : Prop :=
  (Scalar.cmpi .ne (Scalar.extui (Scalar.cmpi .eq (BitVec.ofNat 32 (i 0).val) 0#32)) 0#32) = 1#1

/-- A view of the output block's shape and of the scratch's shape, through which stored contents are read back. -/
abbrev VOut : View sig .tc .vmem S1256x256 .f32 := (Memref.whole cc0_stg10_0 : Memref sig .tc .vmem S1256x256 .f32).view
abbrev VScr : View sig .tc .vmem S2048x256 .f32 := (Memref.whole cc0_scratch0 : Memref sig .tc .vmem S2048x256 .f32).view

set_option maxHeartbeats 4000000 in
/-- At a later point: the pieces the body's one store leaves in the output buffer, with the run that shows it —
    from the ten input buffers at contents x1 … s, the output buffer at anything and the scratch at P, the body
    reaches its continuation holding the inputs and the scratch as they were and the output buffer with those
    pieces written. -/
noncomputable def runLater (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : ¬firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (P : Vec F S2048x256 .f32) :
    { L : List (View.Piece (Elt F) S1256x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare a1 ∗ owns (c : Thread nD τ) arg5 fullShare a2 ∗ owns (c : Thread nD τ) arg6 fullShare a3 ∗ owns (c : Thread nD τ) arg7 fullShare a4
            ∗ owns (c : Thread nD τ) arg8 fullShare e ∗ owns (c : Thread nD τ) arg9 fullShare g ∗ owns (c : Thread nD τ) arg10 fullShare s
            ∗ (∃ d, owns (c : Thread nD τ) arg11 fullShare d) ∗ owns (c : Thread nD τ) arg12 fullShare P
            ∗ (iprop(owns (c : Thread nD τ) arg1 fullShare x1 ∗ owns (c : Thread nD τ) arg2 fullShare x2 ∗ owns (c : Thread nD τ) arg3 fullShare x3
            ∗ owns (c : Thread nD τ) arg4 fullShare a1 ∗ owns (c : Thread nD τ) arg5 fullShare a2 ∗ owns (c : Thread nD τ) arg6 fullShare a3 ∗ owns (c : Thread nD τ) arg7 fullShare a4
            ∗ owns (c : Thread nD τ) arg8 fullShare e ∗ owns (c : Thread nD τ) arg9 fullShare g ∗ owns (c : Thread nD τ) arg10 fullShare s
                ∗ (∃ f, arg11.view.loc (c : Thread nD τ) ↦[arg11.view.set]{fullShare} arg11.view.writes (Elt F) f L)
                ∗ owns (c : Thread nD τ) arg12 fullShare P) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_body_eq_skeleton]; unfold cc0__gcn_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6; obtain rfl := harg7.eq_unread hf7
    obtain rfl := harg8.eq_unread hf8; obtain rfl := harg9.eq_unread hf9; obtain rfl := harg10.eq_unread hf10; obtain rfl := harg12.eq_unread hf12
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; isplitr; · ipureintro; exact harg12.read_unread _
    iexact H12

/-- The later-point store covers the output block: one piece of the block's own size. -/
theorem coverLater (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : ¬firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (P : Vec F S2048x256 .f32) (y : S1256x256.Idx) :
    ∃ pc ∈ (runLater c i arg1 harg1 arg2 harg2 arg3 harg3 arg4 harg4 arg5 harg5 arg6 harg6 arg7 harg7 arg8 harg8 arg9 harg9 arg10 harg10 arg11 harg11 arg12 harg12 hc x1 x2 x3 a1 a2 a3 a4 e g s P).1, y ∈ pc.1.set :=
  View.cover_of_tiledL (runLater c i arg1 harg1 arg2 harg2 arg3 harg3 arg4 harg4 arg5 harg5 arg6 harg6 arg7 harg7 arg8 harg8 arg9 harg9 arg10 harg10 arg11 harg11 arg12 harg12 hc x1 x2 x3 a1 a2 a3 a4 e g s P).1 S1256x256.size (by sl_kernel_rfl) y

/-- What a later point leaves in the output buffer: its piece read back. -/
def outLater (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : ¬firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (P : Vec F S2048x256 .f32) : Vec F S1256x256 .f32 :=
  VOut.read (Elt F) (VOut.writes (Elt F) VOut.junk (runLater c i arg1 harg1 arg2 harg2 arg3 harg3 arg4 harg4 arg5 harg5 arg6 harg6 arg7 harg7 arg8 harg8 arg9 harg9 arg10 harg10 arg11 harg11 arg12 harg12 hc x1 x2 x3 a1 a2 a3 a4 e g s P).1)

end Cert.KernelIdeal.Body

end
-- ==== Proof.KiBodyFirst.lean ====
/-
  The kernel body at the first grid point, run on arbitrary whole staging buffers.

  Here the body first fills the scratch: it reads the question features, the transposed linear map and the bias
  row, and stores their product plus bias over the whole scratch. It then goes on exactly as at every other
  point, reading the four 512-row slices of what it has just stored.
-/
import proofs.«156365_g712964571491_cont_9to1c4b_112_17_alg».proof.Proof.KiBodyLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: the pieces the body's stores leave in the output buffer and in the scratch, with the run
    that shows it — from the ten input buffers at contents x1 … s and the output buffer and the scratch at
    anything, the body reaches its continuation holding the inputs as they were and the output buffer and the
    scratch with those pieces written. -/
noncomputable def runFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) :
    Σ' (L : List (View.Piece (Elt F) S1256x256 .f32)), { LS : List (View.Piece (Elt F) S2048x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare a1 ∗ owns (c : Thread nD τ) arg5 fullShare a2 ∗ owns (c : Thread nD τ) arg6 fullShare a3 ∗ owns (c : Thread nD τ) arg7 fullShare a4
            ∗ owns (c : Thread nD τ) arg8 fullShare e ∗ owns (c : Thread nD τ) arg9 fullShare g ∗ owns (c : Thread nD τ) arg10 fullShare s
            ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3
            ∗ owns (c : Thread nD τ) arg4 fullShare a1 ∗ owns (c : Thread nD τ) arg5 fullShare a2 ∗ owns (c : Thread nD τ) arg6 fullShare a3 ∗ owns (c : Thread nD τ) arg7 fullShare a4
            ∗ owns (c : Thread nD τ) arg8 fullShare e ∗ owns (c : Thread nD τ) arg9 fullShare g ∗ owns (c : Thread nD τ) arg10 fullShare s
                ∗ (∃ f, arg11.view.loc (c : Thread nD τ) ↦[arg11.view.set]{fullShare} arg11.view.writes (Elt F) f L)
                ∗ (∃ f, arg12.view.loc (c : Thread nD τ) ↦[arg12.view.set]{fullShare} arg12.view.writes (Elt F) f LS)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__gcn_body_eq_skeleton]; unfold cc0__gcn_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; iexact H12

/-- The first-point store into the output buffer covers it: one piece of the block's own size. -/
theorem coverFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (y : S1256x256.Idx) :
    ∃ pc ∈ (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).1 S1256x256.size (by sl_kernel_rfl) y

/-- The first-point store into the scratch covers it: one piece of the scratch's own size. -/
theorem scoverFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (y : S2048x256.Idx) :
    ∃ pc ∈ (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).2.1 S2048x256.size (by sl_kernel_rfl) y

/-- What the first point leaves in the output buffer: its piece read back. -/
def outFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) : Vec F S1256x256 .f32 :=
  VOut.read (Elt F) (VOut.writes (Elt F) VOut.junk (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).1)

/-- What the first point leaves in the scratch: its piece read back. -/
def scrFirst (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) : Vec F S2048x256 .f32 :=
  VScr.read (Elt F) (VScr.writes (Elt F) VScr.junk (runFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s).2.1)

end Cert.KernelIdeal.Body

end
-- ==== Proof.KiPieces.lean ====
/-
  What the body's stores leave, read back: at every grid point the output block holds the last stage — the
  normalised sum of the embedding block and the rectified, degree-scaled aggregate — over the four quarters of the
  weight block and the four 512-row slices of the scratch; at the first point the scratch holds the projected
  features, and the slices are those of what was just stored.
-/
import proofs.«156365_g712964571491_cont_9to1c4b_112_17_alg».proof.Proof.KiBodyFirst
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL.Sem

variable {F : FTy → Type} [FloatOps F]

/-- The zero offsets of a rank-2 rectangle, however spelt. -/
theorem hz : (![0, 0] : Fin 2 → Nat) = fun _ => 0 := funext fun a => by fin_cases a <;> rfl

/-- The four 512-row slices of a 2048-row block: rows 0–511, 512–1023, 1024–1535, 1536–2047. -/
def slice0 (P : Vec F S2048x256 .f32) : Vec F S512x256 .f32 :=
  View.ld (Val := Elt F) (e' := .f32) P (Rect.unit (s := S2048x256) ![0, 0] S512x256.size inb_S2048x256_S512x256_0_0)
def slice1 (P : Vec F S2048x256 .f32) : Vec F S512x256 .f32 :=
  View.ld (Val := Elt F) (e' := .f32) P (Rect.unit (s := S2048x256) ![512, 0] S512x256.size inb_S2048x256_S512x256_512_0)
def slice2 (P : Vec F S2048x256 .f32) : Vec F S512x256 .f32 :=
  View.ld (Val := Elt F) (e' := .f32) P (Rect.unit (s := S2048x256) ![1024, 0] S512x256.size inb_S2048x256_S512x256_1024_0)
def slice3 (P : Vec F S2048x256 .f32) : Vec F S512x256 .f32 :=
  View.ld (Val := Elt F) (e' := .f32) P (Rect.unit (s := S2048x256) ![1536, 0] S512x256.size inb_S2048x256_S512x256_1536_0)

/-- Slice K at row j is the block at row 512·K + j. -/
theorem slice0_apply (P : Vec F S2048x256 .f32) (j : Fin 512) (d : Fin 256) :
    slice0 P (ix2 j d) = P (ix2 ⟨j.val, by omega⟩ d) := by
  show P _ = P _
  congr 1; funext a; apply Fin.ext
  match a with
  | ⟨0, _⟩ => show 0 + 1 * j.val = j.val; omega
  | ⟨1, _⟩ => show 0 + 1 * d.val = d.val; omega
theorem slice1_apply (P : Vec F S2048x256 .f32) (j : Fin 512) (d : Fin 256) :
    slice1 P (ix2 j d) = P (ix2 ⟨512 + j.val, by omega⟩ d) := by
  show P _ = P _
  congr 1; funext a; apply Fin.ext
  match a with
  | ⟨0, _⟩ => show 512 + 1 * j.val = 512 + j.val; omega
  | ⟨1, _⟩ => show 0 + 1 * d.val = d.val; omega
theorem slice2_apply (P : Vec F S2048x256 .f32) (j : Fin 512) (d : Fin 256) :
    slice2 P (ix2 j d) = P (ix2 ⟨1024 + j.val, by omega⟩ d) := by
  show P _ = P _
  congr 1; funext a; apply Fin.ext
  match a with
  | ⟨0, _⟩ => show 1024 + 1 * j.val = 1024 + j.val; omega
  | ⟨1, _⟩ => show 0 + 1 * d.val = d.val; omega
theorem slice3_apply (P : Vec F S2048x256 .f32) (j : Fin 512) (d : Fin 256) :
    slice3 P (ix2 j d) = P (ix2 ⟨1536 + j.val, by omega⟩ d) := by
  show P _ = P _
  congr 1; funext a; apply Fin.ext
  match a with
  | ⟨0, _⟩ => show 1536 + 1 * j.val = 1536 + j.val; omega
  | ⟨1, _⟩ => show 0 + 1 * d.val = d.val; omega

/-- At a later point the output block is left holding the last stage over the slices of the scratch as found. -/
theorem outLater_eq (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : ¬firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) (P : Vec F S2048x256 .f32) :
    outLater c i arg1 harg1 arg2 harg2 arg3 harg3 arg4 harg4 arg5 harg5 arg6 harg6 arg7 harg7 arg8 harg8 arg9 harg9 arg10 harg10 arg11 harg11 arg12 harg12 hc x1 x2 x3 a1 a2 a3 a4 e g s P
      = k0_pay1 (k0_pay3 a1 (slice0 P) a2 (slice1 P) a3 (slice2 P)) a4 (k0_pay4 a1 a2 a3 a4) (slice3 P) e g s := by
  unfold outLater
  rw [View.read_writes_eq_canon _ _ _ (coverLater c i arg1 harg1 arg2 harg2 arg3 harg3 arg4 harg4 arg5 harg5 arg6 harg6 arg7 harg7 arg8 harg8 arg9 harg9 arg10 harg10 arg11 harg11 arg12 harg12 hc x1 x2 x3 a1 a2 a3 a4 e g s P)]
  unfold runLater
  dsimp only
  sl_unfold_words
  rw [View.canon_unit_zero hz]
  simp only [View.readAt_eq_ld, harg4.read_unread, harg5.read_unread, harg6.read_unread, harg7.read_unread,
    harg8.read_unread, harg9.read_unread, harg10.read_unread, harg12.read_unread,
    View.ld_unit_zero (S := S1256x512) hz, View.ld_unit_zero (S := S1256x256) hz, View.ld_unit_zero (S := S1x256) hz]
  rfl

/-- At the first point the scratch is left holding the projected features. -/
theorem scrFirst_eq (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) :
    scrFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s = k0_pay2 x1 x2 x3 := by
  unfold scrFirst
  rw [View.read_writes_eq_canon _ _ _ (scoverFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s)]
  unfold runFirst
  dsimp only
  sl_unfold_words
  rw [View.canon_unit_zero hz]
  simp only [View.readAt_eq_ld, harg1.read_unread, harg2.read_unread, harg3.read_unread,
    View.ld_unit_zero (S := S2048x256) hz, View.ld_unit_zero (S := S256x256) hz, View.ld_unit_zero (S := S1x256) hz]

/-- At the first point the output block is left holding the last stage over the slices of the projected features
    it has just stored. -/
theorem outFirst_eq (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec F S2048x256 .f32) (x2 : Vec F S256x256 .f32) (x3 : Vec F S1x256 .f32) (a1 a2 a3 a4 : Vec F S1256x512 .f32)
    (e : Vec F S1256x256 .f32) (g s : Vec F S1x256 .f32) :
    outFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s
      = k0_pay1 (k0_pay3 a1 (slice0 (k0_pay2 x1 x2 x3)) a2 (slice1 (k0_pay2 x1 x2 x3)) a3 (slice2 (k0_pay2 x1 x2 x3))) a4
          (k0_pay4 a1 a2 a3 a4) (slice3 (k0_pay2 x1 x2 x3)) e g s := by
  unfold outFirst
  rw [View.read_writes_eq_canon _ _ _ (coverFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s)]
  unfold runFirst
  dsimp only
  sl_unfold_words
  rw [View.canon_unit_zero hz]
  simp only [View.readAt_eq_ld, harg1.read_unread, harg2.read_unread, harg3.read_unread,
    harg4.read_unread, harg5.read_unread, harg6.read_unread, harg7.read_unread,
    harg8.read_unread, harg9.read_unread, harg10.read_unread, View.readCov_eq_canon', View.canon_unit_zero (S := S2048x256) hz,
    View.ld_unit_zero (S := S2048x256) hz, View.ld_unit_zero (S := S256x256) hz,
    View.ld_unit_zero (S := S1256x512) hz, View.ld_unit_zero (S := S1256x256) hz, View.ld_unit_zero (S := S1x256) hz]
  rfl

end Cert.KernelIdeal.Body

end
-- ==== Proof.KiOut.lean ====
/-
  What the result's buffer holds after the body, point by point.

  At the first grid point the body stores the projected features over the whole scratch, and every point reads them
  back from there; so the block a point leaves in the result's buffer is the body's last stage over that point's four
  weight quarters, the four 512-row slices of the projected features, the point's embedding block and the two
  normalisation rows.
-/
import proofs.«156365_g712964571491_cont_9to1c4b_112_17_alg».proof.Proof.KiData
import proofs.«156365_g712964571491_cont_9to1c4b_112_17_alg».proof.Proof.KiPieces
import proofs.«156365_g712964571491_cont_9to1c4b_112_17_alg».proof.Proof.Gen.KernelIdeal.Points

set_option maxRecDepth 16384

noncomputable section

namespace Cert.KernelIdeal.Frame

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Body

variable {F : FTy → Type} [FloatOps F]

variable (m : (ℓ : Loc nD τ sig) → Buf (Elt F) ℓ)

/-- The grid's first point is the one whose coordinate is zero. -/
theorem firstPoint_iff (t : Fin cfg0.N) : firstPoint (grid0.coords t) ↔ t.val = 0 :=
  (by decide +kernel : ∀ t : Fin grid0.N, firstPoint (grid0.coords t) ↔ t.val = 0) t

theorem first_t0 : firstPoint (grid0.coords t0_0) := (firstPoint_iff t0_0).mpr rfl

/-- The projected features the body stores in the scratch at the first point. -/
def featAt (c : Dev nD) : Vec F S2048x256 .f32 :=
  scrFirst c (grid0.coords t0_0) (win0_0.stage (cfg0.slots t0_0 0)) (hstage0_0 ((cfg0.slots t0_0 0).cast nbuf0_0)) (win0_1.stage (cfg0.slots t0_0 1)) (hstage0_1 ((cfg0.slots t0_0 1).cast nbuf0_1)) (win0_2.stage (cfg0.slots t0_0 2)) (hstage0_2 ((cfg0.slots t0_0 2).cast nbuf0_2)) (win0_3.stage (cfg0.slots t0_0 3)) (hstage0_3 ((cfg0.slots t0_0 3).cast nbuf0_3)) (win0_4.stage (cfg0.slots t0_0 4)) (hstage0_4 ((cfg0.slots t0_0 4).cast nbuf0_4)) (win0_5.stage (cfg0.slots t0_0 5)) (hstage0_5 ((cfg0.slots t0_0 5).cast nbuf0_5)) (win0_6.stage (cfg0.slots t0_0 6)) (hstage0_6 ((cfg0.slots t0_0 6).cast nbuf0_6)) (win0_7.stage (cfg0.slots t0_0 7)) (hstage0_7 ((cfg0.slots t0_0 7).cast nbuf0_7)) (win0_8.stage (cfg0.slots t0_0 8)) (hstage0_8 ((cfg0.slots t0_0 8).cast nbuf0_8)) (win0_9.stage (cfg0.slots t0_0 9)) (hstage0_9 ((cfg0.slots t0_0 9).cast nbuf0_9)) (win0_10.stage (cfg0.slots t0_0 10)) (hstage0_10 ((cfg0.slots t0_0 10).cast nbuf0_10)) (Memref.whole cc0_scratch0) (Memref.isWhole_whole _) first_t0 (held m c 0 t0_0) (held m c 1 t0_0) (held m c 2 t0_0) (landed0 m c 3 t0_0) (landed0 m c 4 t0_0) (landed0 m c 5 t0_0) (landed0 m c 6 t0_0) (landed0 m c 7 t0_0) (held m c 8 t0_0) (held m c 9 t0_0)

/-- What the body leaves in the result's buffer at point t (the row blocks' tails at the filler landed0 names). -/
def outAt (c : Dev nD) (t : Fin cfg0.N) : Vec F S1256x256 .f32 :=
  if hc : firstPoint (grid0.coords t) then outFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) hc (held m c 0 t) (held m c 1 t) (held m c 2 t) (landed0 m c 3 t) (landed0 m c 4 t) (landed0 m c 5 t) (landed0 m c 6 t) (landed0 m c 7 t) (held m c 8 t) (held m c 9 t)
  else outLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) hc (held m c 0 t) (held m c 1 t) (held m c 2 t) (landed0 m c 3 t) (landed0 m c 4 t) (landed0 m c 5 t) (landed0 m c 6 t) (landed0 m c 7 t) (held m c 8 t) (held m c 9 t) (featAt m c)

/-- The scratch holds the projection of the features by the map, plus the bias, as the first point found them. -/
theorem featAt_eq (c : Dev nD) : featAt m c = k0_pay2 (held m c 0 t0_0) (held m c 1 t0_0) (held m c 2 t0_0) := by
  unfold featAt
  rw [scrFirst_eq]

/-- Every point leaves the last stage over its own blocks and the slices of the projected features. -/
theorem outAt_eq (c : Dev nD) (t : Fin cfg0.N) :
    outAt m c t = k0_pay1 (k0_pay3 (landed0 m c 3 t) (slice0 (featAt m c)) (landed0 m c 4 t) (slice1 (featAt m c)) (landed0 m c 5 t) (slice2 (featAt m c))) (landed0 m c 6 t) (k0_pay4 (landed0 m c 3 t) (landed0 m c 4 t) (landed0 m c 5 t) (landed0 m c 6 t)) (slice3 (featAt m c)) (landed0 m c 7 t) (held m c 8 t) (held m c 9 t) := by
  unfold outAt
  split
  · rename_i hc
    obtain rfl : t = t0_0 := Fin.ext ((firstPoint_iff t).mp hc)
    rw [outFirst_eq, featAt_eq]
  · rename_i hc
    rw [outLater_eq]

end Cert.KernelIdeal.Frame

end
-- ==== Proof.Spec.lean ====
/-
  The mathematics of one bipartite graph-convolution layer followed by a layer normalisation, stated once,
  index by index, on the extended reals.

  With H the question features (2048 × 256), A the student–question weights (10000 × 2048), E the student
  embeddings (10000 × 256), W and b a 256 × 256 linear map and its bias, γ and β the normalisation's scale and
  shift:

      P[k,d]  = Σ_j H[k,j] · W[d,j] + b[d]                         (projected features)
      g[r]    = Σ_k A[r,k]                                          (a student's degree)
      x[r,d]  = E[r,d] + (message of student r in column d)
      out[r,d] = (x[r,d] − mean_d x[r,·]) scaled by (var_d x[r,·] + ε)^(−1/2), times γ[d], plus β[d]

  Two arrangements of the message and of the scaling are stated side by side: one scales the rectified
  aggregate max(Σ_k A[r,k]·P[k,d], 0) by the reciprocal 1 / max(g[r], 1) and multiplies by a reciprocal square
  root; the other divides every weight A[r,k] by max(1, g[r]) before aggregating, rectifies, and divides by a
  square root. Over finite inputs they are one function: the divisor is at least one, so it moves through the
  sum and through the rectification, and the variance plus ε is positive.
-/
import Idealize.ShloMosaic.PureOps.Ideal
import Idealize.ShloMosaic.Lib.ValueIdx

noncomputable section

namespace Gcn

open Idealize.ShloMosaic Idealize.ShloMosaic.ValueIdx

/-- The arrays' shapes. -/
abbrev ShH : Shape := ⟨2, ![2048, 256]⟩
abbrev ShA : Shape := ⟨2, ![10000, 2048]⟩
abbrev ShE : Shape := ⟨2, ![10000, 256]⟩
abbrev ShW : Shape := ⟨2, ![256, 256]⟩
abbrev ShV : Shape := ⟨1, ![256]⟩

/-- The stabiliser under the square root: the single-precision word nearest 10⁻⁵, at its exact binary value. -/
abbrev eps : EReal := Ideal.ofBits .f32 0x3727C5AC#32

variable (H : ShH.Idx → EReal) (A : ShA.Idx → EReal) (E : ShE.Idx → EReal) (W : ShW.Idx → EReal)
  (b γ β : ShV.Idx → EReal)

/-- Projected features: row k of H against row d of W, plus the bias. -/
def proj (k : Fin 2048) (d : Fin 256) : EReal :=
  (∑ j : Fin 256, H (ix2 k j) * W (ix2 d j)) + b (ix1 d)

/-- A student's degree: the sum of its row of weights. -/
def degree (r : Fin 10000) : EReal := ∑ k : Fin 2048, A (ix2 r k)

/-- The aggregate of student r in column d. -/
def agg (r : Fin 10000) (d : Fin 256) : EReal := ∑ k : Fin 2048, A (ix2 r k) * proj H W b k d

/-- Embedding plus message, the message the rectified aggregate times the reciprocal of the clipped degree. -/
def xScaled (r : Fin 10000) (d : Fin 256) : EReal :=
  E (ix2 r d) + max (agg H A W b r d) 0 * Ideal.div 1 (max (degree A r) 1)

/-- Embedding plus message, the message the rectified aggregate of the weights each divided by the clipped degree. -/
def xDivided (r : Fin 10000) (d : Fin 256) : EReal :=
  E (ix2 r d) + max (∑ k : Fin 2048, Ideal.div (A (ix2 r k)) (max 1 (degree A r)) * proj H W b k d) 0

/-- A row's mean over its 256 columns. -/
def rowMean (x : Fin 256 → EReal) : EReal := Ideal.div (∑ d : Fin 256, x d) ((256 : ℝ) : EReal)

/-- A row's (biased) variance. -/
def rowVar (x : Fin 256 → EReal) : EReal :=
  Ideal.div (∑ d : Fin 256, (x d - rowMean x) * (x d - rowMean x)) ((256 : ℝ) : EReal)

/-- Normalisation by a reciprocal square root. -/
def normRsqrt (x : Fin 256 → EReal) (g s : EReal) (d : Fin 256) : EReal :=
  (x d - rowMean x) * Ideal.rsqrt (rowVar x + eps) * g + s

/-- Normalisation by a division by the square root. -/
def normSqrt (x : Fin 256 → EReal) (g s : EReal) (d : Fin 256) : EReal :=
  Ideal.div (x d - rowMean x) (Ideal.sqrt (rowVar x + eps)) * g + s

/-- The layer in the first arrangement (scaled message, reciprocal square root). -/
def outScaled (r : Fin 10000) (d : Fin 256) : EReal :=
  normRsqrt (fun d' => xScaled H A E W b r d') (γ (ix1 d)) (β (ix1 d)) d

/-- The layer in the second arrangement (divided weights, division by the square root). -/
def outDivided (r : Fin 10000) (d : Fin 256) : EReal :=
  normSqrt (fun d' => xDivided H A E W b r d') (γ (ix1 d)) (β (ix1 d)) d

/-- Every entry of an array is a real number. -/
def AllReal {S : Shape} (x : S.Idx → EReal) : Prop := ∀ i, ∃ v : ℝ, x i = (v : EReal)

end Gcn

end
-- ==== Proof.KerPayOps.lean ====
/-
  The non-pointwise vector operations of the kernel body, each read at one index given by coordinates: a vector cast to
  a column, a column spread over the columns of a matrix, a sum along the rows' lanes, and the two matrix products
  (the projection 2048×256 by 256×256, and a quarter of the aggregation 1256×512 by 512×256) into a zero accumulator.
-/
import proofs.«156365_g712964571491_cont_9to1c4b_112_17_alg».proof.Proof.Gen.KernelIdeal.Skeleton
import proofs.«156365_g712964571491_cont_9to1c4b_112_17_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerValue

open Idealize.ShloMosaic Idealize.ShloMosaic.ValueIdx Cert.KernelIdeal

/-! ## Columns -/

/-- A vector `[a]` cast to a column `[a, 1]` reads, at `(p, u)`, the vector at `p`. -/
theorem colCast_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `[a, b]` reads, at `(p, c)`, the column at `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A sum along the lanes -/

/-- The sum of a matrix `[a, b]` along its second axis reads, at `p`, the sum of row `p`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-! ## The aggregation's product: a 1256×512 block of weights by 512 rows of projected features -/

theorem lhs_agg_0 (i : S1256x256.Idx) (q : dot_S1256x512_S512x256_S1256x256_1_0_0_1_n_n.contr.Idx) :
    (dot_S1256x512_S512x256_S1256x256_1_0_0_1_n_n.lhsIdx i q 0).val = (i 0).val := by
  unfold DotDims.lhsIdx
  rw [dif_neg (show ¬(0 : Fin S1256x512.rank) ∈ dot_S1256x512_S512x256_S1256x256_1_0_0_1_n_n.lhsBatch by decide), dif_pos (show (0 : Fin S1256x512.rank) ∈ dot_S1256x512_S512x256_S1256x256_1_0_0_1_n_n.lhsNonContracting by decide)]
  rfl
theorem lhs_agg_1 (i : S1256x256.Idx) (q : dot_S1256x512_S512x256_S1256x256_1_0_0_1_n_n.contr.Idx) :
    (dot_S1256x512_S512x256_S1256x256_1_0_0_1_n_n.lhsIdx i q 1).val = (q ⟨0, by decide⟩).val :=
  dot_S1256x512_S512x256_S1256x256_1_0_0_1_n_n.lhsIdx_val_of_single rfl i q
theorem rhs_agg_0 (i : S1256x256.Idx) (q : dot_S1256x512_S512x256_S1256x256_1_0_0_1_n_n.contr.Idx) :
    (dot_S1256x512_S512x256_S1256x256_1_0_0_1_n_n.rhsIdx i q 0).val = (q ⟨0, by decide⟩).val :=
  dot_S1256x512_S512x256_S1256x256_1_0_0_1_n_n.rhsIdx_val_of_single rfl i q
theorem rhs_agg_1 (i : S1256x256.Idx) (q : dot_S1256x512_S512x256_S1256x256_1_0_0_1_n_n.contr.Idx) :
    (dot_S1256x512_S512x256_S1256x256_1_0_0_1_n_n.rhsIdx i q 1).val = (i 1).val := by
  unfold DotDims.rhsIdx
  rw [dif_neg (show ¬(1 : Fin S512x256.rank) ∈ dot_S1256x512_S512x256_S1256x256_1_0_0_1_n_n.rhsBatch by decide), dif_pos (show (1 : Fin S512x256.rank) ∈ dot_S1256x512_S512x256_S1256x256_1_0_0_1_n_n.rhsNonContracting by decide)]
  rfl

/-- The block product into a zero accumulator reads, at `(p, d)`, row `p` of the weights against column `d` of the features. -/
theorem aggMatmul_apply (a : FVec Ideal S1256x512 .f32) (w : FVec Ideal S512x256 .f32) (p : Fin 1256) (d : Fin 256) :
    matmul (F := Ideal) dot_S1256x512_S512x256_S1256x256_1_0_0_1_n_n none a w (constant (F := Ideal) S1256x256 .f32 0x00000000#32) (ix2 p d)
      = ∑ j : Fin 512, a (ix2 p j) * w (ix2 j d) := by
  simp only [matmul]
  rw [Ideal.matmul_constant_zero_apply, ← Equiv.sum_comp (contrEquiv1 dot_S1256x512_S512x256_S1256x256_1_0_0_1_n_n 512 rfl rfl).symm]
  refine Finset.sum_congr rfl fun k _ => ?_
  have hk := contrEquiv1_symm_val dot_S1256x512_S512x256_S1256x256_1_0_0_1_n_n 512 rfl rfl k
  have el : dot_S1256x512_S512x256_S1256x256_1_0_0_1_n_n.lhsIdx (ix2 p d) ((contrEquiv1 dot_S1256x512_S512x256_S1256x256_1_0_0_1_n_n 512 rfl rfl).symm k) = ix2 p k := funext fun ax => Fin.ext (by
    match ax with
    | ⟨0, _⟩ => exact lhs_agg_0 _ _
    | ⟨1, _⟩ => exact (lhs_agg_1 _ _).trans hk)
  have er : dot_S1256x512_S512x256_S1256x256_1_0_0_1_n_n.rhsIdx (ix2 p d) ((contrEquiv1 dot_S1256x512_S512x256_S1256x256_1_0_0_1_n_n 512 rfl rfl).symm k) = ix2 k d := funext fun ax => Fin.ext (by
    match ax with
    | ⟨0, _⟩ => exact (rhs_agg_0 _ _).trans hk
    | ⟨1, _⟩ => exact rhs_agg_1 _ _)
  rw [el, er]

/-! ## The projection's product: the 2048×256 features by the 256×256 map -/

theorem lhs_proj_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_proj_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_proj_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_proj_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product into a zero accumulator reads, at `(k, d)`, row `k` of the features against column `d` of the map. -/
theorem projMatmul_apply (x : FVec Ideal S2048x256 .f32) (w : FVec Ideal S256x256 .f32) (k : Fin 2048) (d : Fin 256) :
    matmul (F := Ideal) dot_S2048x256_S256x256_S2048x256_1_0_0_1_n_n none x w (constant (F := Ideal) S2048x256 .f32 0x00000000#32) (ix2 k d)
      = ∑ j : Fin 256, x (ix2 k j) * w (ix2 j d) := by
  simp only [matmul]
  rw [Ideal.matmul_constant_zero_apply, ← Equiv.sum_comp (contrEquiv1 dot_S2048x256_S256x256_S2048x256_1_0_0_1_n_n 256 rfl rfl).symm]
  refine Finset.sum_congr rfl fun c _ => ?_
  have hk := contrEquiv1_symm_val dot_S2048x256_S256x256_S2048x256_1_0_0_1_n_n 256 rfl rfl c
  have el : dot_S2048x256_S256x256_S2048x256_1_0_0_1_n_n.lhsIdx (ix2 k d) ((contrEquiv1 dot_S2048x256_S256x256_S2048x256_1_0_0_1_n_n 256 rfl rfl).symm c) = ix2 k c := funext fun ax => Fin.ext (by
    match ax with
    | ⟨0, _⟩ => exact lhs_proj_0 _ _
    | ⟨1, _⟩ => exact (lhs_proj_1 _ _).trans hk)
  have er : dot_S2048x256_S256x256_S2048x256_1_0_0_1_n_n.rhsIdx (ix2 k d) ((contrEquiv1 dot_S2048x256_S256x256_S2048x256_1_0_0_1_n_n 256 rfl rfl).symm c) = ix2 c d := funext fun ax => Fin.ext (by
    match ax with
    | ⟨0, _⟩ => exact (rhs_proj_0 _ _).trans hk
    | ⟨1, _⟩ => exact rhs_proj_1 _ _)
  rw [el, er]

end Cert.KernelIdeal.KerValue

end
-- ==== Proof.KerPayConst.lean ====
/-
  The single-precision words the kernel body names, as extended reals: the word of 256 (the number of columns a row's
  mean and variance divide by).
-/
import Idealize.ShloMosaic.PureOps.Ideal.Laws
import Idealize.ShloMosaic.Lib.IdealHost

namespace Cert.KernelIdeal.KerValue

open Idealize.ShloMosaic

/-- The f32 pattern `0x43800000` is the real 2⁸ = 256. -/
theorem ofBits_256_f32 : Ideal.ofBits .f32 0x43800000#32 = ((256 : ℝ) : EReal) := by
  simp [Ideal.ofBits, Ideal.ieee, -EReal.coe_mul]; norm_num

end Cert.KernelIdeal.KerValue
-- ==== Proof.KerPayBody.lean ====
/-
  The kernel body's arithmetic at one index: the projected features P = H·Wᵀ + bias; the aggregate of the first three
  quarters; the degree as four lane sums; and the last stage, which adds the fourth quarter's product, rectifies, scales
  by the reciprocal of the clipped degree, adds the embedding, and normalises the row (mean, variance, reciprocal square
  root) before the scale and the shift.
-/
import proofs.«156365_g712964571491_cont_9to1c4b_112_17_alg».proof.Proof.KerPayOps
import proofs.«156365_g712964571491_cont_9to1c4b_112_17_alg».proof.Proof.KerPayConst

noncomputable section

open scoped BigOperators

namespace Cert.KernelIdeal.KerValue

open Idealize.ShloMosaic Idealize.ShloMosaic.ValueIdx Cert.KernelIdeal

/-- A reciprocal square root at an index is the reciprocal square root of the element. -/
theorem rsqrt_apply {s : Shape} {φ : FTy} (x : FVec Ideal s φ) (i : s.Idx) : rsqrt x i = Ideal.rsqrt (x i) := rfl

/-- The projected features at `(k, d)`: row `k` of the features against column `d` of the (transposed) map, plus the bias. -/
theorem proj_apply (h : Vec Ideal S2048x256 .f32) (wt : Vec Ideal S256x256 .f32) (bb : Vec Ideal S1x256 .f32)
    (k : Fin 2048) (d : Fin 256) :
    Gen.k0_pay2 h wt bb (ix2 k d) = (∑ j : Fin 256, h (ix2 k j) * wt (ix2 j d)) + bb (ix2 0 d) := by
  unfold Gen.k0_pay2
  simp only [shapeCast_self, addf_apply, projMatmul_apply, broadcastTo_1b_ab_apply]

/-- The aggregate over the first three quarters at `(p, d)`. -/
theorem agg3_apply (a1 : Vec Ideal S1256x512 .f32) (w1 : Vec Ideal S512x256 .f32) (a2 : Vec Ideal S1256x512 .f32)
    (w2 : Vec Ideal S512x256 .f32) (a3 : Vec Ideal S1256x512 .f32) (w3 : Vec Ideal S512x256 .f32)
    (p : Fin 1256) (d : Fin 256) :
    Gen.k0_pay3 a1 w1 a2 w2 a3 w3 (ix2 p d)
      = ∑ j : Fin 512, a1 (ix2 p j) * w1 (ix2 j d) + ∑ j : Fin 512, a2 (ix2 p j) * w2 (ix2 j d)
        + ∑ j : Fin 512, a3 (ix2 p j) * w3 (ix2 j d) := by
  unfold Gen.k0_pay3
  simp only [addf_apply, aggMatmul_apply, broadcast_apply, Ideal.ofBits_def, Ideal.ofBits_zero_f32, zero_add]

/-- The degree at row `p`: the four quarters' lane sums added up. -/
theorem deg_apply (a1 a2 a3 a4 : Vec Ideal S1256x512 .f32) (p : Fin 1256) (u : Fin 1) :
    Gen.k0_pay4 a1 a2 a3 a4 (ix2 p u)
      = ∑ j : Fin 512, a1 (ix2 p j) + ∑ j : Fin 512, a2 (ix2 p j) + ∑ j : Fin 512, a3 (ix2 p j)
        + ∑ j : Fin 512, a4 (ix2 p j) := by
  unfold Gen.k0_pay4
  simp only [addf_apply, broadcast_apply, colCast_apply, Ideal.ofBits_def, Ideal.ofBits_zero_f32, zero_add]
  -- each quarter's lane sum at row `p` is the finite sum of that row
  rw [rowSum_apply a1, rowSum_apply a2, rowSum_apply a3, rowSum_apply a4]

/-- The last stage at `(p, q)`, over whatever the carried aggregate `acc` and degree `deg` are: the row
    `x d = e(p,d) + max(acc(p,d) + Σ_j a4(p,j)·w4(j,d), 0) · 1/max(deg(p), 1)`, normalised, scaled and shifted. -/
theorem norm_apply (acc : FVec Ideal S1256x256 .f32) (a4 : Vec Ideal S1256x512 .f32) (deg : FVec Ideal S1256x1 .f32)
    (w4 : Vec Ideal S512x256 .f32) (e : Vec Ideal S1256x256 .f32) (g s : Vec Ideal S1x256 .f32)
    (p : Fin 1256) (q : Fin 256) :
    Gen.k0_pay1 acc a4 deg w4 e g s (ix2 p q)
      = Gcn.normRsqrt (fun d => e (ix2 p d)
          + max (acc (ix2 p d) + ∑ j : Fin 512, a4 (ix2 p j) * w4 (ix2 j d)) 0 * Ideal.div 1 (max (deg (ix2 p 0)) 1))
          (g (ix2 0 q)) (s (ix2 0 q)) q := by
  unfold Gen.k0_pay1
  simp only [addf_apply, mulf_apply, subf_apply, divf_apply, maximumf_apply, broadcast_apply, rsqrt_apply,
    shapeCast_self, broadcastTo_1b_ab_apply, colBroadcast_apply, colCast_apply, aggMatmul_apply,
    Ideal.ofBits_def, Ideal.ofBits_zero_f32, Ideal.ofBits_one_f32, ofBits_256_f32]
  -- the mean's and the variance's lane sums at row `p` are finite sums over the row's 256 columns; under each sum
  -- the summand is read at its index again (the variance's summand holds the mean's sum once more)
  repeat
    (rw [rowSum_apply]
     try simp only [addf_apply, mulf_apply, subf_apply, divf_apply, maximumf_apply, broadcast_apply, rsqrt_apply,
      shapeCast_self, broadcastTo_1b_ab_apply, colBroadcast_apply, colCast_apply, aggMatmul_apply,
      Ideal.ofBits_def, Ideal.ofBits_zero_f32, Ideal.ofBits_one_f32, ofBits_256_f32])
  rfl

end Cert.KernelIdeal.KerValue

end
-- ==== Proof.KerPayRegroup.lean ====
/-
  A sum over 2048 neighbours is the sum of its four quarters of 512: the aggregate and the degree of one student, read
  quarter by quarter as the kernel accumulates them, are the specification's sums over all 2048 questions. Pure algebra
  in a commutative monoid; nothing here asks the terms to be finite.
-/
import proofs.«156365_g712964571491_cont_9to1c4b_112_17_alg».proof.Proof.Spec
import Mathlib.Algebra.BigOperators.Fin

noncomputable section

open scoped BigOperators

namespace Cert.KernelIdeal.KerValue

open Idealize.ShloMosaic Idealize.ShloMosaic.ValueIdx

/-- A sum over `m + n` indices is the sum over the first `m` plus the sum over the last `n`, the indices written out. -/
theorem sum_fin_split {M : Type*} [AddCommMonoid M] (m n : ℕ) (f : Fin (m + n) → M) :
    ∑ k, f k = ∑ j : Fin m, f ⟨j.val, by omega⟩ + ∑ j : Fin n, f ⟨m + j.val, by omega⟩ :=
  Fin.sum_univ_add f

/-- A sum over 2048 indices, by quarters of 512. -/
theorem sum_quarters {M : Type*} [AddCommMonoid M] (f : Fin 2048 → M) :
    ∑ k, f k = ∑ j : Fin 512, f ⟨j.val, by omega⟩ + ∑ j : Fin 512, f ⟨512 + j.val, by omega⟩
      + ∑ j : Fin 512, f ⟨1024 + j.val, by omega⟩ + ∑ j : Fin 512, f ⟨1536 + j.val, by omega⟩ := by
  have h3 := sum_fin_split 1536 512 f
  have h2 := sum_fin_split 1024 512 (fun j : Fin 1536 => f ⟨j.val, by omega⟩)
  have h1 := sum_fin_split 512 512 (fun j : Fin 1024 => f ⟨j.val, by omega⟩)
  exact h3.trans (congrArg (· + _) (h2.trans (congrArg (· + _) h1)))

variable (H : Gcn.ShH.Idx → EReal) (A : Gcn.ShA.Idx → EReal) (W : Gcn.ShW.Idx → EReal) (b : Gcn.ShV.Idx → EReal)

/-- The degree of student `r` from the four quarter sums of its row of weights. -/
theorem degree_of_quarters (r : Fin 10000) (s1 s2 s3 s4 : Fin 512 → EReal)
    (h1 : ∀ j : Fin 512, s1 j = A (ix2 r ⟨j.val, by omega⟩))
    (h2 : ∀ j : Fin 512, s2 j = A (ix2 r ⟨512 + j.val, by omega⟩))
    (h3 : ∀ j : Fin 512, s3 j = A (ix2 r ⟨1024 + j.val, by omega⟩))
    (h4 : ∀ j : Fin 512, s4 j = A (ix2 r ⟨1536 + j.val, by omega⟩)) :
    ∑ j, s1 j + ∑ j, s2 j + ∑ j, s3 j + ∑ j, s4 j = Gcn.degree A r := by
  unfold Gcn.degree
  rw [sum_quarters (fun k : Fin 2048 => A (ix2 r k))]
  simp only [h1, h2, h3, h4]

/-- The aggregate of student `r` in column `d` from the four quarter products: the weights' quarters against the
    matching quarters of the projected features. -/
theorem agg_of_quarters (r : Fin 10000) (d : Fin 256) (s1 s2 s3 s4 t1 t2 t3 t4 : Fin 512 → EReal)
    (h1 : ∀ j : Fin 512, s1 j = A (ix2 r ⟨j.val, by omega⟩))
    (h2 : ∀ j : Fin 512, s2 j = A (ix2 r ⟨512 + j.val, by omega⟩))
    (h3 : ∀ j : Fin 512, s3 j = A (ix2 r ⟨1024 + j.val, by omega⟩))
    (h4 : ∀ j : Fin 512, s4 j = A (ix2 r ⟨1536 + j.val, by omega⟩))
    (g1 : ∀ j : Fin 512, t1 j = Gcn.proj H W b ⟨j.val, by omega⟩ d)
    (g2 : ∀ j : Fin 512, t2 j = Gcn.proj H W b ⟨512 + j.val, by omega⟩ d)
    (g3 : ∀ j : Fin 512, t3 j = Gcn.proj H W b ⟨1024 + j.val, by omega⟩ d)
    (g4 : ∀ j : Fin 512, t4 j = Gcn.proj H W b ⟨1536 + j.val, by omega⟩ d) :
    ∑ j, s1 j * t1 j + ∑ j, s2 j * t2 j + ∑ j, s3 j * t3 j + ∑ j, s4 j * t4 j = Gcn.agg H A W b r d := by
  unfold Gcn.agg
  rw [sum_quarters (fun k : Fin 2048 => A (ix2 r k) * Gcn.proj H W b k d)]
  simp only [h1, h2, h3, h4, g1, g2, g3, g4]

end Cert.KernelIdeal.KerValue

end
-- ==== Proof.KerPayOut.lean ====
/-
  The stored block at one index is the layer's output: the body's last stage over the carried aggregate and degree,
  read with the first three quarters put in; then, once the blocks are known to be the rows and quarters of the arrays,
  the four quarter sums regrouped into the sums over all 2048 questions — the specification's scaled arrangement. Also
  the two layout operations applied before the kernel (the map's transpose, a vector viewed as one row) at an index.
-/
import proofs.«156365_g712964571491_cont_9to1c4b_112_17_alg».proof.Proof.KerPayBody
import proofs.«156365_g712964571491_cont_9to1c4b_112_17_alg».proof.Proof.KerPayRegroup

noncomputable section

open scoped BigOperators

namespace Cert.KernelIdeal.KerValue

open Idealize.ShloMosaic Idealize.ShloMosaic.ValueIdx Cert.KernelIdeal

/-- The stored value at `(p, q)` with the carried aggregate and degree written out by quarters. -/
theorem out_apply (a1 a2 a3 a4 : Vec Ideal S1256x512 .f32) (w1 w2 w3 w4 : Vec Ideal S512x256 .f32)
    (e : Vec Ideal S1256x256 .f32) (g s : Vec Ideal S1x256 .f32) (p : Fin 1256) (q : Fin 256) :
    Gen.k0_pay1 (Gen.k0_pay3 a1 w1 a2 w2 a3 w3) a4 (Gen.k0_pay4 a1 a2 a3 a4) w4 e g s (ix2 p q)
      = Gcn.normRsqrt (fun d => e (ix2 p d)
          + max (∑ j : Fin 512, a1 (ix2 p j) * w1 (ix2 j d) + ∑ j : Fin 512, a2 (ix2 p j) * w2 (ix2 j d)
            + ∑ j : Fin 512, a3 (ix2 p j) * w3 (ix2 j d) + ∑ j : Fin 512, a4 (ix2 p j) * w4 (ix2 j d)) 0
            * Ideal.div 1 (max (∑ j : Fin 512, a1 (ix2 p j) + ∑ j : Fin 512, a2 (ix2 p j) + ∑ j : Fin 512, a3 (ix2 p j)
            + ∑ j : Fin 512, a4 (ix2 p j)) 1))
          (g (ix2 0 q)) (s (ix2 0 q)) q := by
  rw [norm_apply]
  simp only [agg3_apply, deg_apply]

section Spec
variable (H : Gcn.ShH.Idx → EReal) (A : Gcn.ShA.Idx → EReal) (E : Gcn.ShE.Idx → EReal) (W : Gcn.ShW.Idx → EReal)
  (b γ β : Gcn.ShV.Idx → EReal)

/-- The stored value at `(p, q)` is the layer's output at `(r, q)`, when row `p` of the blocks is row `r` of the
    arrays: the embedding's row, the four quarters of the weights' row, the four quarters of the projected features, and
    the scale and shift read as one row. -/
theorem out_eq_spec (a1 a2 a3 a4 : Vec Ideal S1256x512 .f32) (w1 w2 w3 w4 : Vec Ideal S512x256 .f32)
    (e : Vec Ideal S1256x256 .f32) (g s : Vec Ideal S1x256 .f32) (p : Fin 1256) (q : Fin 256) (r : Fin 10000)
    (he : ∀ d : Fin 256, e (ix2 p d) = E (ix2 r d))
    (hg : ∀ d : Fin 256, g (ix2 0 d) = γ (ix1 d)) (hs : ∀ d : Fin 256, s (ix2 0 d) = β (ix1 d))
    (ha1 : ∀ j : Fin 512, a1 (ix2 p j) = A (ix2 r ⟨j.val, by omega⟩))
    (ha2 : ∀ j : Fin 512, a2 (ix2 p j) = A (ix2 r ⟨512 + j.val, by omega⟩))
    (ha3 : ∀ j : Fin 512, a3 (ix2 p j) = A (ix2 r ⟨1024 + j.val, by omega⟩))
    (ha4 : ∀ j : Fin 512, a4 (ix2 p j) = A (ix2 r ⟨1536 + j.val, by omega⟩))
    (hw1 : ∀ (j : Fin 512) (d : Fin 256), w1 (ix2 j d) = Gcn.proj H W b ⟨j.val, by omega⟩ d)
    (hw2 : ∀ (j : Fin 512) (d : Fin 256), w2 (ix2 j d) = Gcn.proj H W b ⟨512 + j.val, by omega⟩ d)
    (hw3 : ∀ (j : Fin 512) (d : Fin 256), w3 (ix2 j d) = Gcn.proj H W b ⟨1024 + j.val, by omega⟩ d)
    (hw4 : ∀ (j : Fin 512) (d : Fin 256), w4 (ix2 j d) = Gcn.proj H W b ⟨1536 + j.val, by omega⟩ d) :
    Gen.k0_pay1 (Gen.k0_pay3 a1 w1 a2 w2 a3 w3) a4 (Gen.k0_pay4 a1 a2 a3 a4) w4 e g s (ix2 p q) = Gcn.outScaled H A E W b γ β r q := by
  have hagg : ∀ d : Fin 256, (∑ j : Fin 512, a1 (ix2 p j) * w1 (ix2 j d) + ∑ j : Fin 512, a2 (ix2 p j) * w2 (ix2 j d)
            + ∑ j : Fin 512, a3 (ix2 p j) * w3 (ix2 j d) + ∑ j : Fin 512, a4 (ix2 p j) * w4 (ix2 j d)) = Gcn.agg H A W b r d := fun d =>
    agg_of_quarters H A W b r d (fun j => a1 (ix2 p j)) (fun j => a2 (ix2 p j)) (fun j => a3 (ix2 p j))
      (fun j => a4 (ix2 p j)) (fun j => w1 (ix2 j d)) (fun j => w2 (ix2 j d)) (fun j => w3 (ix2 j d))
      (fun j => w4 (ix2 j d)) ha1 ha2 ha3 ha4 (fun j => hw1 j d) (fun j => hw2 j d) (fun j => hw3 j d) (fun j => hw4 j d)
  have hdeg : (∑ j : Fin 512, a1 (ix2 p j) + ∑ j : Fin 512, a2 (ix2 p j) + ∑ j : Fin 512, a3 (ix2 p j)
            + ∑ j : Fin 512, a4 (ix2 p j)) = Gcn.degree A r :=
    degree_of_quarters A r (fun j => a1 (ix2 p j)) (fun j => a2 (ix2 p j)) (fun j => a3 (ix2 p j))
      (fun j => a4 (ix2 p j)) ha1 ha2 ha3 ha4
  rw [out_apply, hg q, hs q]
  simp only [he, hagg, hdeg]
  rfl

/-- The same with each quarter's position left to the caller: any index of the array whose value is the quarter's
    offset plus the position in the quarter. -/
theorem out_eq_spec_of_val (a1 a2 a3 a4 : Vec Ideal S1256x512 .f32) (w1 w2 w3 w4 : Vec Ideal S512x256 .f32)
    (e : Vec Ideal S1256x256 .f32) (g s : Vec Ideal S1x256 .f32) (p : Fin 1256) (q : Fin 256) (r : Fin 10000)
    (he : ∀ d : Fin 256, e (ix2 p d) = E (ix2 r d))
    (hg : ∀ d : Fin 256, g (ix2 0 d) = γ (ix1 d)) (hs : ∀ d : Fin 256, s (ix2 0 d) = β (ix1 d))
    (ha1 : ∀ (j : Fin 512) (k : Fin 2048), k.val = j.val → a1 (ix2 p j) = A (ix2 r k))
    (ha2 : ∀ (j : Fin 512) (k : Fin 2048), k.val = 512 + j.val → a2 (ix2 p j) = A (ix2 r k))
    (ha3 : ∀ (j : Fin 512) (k : Fin 2048), k.val = 1024 + j.val → a3 (ix2 p j) = A (ix2 r k))
    (ha4 : ∀ (j : Fin 512) (k : Fin 2048), k.val = 1536 + j.val → a4 (ix2 p j) = A (ix2 r k))
    (hw1 : ∀ (j : Fin 512) (k : Fin 2048) (d : Fin 256), k.val = j.val → w1 (ix2 j d) = Gcn.proj H W b k d)
    (hw2 : ∀ (j : Fin 512) (k : Fin 2048) (d : Fin 256), k.val = 512 + j.val → w2 (ix2 j d) = Gcn.proj H W b k d)
    (hw3 : ∀ (j : Fin 512) (k : Fin 2048) (d : Fin 256), k.val = 1024 + j.val → w3 (ix2 j d) = Gcn.proj H W b k d)
    (hw4 : ∀ (j : Fin 512) (k : Fin 2048) (d : Fin 256), k.val = 1536 + j.val → w4 (ix2 j d) = Gcn.proj H W b k d) :
    Gen.k0_pay1 (Gen.k0_pay3 a1 w1 a2 w2 a3 w3) a4 (Gen.k0_pay4 a1 a2 a3 a4) w4 e g s (ix2 p q) = Gcn.outScaled H A E W b γ β r q :=
  out_eq_spec H A E W b γ β a1 a2 a3 a4 w1 w2 w3 w4 e g s p q r he hg hs
    (fun j => ha1 j _ rfl) (fun j => ha2 j _ rfl) (fun j => ha3 j _ rfl) (fun j => ha4 j _ rfl)
    (fun j d => hw1 j _ d rfl) (fun j d => hw2 j _ d rfl) (fun j d => hw3 j _ d rfl) (fun j d => hw4 j _ d rfl)

end Spec

/-! ## The layout operations applied before the kernel, at an index -/

/-- The map transposed reads, at `(j, d)`, the map at `(d, j)`. -/
theorem hostTranspose_apply {α : Type} (x : S256x256.Idx → α) (h : S256x256.Transposes [1, 0] S256x256) (j d : Fin 256) :
    transpose S256x256 [1, 0] x h (ix2 j d) = x (ix2 d j) :=
  transpose_ix2_apply x h j d

/-- A vector of 256 viewed as one row reads, at `(u, d)`, the vector at `d`. -/
theorem hostReshape_apply {α : Type} (x : S256.Idx → α) (h : S256.ShapeCasts S1x256) (u : Fin 1) (d : Fin 256) :
    shapeCast S1x256 x h (ix2 u d) = x (ix1 d) :=
  shapeCast_a_1a_apply x h u d

/-- So the scratch's value at `(k, d)`, computed from the features, the map transposed and the bias viewed as one row, is
    the specification's projected feature. -/
theorem proj_eq_spec (H : Vec Ideal S2048x256 .f32) (W : Vec Ideal S256x256 .f32) (b : S256.Idx → EReal)
    (hT : S256x256.Transposes [1, 0] S256x256) (hR : S256.ShapeCasts S1x256) (k : Fin 2048) (d : Fin 256) :
    Gen.k0_pay2 H (transpose S256x256 [1, 0] W hT) (shapeCast S1x256 b hR) (ix2 k d) = Gcn.proj H W b k d := by
  rw [proj_apply, hostReshape_apply]
  unfold Gcn.proj
  -- term by term: the transposed map at `(j, d)` is the map at `(d, j)`
  refine congrArg (· + b (ix1 d)) (Finset.sum_congr rfl fun j _ => ?_)
  rw [hostTranspose_apply]

end Cert.KernelIdeal.KerValue

end
-- ==== Proof.KiRows.lean ====
/-
  The last row block of the grid reaches past the arrays' end: a clipped window's staging buffer then holds the
  array's rows on its leading part and arbitrary words on the rest. Every operation of the body is row-wise —
  row p of the stored block depends only on row p of the four weight quarters and of the embedding block — and only
  the row axis is ever clipped, so the rows of the result that lie inside the array do not depend on those words.
-/
import proofs.«156365_g712964571491_cont_9to1c4b_112_17_alg».proof.Proof.KiPieces
import proofs.«156365_g712964571491_cont_9to1c4b_112_17_alg».proof.Proof.KerPayOut
import Idealize.ShloMosaic.Lib.Pipeline.Dat

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Window)

/-- Row p of the stored block depends only on row p of the four weight quarters and of the embedding block. -/
theorem out_row_congr (a1 a2 a3 a4 a1' a2' a3' a4' : Vec Ideal S1256x512 .f32) (w1 w2 w3 w4 : Vec Ideal S512x256 .f32)
    (e e' : Vec Ideal S1256x256 .f32) (g s : Vec Ideal S1x256 .f32) (p : Fin 1256) (q : Fin 256)
    (h1 : ∀ j : Fin 512, a1 (ix2 p j) = a1' (ix2 p j)) (h2 : ∀ j : Fin 512, a2 (ix2 p j) = a2' (ix2 p j))
    (h3 : ∀ j : Fin 512, a3 (ix2 p j) = a3' (ix2 p j)) (h4 : ∀ j : Fin 512, a4 (ix2 p j) = a4' (ix2 p j))
    (he : ∀ d : Fin 256, e (ix2 p d) = e' (ix2 p d)) :
    k0_pay1 (k0_pay3 a1 w1 a2 w2 a3 w3) a4 (k0_pay4 a1 a2 a3 a4) w4 e g s (ix2 p q)
      = k0_pay1 (k0_pay3 a1' w1 a2' w2 a3' w3) a4' (k0_pay4 a1' a2' a3' a4') w4 e' g s (ix2 p q) := by
  rw [KerValue.out_apply, KerValue.out_apply]
  simp only [h1, h2, h3, h4, he]

/-- Where the transfer moves an index, what the buffer held before does not matter. -/
theorem fill_congr_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The six clipped windows are cut alike on the row axis and not at all on the column axis: a row below the output
    window's clipped extent, at any column, is moved by each input window's transfer. -/
theorem moved3 (i : grid0.Coords) (p : Fin 1256) (j : Fin 512) (hp : p.val < (cfg0.win 10).xsize i 0) :
    (cfg0.win 3).moved i (ix2 p j) = true :=
  ((cfg0.win 3).moved_iff i _).mpr fun a => match a with
    | ⟨0, _⟩ => hp
    | ⟨1, _⟩ => j.isLt
theorem moved4 (i : grid0.Coords) (p : Fin 1256) (j : Fin 512) (hp : p.val < (cfg0.win 10).xsize i 0) :
    (cfg0.win 4).moved i (ix2 p j) = true :=
  ((cfg0.win 4).moved_iff i _).mpr fun a => match a with
    | ⟨0, _⟩ => hp
    | ⟨1, _⟩ => j.isLt
theorem moved5 (i : grid0.Coords) (p : Fin 1256) (j : Fin 512) (hp : p.val < (cfg0.win 10).xsize i 0) :
    (cfg0.win 5).moved i (ix2 p j) = true :=
  ((cfg0.win 5).moved_iff i _).mpr fun a => match a with
    | ⟨0, _⟩ => hp
    | ⟨1, _⟩ => j.isLt
theorem moved6 (i : grid0.Coords) (p : Fin 1256) (j : Fin 512) (hp : p.val < (cfg0.win 10).xsize i 0) :
    (cfg0.win 6).moved i (ix2 p j) = true :=
  ((cfg0.win 6).moved_iff i _).mpr fun a => match a with
    | ⟨0, _⟩ => hp
    | ⟨1, _⟩ => j.isLt
theorem moved7 (i : grid0.Coords) (p : Fin 1256) (j : Fin 256) (hp : p.val < (cfg0.win 10).xsize i 0) :
    (cfg0.win 7).moved i (ix2 p j) = true :=
  ((cfg0.win 7).moved_iff i _).mpr fun a => match a with
    | ⟨0, _⟩ => hp
    | ⟨1, _⟩ => j.isLt

/-- The rows of the stored block inside the array, from blocks that agree on those rows. -/
theorem cut_out_congr (i : grid0.Coords) (a1 a2 a3 a4 a1' a2' a3' a4' : Vec Ideal S1256x512 .f32) (w1 w2 w3 w4 : Vec Ideal S512x256 .f32)
    (e e' : Vec Ideal S1256x256 .f32) (g s : Vec Ideal S1x256 .f32)
    (h1 : ∀ (p : Fin 1256) (j : Fin 512), p.val < (cfg0.win 10).xsize i 0 → a1 (ix2 p j) = a1' (ix2 p j))
    (h2 : ∀ (p : Fin 1256) (j : Fin 512), p.val < (cfg0.win 10).xsize i 0 → a2 (ix2 p j) = a2' (ix2 p j))
    (h3 : ∀ (p : Fin 1256) (j : Fin 512), p.val < (cfg0.win 10).xsize i 0 → a3 (ix2 p j) = a3' (ix2 p j))
    (h4 : ∀ (p : Fin 1256) (j : Fin 512), p.val < (cfg0.win 10).xsize i 0 → a4 (ix2 p j) = a4' (ix2 p j))
    (he : ∀ (p : Fin 1256) (d : Fin 256), p.val < (cfg0.win 10).xsize i 0 → e (ix2 p d) = e' (ix2 p d)) :
    (cfg0.win 10).cut i (k0_pay1 (k0_pay3 a1 w1 a2 w2 a3 w3) a4 (k0_pay4 a1 a2 a3 a4) w4 e g s)
      = (cfg0.win 10).cut i (k0_pay1 (k0_pay3 a1' w1 a2' w2 a3' w3) a4' (k0_pay4 a1' a2' a3' a4') w4 e' g s) := by
  funext y
  have hp : (y 0).val < (cfg0.win 10).xsize i 0 := (y 0).isLt
  have hj : (cfg0.win 10).xinj i y = ix2 (n0 := 1256) (n1 := 256) ((cfg0.win 10).xinj i y 0) ((cfg0.win 10).xinj i y 1) :=
    eq_ix2 (n0 := 1256) (n1 := 256) ((cfg0.win 10).xinj i y)
  refine (congrArg (k0_pay1 (k0_pay3 a1 w1 a2 w2 a3 w3) a4 (k0_pay4 a1 a2 a3 a4) w4 e g s) hj).trans ?_
  refine Eq.trans ?_ (congrArg (k0_pay1 (k0_pay3 a1' w1 a2' w2 a3' w3) a4' (k0_pay4 a1' a2' a3' a4') w4 e' g s) hj).symm
  exact out_row_congr a1 a2 a3 a4 a1' a2' a3' a4' w1 w2 w3 w4 e e' g s _ _
    (fun j => h1 _ j hp) (fun j => h2 _ j hp) (fun j => h3 _ j hp) (fun j => h4 _ j hp) (fun d => he _ d hp)

/-- At a later point, the rows of the output block inside the array do not depend on what the clipped input buffers
    held past the array's end. -/
theorem cut_outLater_fill (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : ¬firstPoint i)
    (x1 : Vec Ideal S2048x256 .f32) (x2 : Vec Ideal S256x256 .f32) (x3 : Vec Ideal S1x256 .f32)
    (g3 : ((cfg0.win 3).xblock i).Idx → EReal) (g4 : ((cfg0.win 4).xblock i).Idx → EReal) (g5 : ((cfg0.win 5).xblock i).Idx → EReal) (g6 : ((cfg0.win 6).xblock i).Idx → EReal) (g7 : ((cfg0.win 7).xblock i).Idx → EReal)
    (d3 d3' d4 d4' d5 d5' d6 d6' : Vec Ideal S1256x512 .f32) (d7 d7' : Vec Ideal S1256x256 .f32) (g s : Vec Ideal S1x256 .f32) (P : Vec Ideal S2048x256 .f32) :
    (cfg0.win 10).cut i (outLater c i arg1 harg1 arg2 harg2 arg3 harg3 arg4 harg4 arg5 harg5 arg6 harg6 arg7 harg7 arg8 harg8 arg9 harg9 arg10 harg10 arg11 harg11 arg12 harg12 hc x1 x2 x3 ((cfg0.win 3).fill i d3 g3) ((cfg0.win 4).fill i d4 g4) ((cfg0.win 5).fill i d5 g5) ((cfg0.win 6).fill i d6 g6) ((cfg0.win 7).fill i d7 g7) g s P)
      = (cfg0.win 10).cut i (outLater c i arg1 harg1 arg2 harg2 arg3 harg3 arg4 harg4 arg5 harg5 arg6 harg6 arg7 harg7 arg8 harg8 arg9 harg9 arg10 harg10 arg11 harg11 arg12 harg12 hc x1 x2 x3 ((cfg0.win 3).fill i d3' g3) ((cfg0.win 4).fill i d4' g4) ((cfg0.win 5).fill i d5' g5) ((cfg0.win 6).fill i d6' g6) ((cfg0.win 7).fill i d7' g7) g s P) := by
  rw [outLater_eq, outLater_eq]
  exact cut_out_congr i _ _ _ _ _ _ _ _ _ _ _ _ _ _ g s
    (fun p j hp => fill_congr_of_moved (cfg0.win 3) i d3 d3' g3 _ (moved3 i p j hp))
    (fun p j hp => fill_congr_of_moved (cfg0.win 4) i d4 d4' g4 _ (moved4 i p j hp))
    (fun p j hp => fill_congr_of_moved (cfg0.win 5) i d5 d5' g5 _ (moved5 i p j hp))
    (fun p j hp => fill_congr_of_moved (cfg0.win 6) i d6 d6' g6 _ (moved6 i p j hp))
    (fun p d hp => fill_congr_of_moved (cfg0.win 7) i d7 d7' g7 _ (moved7 i p d hp))

/-- At the first point likewise. -/
theorem cut_outFirst_fill (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec Ideal S2048x256 .f32) (x2 : Vec Ideal S256x256 .f32) (x3 : Vec Ideal S1x256 .f32)
    (g3 : ((cfg0.win 3).xblock i).Idx → EReal) (g4 : ((cfg0.win 4).xblock i).Idx → EReal) (g5 : ((cfg0.win 5).xblock i).Idx → EReal) (g6 : ((cfg0.win 6).xblock i).Idx → EReal) (g7 : ((cfg0.win 7).xblock i).Idx → EReal)
    (d3 d3' d4 d4' d5 d5' d6 d6' : Vec Ideal S1256x512 .f32) (d7 d7' : Vec Ideal S1256x256 .f32) (g s : Vec Ideal S1x256 .f32) :
    (cfg0.win 10).cut i (outFirst c i arg1 harg1 arg2 harg2 arg3 harg3 arg4 harg4 arg5 harg5 arg6 harg6 arg7 harg7 arg8 harg8 arg9 harg9 arg10 harg10 arg11 harg11 arg12 harg12 hc x1 x2 x3 ((cfg0.win 3).fill i d3 g3) ((cfg0.win 4).fill i d4 g4) ((cfg0.win 5).fill i d5 g5) ((cfg0.win 6).fill i d6 g6) ((cfg0.win 7).fill i d7 g7) g s)
      = (cfg0.win 10).cut i (outFirst c i arg1 harg1 arg2 harg2 arg3 harg3 arg4 harg4 arg5 harg5 arg6 harg6 arg7 harg7 arg8 harg8 arg9 harg9 arg10 harg10 arg11 harg11 arg12 harg12 hc x1 x2 x3 ((cfg0.win 3).fill i d3' g3) ((cfg0.win 4).fill i d4' g4) ((cfg0.win 5).fill i d5' g5) ((cfg0.win 6).fill i d6' g6) ((cfg0.win 7).fill i d7' g7) g s) := by
  rw [outFirst_eq, outFirst_eq]
  exact cut_out_congr i _ _ _ _ _ _ _ _ _ _ _ _ _ _ g s
    (fun p j hp => fill_congr_of_moved (cfg0.win 3) i d3 d3' g3 _ (moved3 i p j hp))
    (fun p j hp => fill_congr_of_moved (cfg0.win 4) i d4 d4' g4 _ (moved4 i p j hp))
    (fun p j hp => fill_congr_of_moved (cfg0.win 5) i d5 d5' g5 _ (moved5 i p j hp))
    (fun p j hp => fill_congr_of_moved (cfg0.win 6) i d6 d6' g6 _ (moved6 i p j hp))
    (fun p d hp => fill_congr_of_moved (cfg0.win 7) i d7 d7' g7 _ (moved7 i p d hp))

/-- What the first point leaves in the scratch depends on the features, the map and the bias alone. -/
theorem scrFirst_indep (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1256x512 .f32) (harg4 : arg4.IsWhole) (arg5 : Memref sig .tc .vmem S1256x512 .f32) (harg5 : arg5.IsWhole) (arg6 : Memref sig .tc .vmem S1256x512 .f32) (harg6 : arg6.IsWhole) (arg7 : Memref sig .tc .vmem S1256x512 .f32) (harg7 : arg7.IsWhole) (arg8 : Memref sig .tc .vmem S1256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1256x256 .f32) (harg11 : arg11.IsWhole) (arg12 : Memref sig .tc .vmem S2048x256 .f32) (harg12 : arg12.IsWhole) (hc : firstPoint i)
    (x1 : Vec Ideal S2048x256 .f32) (x2 : Vec Ideal S256x256 .f32) (x3 : Vec Ideal S1x256 .f32)
    (a1 a2 a3 a4 a1' a2' a3' a4' : Vec Ideal S1256x512 .f32) (e e' : Vec Ideal S1256x256 .f32) (g s g' s' : Vec Ideal S1x256 .f32) :
    scrFirst c i arg1 harg1 arg2 harg2 arg3 harg3 arg4 harg4 arg5 harg5 arg6 harg6 arg7 harg7 arg8 harg8 arg9 harg9 arg10 harg10 arg11 harg11 arg12 harg12 hc x1 x2 x3 a1 a2 a3 a4 e g s = scrFirst c i arg1 harg1 arg2 harg2 arg3 harg3 arg4 harg4 arg5 harg5 arg6 harg6 arg7 harg7 arg8 harg8 arg9 harg9 arg10 harg10 arg11 harg11 arg12 harg12 hc x1 x2 x3 a1' a2' a3' a4' e' g' s' := by
  rw [scrFirst_eq, scrFirst_eq]

end Cert.KernelIdeal.Body

end
-- ==== Proof.KiValue.lean ====
/-
  The kernel region run point by point, for the claim about its value, on the extended reals.

  Here what the body leaves is named. In the scratch: before the first point anything; from then on the projected
  features the first point stored, which every later point only reads. In the result's buffer at each point: the
  normalised block computed from that point's row blocks and those features. The eighth row block reaches past the
  arrays' end, and its buffers hold unnamed words on the last 48 rows; every operation of the body works row by row,
  so the rows of the result that lie inside the array do not depend on those words, and only those rows are written
  back.
-/
import proofs.«156365_g712964571491_cont_9to1c4b_112_17_alg».proof.Proof.KiData
import proofs.«156365_g712964571491_cont_9to1c4b_112_17_alg».proof.Proof.KiBodyFirst
import proofs.«156365_g712964571491_cont_9to1c4b_112_17_alg».proof.Proof.KiOut
import proofs.«156365_g712964571491_cont_9to1c4b_112_17_alg».proof.Proof.KiRows
import Idealize.ShloMosaic.Lib.Pipeline.Kit
import Idealize.ShloMosaic.Lib.Pipeline.Frame
import Idealize.ShloMosaic.Lib.Tactic

set_option maxRecDepth 16384

noncomputable section

namespace Cert.KernelIdeal.Frame

open Cert.KernelIdeal Cert.KernelIdeal.Gen Cert.KernelIdeal.Entry Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The scratch before point `n`: anything before the first point, the projected features afterwards. -/
def scrInv (c : Dev nD) : InvAt Ideal := fun n =>
  if n.val = 0 then iprop(∃ d, owns (c : Thread nD τ) scrM fullShare d) else owns (c : Thread nD τ) scrM fullShare (featAt m c)

/-- The proof data that names the value: the result's buffer at `outAt`, the scratch tracked. -/
abbrev vdats (_ : Fin 1) (c : Dev nD) : Dat τ (Elt Ideal) Unit ℕ (UR sig nD τ) ℕ cfg0 c :=
  datsOf m c (outAt m c) (scrInv m c)

theorem scrInv_first (c : Dev nD) (t : Fin cfg0.N) (h : t.val = 0) :
    (vdats m 0 c).Φ t.castSucc = iprop(∃ d, owns (c : Thread nD τ) scrM fullShare d) := by
  show scrInv m c t.castSucc = _; unfold scrInv; rw [if_pos (by simpa using h)]
theorem scrInv_later (c : Dev nD) (t : Fin cfg0.N) (h : t.val ≠ 0) :
    (vdats m 0 c).Φ t.castSucc = owns (c : Thread nD τ) scrM fullShare (featAt m c) := by
  show scrInv m c t.castSucc = _; unfold scrInv; rw [if_neg (by simpa using h)]
theorem scrInv_succ (c : Dev nD) (t : Fin cfg0.N) :
    (vdats m 0 c).Φ t.succ = owns (c : Thread nD τ) scrM fullShare (featAt m c) := by
  show scrInv m c t.succ = _; unfold scrInv; rw [if_neg (by simp)]

/-- The result's buffer comes to the body fresh at every point: it was written back at the point before. -/
theorem before_10 (c : Dev nD) (t : Fin cfg0.N) (d) : (vdats m 0 c).before 10 t d = d :=
  (vdats m 0 c).before_out_reset 10 rfl t
    (by by_cases h : t.val = 0
        · exact .inl h
        · exact .inr ⟨h, flush0_10 _⟩) d

/-! ## The body at every point -/

def bodyPreV (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d))
    ∗ (∃ d, owns (c : Thread nD τ) (st0_8 t) fullShare ((vdats m 0 c).before 8 t d))
    ∗ (∃ d, owns (c : Thread nD τ) (st0_9 t) fullShare ((vdats m 0 c).before 9 t d))
    ∗ (∃ d, owns (c : Thread nD τ) (st0_10 t) fullShare ((vdats m 0 c).before 10 t d)))

def bodyPostV (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ (∃ d, owns (c : Thread nD τ) (st0_3 t) fullShare ((cfg0.win 3).fill (grid0.coords t) d ((cfg0.win 3).cut (grid0.coords t) ((vdats m 0 c).after 3 t))))
    ∗ (∃ d, owns (c : Thread nD τ) (st0_4 t) fullShare ((cfg0.win 4).fill (grid0.coords t) d ((cfg0.win 4).cut (grid0.coords t) ((vdats m 0 c).after 4 t))))
    ∗ (∃ d, owns (c : Thread nD τ) (st0_5 t) fullShare ((cfg0.win 5).fill (grid0.coords t) d ((cfg0.win 5).cut (grid0.coords t) ((vdats m 0 c).after 5 t))))
    ∗ (∃ d, owns (c : Thread nD τ) (st0_6 t) fullShare ((cfg0.win 6).fill (grid0.coords t) d ((cfg0.win 6).cut (grid0.coords t) ((vdats m 0 c).after 6 t))))
    ∗ (∃ d, owns (c : Thread nD τ) (st0_7 t) fullShare ((cfg0.win 7).fill (grid0.coords t) d ((cfg0.win 7).cut (grid0.coords t) ((vdats m 0 c).after 7 t))))
    ∗ owns (c : Thread nD τ) (st0_8 t) fullShare ((vdats m 0 c).after 8 t)
    ∗ owns (c : Thread nD τ) (st0_9 t) fullShare ((vdats m 0 c).after 9 t)
    ∗ (∃ d, owns (c : Thread nD τ) (st0_10 t) fullShare ((cfg0.win 10).fill (grid0.coords t) d ((cfg0.win 10).cut (grid0.coords t) ((vdats m 0 c).after 10 t)))))

set_option maxHeartbeats 1600000 in
/-- At the first point the body fills the scratch with the projected features and stores the first block of the
    result; at the others it reads the scratch and stores its block. The rows it stores inside the array are the
    named ones whatever lies past the arrays' end in the row-block buffers. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  rw [show (vdats m 0 c).owesAt () t.succ = (vdats m 0 c).owesAt () t.castSucc from rfl, scrInv_succ]
  simp only [before_0, before_1, before_2, before_3, before_4, before_5, before_6, before_7, before_8, before_9, before_10]
  have e3 (d) : (win0 3).fill (grid0.coords t) d ((win0 3).cut (grid0.coords t) (landed0 m c 3 t)) = landed m c 3 t d :=
    congrArg ((win0 3).fill (grid0.coords t) d) ((win0 3).cut_fill (grid0.coords t) _ (part m c 3 t))
  have e4 (d) : (win0 4).fill (grid0.coords t) d ((win0 4).cut (grid0.coords t) (landed0 m c 4 t)) = landed m c 4 t d :=
    congrArg ((win0 4).fill (grid0.coords t) d) ((win0 4).cut_fill (grid0.coords t) _ (part m c 4 t))
  have e5 (d) : (win0 5).fill (grid0.coords t) d ((win0 5).cut (grid0.coords t) (landed0 m c 5 t)) = landed m c 5 t d :=
    congrArg ((win0 5).fill (grid0.coords t) d) ((win0 5).cut_fill (grid0.coords t) _ (part m c 5 t))
  have e6 (d) : (win0 6).fill (grid0.coords t) d ((win0 6).cut (grid0.coords t) (landed0 m c 6 t)) = landed m c 6 t d :=
    congrArg ((win0 6).fill (grid0.coords t) d) ((win0 6).cut_fill (grid0.coords t) _ (part m c 6 t))
  have e7 (d) : (win0 7).fill (grid0.coords t) d ((win0 7).cut (grid0.coords t) (landed0 m c 7 t)) = landed m c 7 t d :=
    congrArg ((win0 7).fill (grid0.coords t) d) ((win0 7).cut_fill (grid0.coords t) _ (part m c 7 t))
  by_cases hc : firstPoint (grid0.coords t)
  · have ht : t = t0_0 := Fin.ext ((firstPoint_iff t).mp hc)
    rw [scrInv_first m c t ((firstPoint_iff t).mp hc)]
    iintro ⟨⟨%P, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X10, H10⟩⟩
    have hcut : (cfg0.win 10).cut (grid0.coords t) (outAt m c t) = (cfg0.win 10).cut (grid0.coords t) (outFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t)) := by
      unfold outAt; rw [dif_pos hc]
      exact cut_outFirst_fill c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (part m c 3 t) (part m c 4 t) (part m c 5 t) (part m c 6 t) (part m c 7 t) (fun _ => Classical.arbitrary _) d3 (fun _ => Classical.arbitrary _) d4 (fun _ => Classical.arbitrary _) d5 (fun _ => Classical.arbitrary _) d6 (fun _ => Classical.arbitrary _) d7 (held m c 8 t) (held m c 9 t)
    have hscr : scrFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t) = featAt m c := by
      subst ht
      exact scrFirst_indep c (grid0.coords t0_0) (win0_0.stage (cfg0.slots t0_0 0)) (hstage0_0 ((cfg0.slots t0_0 0).cast nbuf0_0)) (win0_1.stage (cfg0.slots t0_0 1)) (hstage0_1 ((cfg0.slots t0_0 1).cast nbuf0_1)) (win0_2.stage (cfg0.slots t0_0 2)) (hstage0_2 ((cfg0.slots t0_0 2).cast nbuf0_2)) (win0_3.stage (cfg0.slots t0_0 3)) (hstage0_3 ((cfg0.slots t0_0 3).cast nbuf0_3)) (win0_4.stage (cfg0.slots t0_0 4)) (hstage0_4 ((cfg0.slots t0_0 4).cast nbuf0_4)) (win0_5.stage (cfg0.slots t0_0 5)) (hstage0_5 ((cfg0.slots t0_0 5).cast nbuf0_5)) (win0_6.stage (cfg0.slots t0_0 6)) (hstage0_6 ((cfg0.slots t0_0 6).cast nbuf0_6)) (win0_7.stage (cfg0.slots t0_0 7)) (hstage0_7 ((cfg0.slots t0_0 7).cast nbuf0_7)) (win0_8.stage (cfg0.slots t0_0 8)) (hstage0_8 ((cfg0.slots t0_0 8).cast nbuf0_8)) (win0_9.stage (cfg0.slots t0_0 9)) (hstage0_9 ((cfg0.slots t0_0 9).cast nbuf0_9)) (win0_10.stage (cfg0.slots t0_0 10)) (hstage0_10 ((cfg0.slots t0_0 10).cast nbuf0_10)) scrM (Memref.isWhole_whole _) hc _ _ _ _ _ _ _ _ _ _ _ _ _ _ _ _ _
    iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists X10; iexact H10
    isplitl [HS]; · iexists P; iexact HS
    iintro ⟨H0, H1, H2, H3, H4, H5, H6, H7, H8, H9, ⟨%f10, H10⟩, ⟨%fS, HS⟩⟩
    isplitl [HS]
    · rw [← hscr]; unfold owns; iexists _; isplitr; swap; · iexact HS
      ipureintro; exact View.read_writes_of_cover _ _ _ _ _ (scoverFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t))
    isplitl [Ho]; · iexact Ho
    isplitl [H0]; · rw [after_0]; iexact H0
    isplitl [H1]; · rw [after_1]; iexact H1
    isplitl [H2]; · rw [after_2]; iexact H2
    isplitl [H3]; · iexists d3; rw [after_3, e3 d3]; iexact H3
    isplitl [H4]; · iexists d4; rw [after_4, e4 d4]; iexact H4
    isplitl [H5]; · iexists d5; rw [after_5, e5 d5]; iexact H5
    isplitl [H6]; · iexists d6; rw [after_6, e6 d6]; iexact H6
    isplitl [H7]; · iexists d7; rw [after_7, e7 d7]; iexact H7
    isplitl [H8]; · rw [after_8]; iexact H8
    isplitl [H9]; · rw [after_9]; iexact H9
    iexists (outFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t))
    rw [after_10, hcut, Window.fill_cut]
    unfold owns; iexists _; isplitr; swap; · iexact H10
    ipureintro; exact View.read_writes_of_cover _ _ _ _ _ (coverFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t))
  · rw [scrInv_later m c t (fun h => hc ((firstPoint_iff t).mpr h))]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X10, H10⟩⟩
    have hcut : (cfg0.win 10).cut (grid0.coords t) (outAt m c t) = (cfg0.win 10).cut (grid0.coords t) (outLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t) (featAt m c)) := by
      unfold outAt; rw [dif_neg hc]
      exact cut_outLater_fill c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (part m c 3 t) (part m c 4 t) (part m c 5 t) (part m c 6 t) (part m c 7 t) (fun _ => Classical.arbitrary _) d3 (fun _ => Classical.arbitrary _) d4 (fun _ => Classical.arbitrary _) d5 (fun _ => Classical.arbitrary _) d6 (fun _ => Classical.arbitrary _) d7 (held m c 8 t) (held m c 9 t) (featAt m c)
    iapply ((runLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t) (featAt m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists X10; iexact H10
    isplitl [HS]; · iexact HS
    iintro ⟨H0, H1, H2, H3, H4, H5, H6, H7, H8, H9, ⟨%f10, H10⟩, HS⟩
    isplitl [HS]; · iexact HS
    isplitl [Ho]; · iexact Ho
    isplitl [H0]; · rw [after_0]; iexact H0
    isplitl [H1]; · rw [after_1]; iexact H1
    isplitl [H2]; · rw [after_2]; iexact H2
    isplitl [H3]; · iexists d3; rw [after_3, e3 d3]; iexact H3
    isplitl [H4]; · iexists d4; rw [after_4, e4 d4]; iexact H4
    isplitl [H5]; · iexists d5; rw [after_5, e5 d5]; iexact H5
    isplitl [H6]; · iexists d6; rw [after_6, e6 d6]; iexact H6
    isplitl [H7]; · iexists d7; rw [after_7, e7 d7]; iexact H7
    isplitl [H8]; · rw [after_8]; iexact H8
    isplitl [H9]; · rw [after_9]; iexact H9
    iexists (outLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t) (featAt m c))
    rw [after_10, hcut, Window.fill_cut]
    unfold owns; iexists _; isplitr; swap; · iexact H10
    ipureintro; exact View.read_writes_of_cover _ _ _ _ _ (coverLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) scrM (Memref.isWhole_whole _) hc (held m c 0 t) (held m c 1 t) (held m c 2 t) (landed m c 3 t d3) (landed m c 4 t d4) (landed m c 5 t d5) (landed m c 6 t d6) (landed m c 7 t d7) (held m c 8 t) (held m c 9 t) (featAt m c))

/-- The pipeline's body obligation, every window named. -/
theorem body_obligationV (c : Dev nD) :
    BodyObligationLoose (vdats m 0 c) (defs₀ (F := Ideal)) Variants.none () Set.univ := fun t => by
  rw [bigSep_W0, bigSep_W0]
  exact sound_bodyV m c t

/-! ## The run -/

set_option backward.isDefEq.respectTransparency.types false in
/-- From any memory with zero counters every weakly fair execution of @main ends, each window's array at what the
    write-backs make of it and every bypassing buffer as the region found it. -/
theorem run_val : θ_run defs (onTc (τ := τ) (main (F := Ideal))) (s₀ m ρ)
    (fun r => ∀ c : Dev nD, (∀ w, r.2.mem ((cfg0.spec w).arr.view.loc (c : Thread nD τ)) = (vdats m 0 c).arrAt w cfg0.N)
      ∧ ∀ b ∈ Pipeline.restRefs sig spec0, r.2.mem ((c : Thread nD τ).loc b) = V m c b) :=
  Pipeline.θ_run_region_noSem_shared cfgs (vdats m) () cellOf_inj (0 : Fin 1) winFacts₀0 emb₁ defs₀ Variants.none m ρ main
    (hbody := body_obligationV m)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := fun c => Shares.arrays_of_arrBufs_dat c (V m c) (vdats m 0 c) rfl _ (fun _ => rfl))
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [scopedRest0_eq]
      show _ ⊢ scrInv m c 0
      unfold scrInv; rw [if_pos (Fin.val_zero _)]
      simp only [scrM, owns_whole]
      iintro ⟨-, H⟩; iexact H)
    (hout := fun c => by
      rw [scopedRest0_eq]
      show scrInv m c (Fin.last cfg0.N) ⊢ _
      unfold scrInv; rw [if_neg (by rw [Fin.val_last]; have : cfg0.N = 8 := N_0; omega)]
      simp only [scrM, owns_whole]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- The four small arguments bypass the region. -/
theorem arg3_restV : main_arg3 ∈ Pipeline.restRefs sig spec0 := by decide
theorem arg4_restV : main_arg4 ∈ Pipeline.restRefs sig spec0 := by decide
theorem arg5_restV : main_arg5 ∈ Pipeline.restRefs sig spec0 := by decide
theorem arg6_restV : main_arg6 ∈ Pipeline.restRefs sig spec0 := by decide

/-- After the run: the result array is what the eight write-backs make of it, and each argument holds what it held. -/
theorem run_kept : θ_run defs (onTc (τ := τ) (main (F := Ideal))) (s₀ m ρ)
    (fun r => ∀ c : Dev nD,
      r.2.mem ((c : Thread nD τ).loc main_v4) = (vdats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c =>
    ⟨(h c).1 10,
      ((h c).1 0).trans (((vdats m 0 c).arrAt_in 0 rfl _).trans (V_arg0 m c)),
      ((h c).1 3).trans (((vdats m 0 c).arrAt_in 3 rfl _).trans (V_arg1 m c)),
      ((h c).1 7).trans (((vdats m 0 c).arrAt_in 7 rfl _).trans (V_arg2 m c)),
      ((h c).2 _ arg3_restV).trans (V_arg3 m c), ((h c).2 _ arg4_restV).trans (V_arg4 m c),
      ((h c).2 _ arg5_restV).trans (V_arg5 m c), ((h c).2 _ arg6_restV).trans (V_arg6 m c)⟩) (run_val m ρ)

end Cert.KernelIdeal.Frame

end
-- ==== Proof.KiBlocks.lean ====
/-
  What each staging buffer of the region holds, as a function of the program's seven arguments.

  Five windows (the question features, the transposed map, the bias row, the two normalisation rows) are fetched at the
  first grid point only; their block is the whole array at block index (0, 0) and is never cut, so at every point the
  buffer holds the whole array: the features themselves, the map transposed, a 256-vector viewed as one row.

  Five windows (the four 512-column quarters of the weight matrix, and the embeddings) are fetched at every point: at
  point t the block is rows 1256·t … 1256·t + 1255 of the array (columns 512·q … 512·q + 511 for quarter q), cut at the
  array's 10000 rows. A row p of the buffer with 1256·t + p < 10000 is inside the cut, so the buffer there holds the
  array's element at row 1256·t + p and the quarter's column, whatever the buffer held on the rows past the end.
-/
import proofs.«156365_g712964571491_cont_9to1c4b_112_17_alg».proof.Proof.KiData
import proofs.«156365_g712964571491_cont_9to1c4b_112_17_alg».proof.Proof.KerPayOut
import Idealize.ShloMosaic.Lib.Pipeline.Value
import Idealize.ShloMosaic.Lib.ValueIdx

set_option maxRecDepth 16384

noncomputable section

namespace Cert.KernelIdeal.Frame

open Cert.KernelIdeal Cert.KernelIdeal.Gen Cert.KernelIdeal.Entry
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ)

/-! ## The windows fetched once -/

/-- The grid has eight points, so only the first has an index divisible by eight: a window fetched exactly at such
    points holds at every point what the first point's fetch brought. -/
theorem heldIn_eq_first (c : Dev nD) (w : Fin cfg0.W)
    (hf : ∀ t : Fin cfg0.N, (cfg0.win w).fetch t = true ↔ t.val % 8 = 0) :
    ∀ (n : ℕ) (h : n < cfg0.N),
      Pipeline.heldIn cfg0 (arrs m c) w n h = Pipeline.heldIn cfg0 (arrs m c) w 0 (Nat.lt_of_le_of_lt (Nat.zero_le n) h)
  | 0, _ => rfl
  | n + 1, h => by
    have hN : n + 1 < 8 := by have := h; rw [show cfg0.N = 8 from N_0] at this; exact this
    have hnf : (cfg0.win w).fetch ⟨n + 1, h⟩ = false := by
      rw [Bool.eq_false_iff]; intro hh
      have := (hf ⟨n + 1, h⟩).mp hh
      have e : (⟨n + 1, h⟩ : Fin cfg0.N).val = n + 1 := rfl
      rw [e] at this; omega
    rw [Pipeline.heldIn_of_not_fetch (arrs m c) w n h hnf]
    exact heldIn_eq_first c w hf n _

/-- Where a window is not cut, every coordinate of the block is within the transfer's extent. -/
theorem lt_xsize_of_uncut (w : Fin cfg0.W) (i : grid0.Coords) (hclip : ∀ a, (cfg0.win w).clip i a = none)
    (j : (cfg0.win w).block.Idx) (a : Fin (cfg0.win w).shape.rank) : (j a).val < (cfg0.win w).xsize i a := by
  have := (j a).isLt; unfold Window.xsize; rw [hclip a]; exact this

/-- What the first point's fetch brings into the buffer of an uncut window: every index of the block is moved, and
    holds the array's element that the block's rectangle puts under the same coordinates. -/
theorem heldIn_zero_apply (c : Dev nD) (w : Fin cfg0.W) (h0 : 0 < cfg0.N)
    (hclip : ∀ a, (cfg0.win w).clip (grid0.coords ⟨0, h0⟩) a = none) (j : (cfg0.win w).block.Idx) :
    ∃ y : ((cfg0.win w).xblock (grid0.coords ⟨0, h0⟩)).Idx, (∀ a, (y a).val = (j a).val) ∧
      Pipeline.heldIn cfg0 (arrs m c) w 0 h0 j = ((cfg0.win w).blk ⟨0, h0⟩).view.read (Elt F) (arrs m c w) y := by
  have hm : (cfg0.win w).moved (grid0.coords ⟨0, h0⟩) j = true :=
    ((cfg0.win w).moved_iff _ j).mpr (lt_xsize_of_uncut w _ hclip j)
  refine ⟨fun a => ⟨(j a).val, lt_xsize_of_uncut w _ hclip j a⟩, fun _ => rfl, ?_⟩
  show (cfg0.win w).fill (grid0.coords ⟨0, h0⟩) _ _ j = _
  unfold Window.fill; rw [dif_pos hm]

/-- The once-fetched windows' blocks sit at block index (0, 0) at every point. -/
theorem index0_0 : ∀ (t : Fin cfg0.N) (a : Fin 2), (cfg0.win 0).index t a = 0 :=
  (by decide +kernel : ∀ (t : Fin grid0.N) (a : Fin 2), win0_0.index t a = 0)
theorem index0_1 : ∀ (t : Fin cfg0.N) (a : Fin 2), (cfg0.win 1).index t a = 0 :=
  (by decide +kernel : ∀ (t : Fin grid0.N) (a : Fin 2), win0_1.index t a = 0)
theorem index0_2 : ∀ (t : Fin cfg0.N) (a : Fin 2), (cfg0.win 2).index t a = 0 :=
  (by decide +kernel : ∀ (t : Fin grid0.N) (a : Fin 2), win0_2.index t a = 0)
theorem index0_8 : ∀ (t : Fin cfg0.N) (a : Fin 2), (cfg0.win 8).index t a = 0 :=
  (by decide +kernel : ∀ (t : Fin grid0.N) (a : Fin 2), win0_8.index t a = 0)
theorem index0_9 : ∀ (t : Fin cfg0.N) (a : Fin 2), (cfg0.win 9).index t a = 0 :=
  (by decide +kernel : ∀ (t : Fin grid0.N) (a : Fin 2), win0_9.index t a = 0)

/-- The question features' buffer holds the whole array. -/
theorem held0_eq (c : Dev nD) (t : Fin cfg0.N) :
    (held m c 0 t : S2048x256.Idx → Elt F .f32) = m ((c : Thread nD τ).loc main_arg0) := by
  funext j
  have h0 : 0 < cfg0.N := Nat.lt_of_le_of_lt (Nat.zero_le _) t.isLt
  obtain ⟨y, hy, e⟩ := heldIn_zero_apply m c 0 h0 (fun _ => rfl) j
  show Pipeline.heldIn cfg0 (arrs m c) 0 t.val t.isLt j = _
  rw [heldIn_eq_first m c 0 fetch0_0 t.val t.isLt, e, View.read_apply]
  show V m c main_arg0 (((cfg0.win 0).blk ⟨0, h0⟩).view.emb y) = _
  rw [V_arg0]
  refine congrArg _ (funext fun a => Fin.ext ?_)
  show (((cfg0.win 0).rect ⟨0, h0⟩).emb y a : ℕ) = _
  rw [Window.rect_emb_val, hy, index0_0 ⟨0, h0⟩ a, Nat.zero_mul, Nat.zero_add]

/-- The map's buffer holds the map transposed. -/
theorem held1_eq (c : Dev nD) (t : Fin cfg0.N) :
    (held m c 1 t : S256x256.Idx → Elt F .f32) = transpose S256x256 [1, 0] (m ((c : Thread nD τ).loc main_arg3)) transposes_S256x256_S256x256_1_0 := by
  funext j
  have h0 : 0 < cfg0.N := Nat.lt_of_le_of_lt (Nat.zero_le _) t.isLt
  obtain ⟨y, hy, e⟩ := heldIn_zero_apply m c 1 h0 (fun _ => rfl) j
  show Pipeline.heldIn cfg0 (arrs m c) 1 t.val t.isLt j = _
  rw [heldIn_eq_first m c 1 fetch0_1 t.val t.isLt, e, View.read_apply]
  show V m c main_v0 (((cfg0.win 1).blk ⟨0, h0⟩).view.emb y) = _
  rw [V_v0]
  refine congrArg _ (funext fun a => Fin.ext ?_)
  show (((cfg0.win 1).rect ⟨0, h0⟩).emb y a : ℕ) = _
  rw [Window.rect_emb_val, hy, index0_1 ⟨0, h0⟩ a, Nat.zero_mul, Nat.zero_add]

/-- The bias's buffer holds the bias viewed as one row. -/
theorem held2_eq (c : Dev nD) (t : Fin cfg0.N) :
    (held m c 2 t : S1x256.Idx → Elt F .f32) = shapeCast S1x256 (m ((c : Thread nD τ).loc main_arg4)) shapeCasts_S256_S1x256 := by
  funext j
  have h0 : 0 < cfg0.N := Nat.lt_of_le_of_lt (Nat.zero_le _) t.isLt
  obtain ⟨y, hy, e⟩ := heldIn_zero_apply m c 2 h0 (fun _ => rfl) j
  show Pipeline.heldIn cfg0 (arrs m c) 2 t.val t.isLt j = _
  rw [heldIn_eq_first m c 2 fetch0_2 t.val t.isLt, e, View.read_apply]
  show V m c main_v1 (((cfg0.win 2).blk ⟨0, h0⟩).view.emb y) = _
  rw [V_v1]
  refine congrArg _ (funext fun a => Fin.ext ?_)
  show (((cfg0.win 2).rect ⟨0, h0⟩).emb y a : ℕ) = _
  rw [Window.rect_emb_val, hy, index0_2 ⟨0, h0⟩ a, Nat.zero_mul, Nat.zero_add]

/-- The scale's buffer holds the scale viewed as one row. -/
theorem held8_eq (c : Dev nD) (t : Fin cfg0.N) :
    (held m c 8 t : S1x256.Idx → Elt F .f32) = shapeCast S1x256 (m ((c : Thread nD τ).loc main_arg5)) shapeCasts_S256_S1x256 := by
  funext j
  have h0 : 0 < cfg0.N := Nat.lt_of_le_of_lt (Nat.zero_le _) t.isLt
  obtain ⟨y, hy, e⟩ := heldIn_zero_apply m c 8 h0 (fun _ => rfl) j
  show Pipeline.heldIn cfg0 (arrs m c) 8 t.val t.isLt j = _
  rw [heldIn_eq_first m c 8 fetch0_8 t.val t.isLt, e, View.read_apply]
  show V m c main_v2 (((cfg0.win 8).blk ⟨0, h0⟩).view.emb y) = _
  rw [V_v2]
  refine congrArg _ (funext fun a => Fin.ext ?_)
  show (((cfg0.win 8).rect ⟨0, h0⟩).emb y a : ℕ) = _
  rw [Window.rect_emb_val, hy, index0_8 ⟨0, h0⟩ a, Nat.zero_mul, Nat.zero_add]

/-- The shift's buffer holds the shift viewed as one row. -/
theorem held9_eq (c : Dev nD) (t : Fin cfg0.N) :
    (held m c 9 t : S1x256.Idx → Elt F .f32) = shapeCast S1x256 (m ((c : Thread nD τ).loc main_arg6)) shapeCasts_S256_S1x256 := by
  funext j
  have h0 : 0 < cfg0.N := Nat.lt_of_le_of_lt (Nat.zero_le _) t.isLt
  obtain ⟨y, hy, e⟩ := heldIn_zero_apply m c 9 h0 (fun _ => rfl) j
  show Pipeline.heldIn cfg0 (arrs m c) 9 t.val t.isLt j = _
  rw [heldIn_eq_first m c 9 fetch0_9 t.val t.isLt, e, View.read_apply]
  show V m c main_v3 (((cfg0.win 9).blk ⟨0, h0⟩).view.emb y) = _
  rw [V_v3]
  refine congrArg _ (funext fun a => Fin.ext ?_)
  show (((cfg0.win 9).rect ⟨0, h0⟩).emb y a : ℕ) = _
  rw [Window.rect_emb_val, hy, index0_9 ⟨0, h0⟩ a, Nat.zero_mul, Nat.zero_add]

/-! ## The windows fetched at every point -/

/-- An index of the block within the transfer's extent on every axis is moved by the fetch: the buffer then holds
    there what was fetched, at the same coordinates, whatever it held before. -/
theorem fill_apply_of_lt {G : Pipeline.Grid} (w : Window sig G) {α : Type} (i : G.Coords) (d : w.block.Idx → α)
    (g : (w.xblock i).Idx → α) (j : w.block.Idx) (h : ∀ a, (j a).val < w.xsize i a) :
    ∃ y : (w.xblock i).Idx, (∀ a, (y a).val = (j a).val) ∧ w.fill i d g j = g y := by
  refine ⟨fun a => ⟨(j a).val, h a⟩, fun _ => rfl, ?_⟩
  unfold Window.fill; rw [dif_pos ((w.moved_iff i j).mpr h)]

/-- Quarter 0 of the weights: at point `t` its block sits at block index (t, 0), and only its rows are ever cut. -/
theorem index0_3 : ∀ t : Fin cfg0.N, (cfg0.win 3).index t 0 = t.val ∧ (cfg0.win 3).index t 1 = 0 :=
  (by decide +kernel : ∀ t : Fin grid0.N, win0_3.index t 0 = t.val ∧ win0_3.index t 1 = 0)
theorem xsize0_3 : ∀ t : Fin cfg0.N,
    ((cfg0.win 3).xsize (grid0.coords t) 0 = 1256 ∨ 1256 * t.val + (cfg0.win 3).xsize (grid0.coords t) 0 = 10000)
      ∧ (cfg0.win 3).xsize (grid0.coords t) 1 = 512 :=
  (by decide +kernel : ∀ t : Fin grid0.N,
    (win0_3.xsize (grid0.coords t) 0 = 1256 ∨ 1256 * t.val + win0_3.xsize (grid0.coords t) 0 = 10000)
      ∧ win0_3.xsize (grid0.coords t) 1 = 512)

/-- Row `p` of quarter 0's buffer at point `t`, when row 1256·t + p is a row of the array: the weight of student
    1256·t + p for question j. -/
theorem landed3_apply (c : Dev nD) (t : Fin cfg0.N) (d : (cfg0.win 3).block.Idx → Elt F (cfg0.win 3).elt)
    (p : Fin 1256) (r : Fin 10000) (hr : r.val = 1256 * t.val + p.val) (j : Fin 512) (k : Fin 2048) (hk : k.val = j.val) :
    (landed m c 3 t d : S1256x512.Idx → Elt F .f32) (ix2 p j) = m ((c : Thread nD τ).loc main_arg1) (ix2 r k) := by
  have hlt : ∀ a, ((ix2 p j : S1256x512.Idx) a).val < (cfg0.win 3).xsize (grid0.coords t) a := fun a =>
    match a with
    | ⟨0, _⟩ => by
      show p.val < (cfg0.win 3).xsize (grid0.coords t) 0
      have := (xsize0_3 t).1; have := r.isLt; have := p.isLt; omega
    | ⟨1, _⟩ => by
      show j.val < (cfg0.win 3).xsize (grid0.coords t) 1
      rw [(xsize0_3 t).2]; exact j.isLt
  obtain ⟨y, hy, e⟩ := fill_apply_of_lt (cfg0.win 3) (grid0.coords t) d (part m c 3 t) (ix2 p j) hlt
  show (cfg0.win 3).fill (grid0.coords t) d (part m c 3 t) (ix2 p j) = _
  rw [e]
  show ((cfg0.win 3).blk t).view.read (Elt F) (arrs m c 3) y = _
  rw [View.read_apply]
  show V m c main_arg1 (((cfg0.win 3).blk t).view.emb y) = _
  rw [V_arg1]
  refine congrArg _ (funext fun a => Fin.ext ?_)
  show (((cfg0.win 3).rect t).emb y a : ℕ) = _
  rw [Window.rect_emb_val, hy]
  exact (show ∀ a : Fin 2, (cfg0.win 3).index t a * (cfg0.win 3).size a + ((ix2 p j : S1256x512.Idx) a).val
      = ((ix2 r k : S10000x2048.Idx) a).val from fun a =>
    match a with
    | ⟨0, _⟩ => by
      show (cfg0.win 3).index t 0 * 1256 + p.val = r.val
      rw [(index0_3 t).1]; omega
    | ⟨1, _⟩ => by
      show (cfg0.win 3).index t 1 * 512 + j.val = k.val
      rw [(index0_3 t).2]; omega) a

/-- Quarter 1 of the weights: at point `t` its block sits at block index (t, 1), and only its rows are ever cut. -/
theorem index0_4 : ∀ t : Fin cfg0.N, (cfg0.win 4).index t 0 = t.val ∧ (cfg0.win 4).index t 1 = 1 :=
  (by decide +kernel : ∀ t : Fin grid0.N, win0_4.index t 0 = t.val ∧ win0_4.index t 1 = 1)
theorem xsize0_4 : ∀ t : Fin cfg0.N,
    ((cfg0.win 4).xsize (grid0.coords t) 0 = 1256 ∨ 1256 * t.val + (cfg0.win 4).xsize (grid0.coords t) 0 = 10000)
      ∧ (cfg0.win 4).xsize (grid0.coords t) 1 = 512 :=
  (by decide +kernel : ∀ t : Fin grid0.N,
    (win0_4.xsize (grid0.coords t) 0 = 1256 ∨ 1256 * t.val + win0_4.xsize (grid0.coords t) 0 = 10000)
      ∧ win0_4.xsize (grid0.coords t) 1 = 512)

/-- Row `p` of quarter 1's buffer at point `t`, when row 1256·t + p is a row of the array: the weight of student
    1256·t + p for question 512 + j. -/
theorem landed4_apply (c : Dev nD) (t : Fin cfg0.N) (d : (cfg0.win 4).block.Idx → Elt F (cfg0.win 4).elt)
    (p : Fin 1256) (r : Fin 10000) (hr : r.val = 1256 * t.val + p.val) (j : Fin 512) (k : Fin 2048) (hk : k.val = 512 + j.val) :
    (landed m c 4 t d : S1256x512.Idx → Elt F .f32) (ix2 p j) = m ((c : Thread nD τ).loc main_arg1) (ix2 r k) := by
  have hlt : ∀ a, ((ix2 p j : S1256x512.Idx) a).val < (cfg0.win 4).xsize (grid0.coords t) a := fun a =>
    match a with
    | ⟨0, _⟩ => by
      show p.val < (cfg0.win 4).xsize (grid0.coords t) 0
      have := (xsize0_4 t).1; have := r.isLt; have := p.isLt; omega
    | ⟨1, _⟩ => by
      show j.val < (cfg0.win 4).xsize (grid0.coords t) 1
      rw [(xsize0_4 t).2]; exact j.isLt
  obtain ⟨y, hy, e⟩ := fill_apply_of_lt (cfg0.win 4) (grid0.coords t) d (part m c 4 t) (ix2 p j) hlt
  show (cfg0.win 4).fill (grid0.coords t) d (part m c 4 t) (ix2 p j) = _
  rw [e]
  show ((cfg0.win 4).blk t).view.read (Elt F) (arrs m c 4) y = _
  rw [View.read_apply]
  show V m c main_arg1 (((cfg0.win 4).blk t).view.emb y) = _
  rw [V_arg1]
  refine congrArg _ (funext fun a => Fin.ext ?_)
  show (((cfg0.win 4).rect t).emb y a : ℕ) = _
  rw [Window.rect_emb_val, hy]
  exact (show ∀ a : Fin 2, (cfg0.win 4).index t a * (cfg0.win 4).size a + ((ix2 p j : S1256x512.Idx) a).val
      = ((ix2 r k : S10000x2048.Idx) a).val from fun a =>
    match a with
    | ⟨0, _⟩ => by
      show (cfg0.win 4).index t 0 * 1256 + p.val = r.val
      rw [(index0_4 t).1]; omega
    | ⟨1, _⟩ => by
      show (cfg0.win 4).index t 1 * 512 + j.val = k.val
      rw [(index0_4 t).2]; omega) a

/-- Quarter 2 of the weights: at point `t` its block sits at block index (t, 2), and only its rows are ever cut. -/
theorem index0_5 : ∀ t : Fin cfg0.N, (cfg0.win 5).index t 0 = t.val ∧ (cfg0.win 5).index t 1 = 2 :=
  (by decide +kernel : ∀ t : Fin grid0.N, win0_5.index t 0 = t.val ∧ win0_5.index t 1 = 2)
theorem xsize0_5 : ∀ t : Fin cfg0.N,
    ((cfg0.win 5).xsize (grid0.coords t) 0 = 1256 ∨ 1256 * t.val + (cfg0.win 5).xsize (grid0.coords t) 0 = 10000)
      ∧ (cfg0.win 5).xsize (grid0.coords t) 1 = 512 :=
  (by decide +kernel : ∀ t : Fin grid0.N,
    (win0_5.xsize (grid0.coords t) 0 = 1256 ∨ 1256 * t.val + win0_5.xsize (grid0.coords t) 0 = 10000)
      ∧ win0_5.xsize (grid0.coords t) 1 = 512)

/-- Row `p` of quarter 2's buffer at point `t`, when row 1256·t + p is a row of the array: the weight of student
    1256·t + p for question 1024 + j. -/
theorem landed5_apply (c : Dev nD) (t : Fin cfg0.N) (d : (cfg0.win 5).block.Idx → Elt F (cfg0.win 5).elt)
    (p : Fin 1256) (r : Fin 10000) (hr : r.val = 1256 * t.val + p.val) (j : Fin 512) (k : Fin 2048) (hk : k.val = 1024 + j.val) :
    (landed m c 5 t d : S1256x512.Idx → Elt F .f32) (ix2 p j) = m ((c : Thread nD τ).loc main_arg1) (ix2 r k) := by
  have hlt : ∀ a, ((ix2 p j : S1256x512.Idx) a).val < (cfg0.win 5).xsize (grid0.coords t) a := fun a =>
    match a with
    | ⟨0, _⟩ => by
      show p.val < (cfg0.win 5).xsize (grid0.coords t) 0
      have := (xsize0_5 t).1; have := r.isLt; have := p.isLt; omega
    | ⟨1, _⟩ => by
      show j.val < (cfg0.win 5).xsize (grid0.coords t) 1
      rw [(xsize0_5 t).2]; exact j.isLt
  obtain ⟨y, hy, e⟩ := fill_apply_of_lt (cfg0.win 5) (grid0.coords t) d (part m c 5 t) (ix2 p j) hlt
  show (cfg0.win 5).fill (grid0.coords t) d (part m c 5 t) (ix2 p j) = _
  rw [e]
  show ((cfg0.win 5).blk t).view.read (Elt F) (arrs m c 5) y = _
  rw [View.read_apply]
  show V m c main_arg1 (((cfg0.win 5).blk t).view.emb y) = _
  rw [V_arg1]
  refine congrArg _ (funext fun a => Fin.ext ?_)
  show (((cfg0.win 5).rect t).emb y a : ℕ) = _
  rw [Window.rect_emb_val, hy]
  exact (show ∀ a : Fin 2, (cfg0.win 5).index t a * (cfg0.win 5).size a + ((ix2 p j : S1256x512.Idx) a).val
      = ((ix2 r k : S10000x2048.Idx) a).val from fun a =>
    match a with
    | ⟨0, _⟩ => by
      show (cfg0.win 5).index t 0 * 1256 + p.val = r.val
      rw [(index0_5 t).1]; omega
    | ⟨1, _⟩ => by
      show (cfg0.win 5).index t 1 * 512 + j.val = k.val
      rw [(index0_5 t).2]; omega) a

/-- Quarter 3 of the weights: at point `t` its block sits at block index (t, 3), and only its rows are ever cut. -/
theorem index0_6 : ∀ t : Fin cfg0.N, (cfg0.win 6).index t 0 = t.val ∧ (cfg0.win 6).index t 1 = 3 :=
  (by decide +kernel : ∀ t : Fin grid0.N, win0_6.index t 0 = t.val ∧ win0_6.index t 1 = 3)
theorem xsize0_6 : ∀ t : Fin cfg0.N,
    ((cfg0.win 6).xsize (grid0.coords t) 0 = 1256 ∨ 1256 * t.val + (cfg0.win 6).xsize (grid0.coords t) 0 = 10000)
      ∧ (cfg0.win 6).xsize (grid0.coords t) 1 = 512 :=
  (by decide +kernel : ∀ t : Fin grid0.N,
    (win0_6.xsize (grid0.coords t) 0 = 1256 ∨ 1256 * t.val + win0_6.xsize (grid0.coords t) 0 = 10000)
      ∧ win0_6.xsize (grid0.coords t) 1 = 512)

/-- Row `p` of quarter 3's buffer at point `t`, when row 1256·t + p is a row of the array: the weight of student
    1256·t + p for question 1536 + j. -/
theorem landed6_apply (c : Dev nD) (t : Fin cfg0.N) (d : (cfg0.win 6).block.Idx → Elt F (cfg0.win 6).elt)
    (p : Fin 1256) (r : Fin 10000) (hr : r.val = 1256 * t.val + p.val) (j : Fin 512) (k : Fin 2048) (hk : k.val = 1536 + j.val) :
    (landed m c 6 t d : S1256x512.Idx → Elt F .f32) (ix2 p j) = m ((c : Thread nD τ).loc main_arg1) (ix2 r k) := by
  have hlt : ∀ a, ((ix2 p j : S1256x512.Idx) a).val < (cfg0.win 6).xsize (grid0.coords t) a := fun a =>
    match a with
    | ⟨0, _⟩ => by
      show p.val < (cfg0.win 6).xsize (grid0.coords t) 0
      have := (xsize0_6 t).1; have := r.isLt; have := p.isLt; omega
    | ⟨1, _⟩ => by
      show j.val < (cfg0.win 6).xsize (grid0.coords t) 1
      rw [(xsize0_6 t).2]; exact j.isLt
  obtain ⟨y, hy, e⟩ := fill_apply_of_lt (cfg0.win 6) (grid0.coords t) d (part m c 6 t) (ix2 p j) hlt
  show (cfg0.win 6).fill (grid0.coords t) d (part m c 6 t) (ix2 p j) = _
  rw [e]
  show ((cfg0.win 6).blk t).view.read (Elt F) (arrs m c 6) y = _
  rw [View.read_apply]
  show V m c main_arg1 (((cfg0.win 6).blk t).view.emb y) = _
  rw [V_arg1]
  refine congrArg _ (funext fun a => Fin.ext ?_)
  show (((cfg0.win 6).rect t).emb y a : ℕ) = _
  rw [Window.rect_emb_val, hy]
  exact (show ∀ a : Fin 2, (cfg0.win 6).index t a * (cfg0.win 6).size a + ((ix2 p j : S1256x512.Idx) a).val
      = ((ix2 r k : S10000x2048.Idx) a).val from fun a =>
    match a with
    | ⟨0, _⟩ => by
      show (cfg0.win 6).index t 0 * 1256 + p.val = r.val
      rw [(index0_6 t).1]; omega
    | ⟨1, _⟩ => by
      show (cfg0.win 6).index t 1 * 512 + j.val = k.val
      rw [(index0_6 t).2]; omega) a

/-- The embeddings: at point `t` the block sits at block index (t, 0), and only its rows are ever cut. -/
theorem index0_7 : ∀ t : Fin cfg0.N, (cfg0.win 7).index t 0 = t.val ∧ (cfg0.win 7).index t 1 = 0 :=
  (by decide +kernel : ∀ t : Fin grid0.N, win0_7.index t 0 = t.val ∧ win0_7.index t 1 = 0)
theorem xsize0_7 : ∀ t : Fin cfg0.N,
    ((cfg0.win 7).xsize (grid0.coords t) 0 = 1256 ∨ 1256 * t.val + (cfg0.win 7).xsize (grid0.coords t) 0 = 10000)
      ∧ (cfg0.win 7).xsize (grid0.coords t) 1 = 256 :=
  (by decide +kernel : ∀ t : Fin grid0.N,
    (win0_7.xsize (grid0.coords t) 0 = 1256 ∨ 1256 * t.val + win0_7.xsize (grid0.coords t) 0 = 10000)
      ∧ win0_7.xsize (grid0.coords t) 1 = 256)

/-- Row `p` of the embeddings' buffer at point `t`, when row 1256·t + p is a row of the array: the embedding of
    student 1256·t + p. -/
theorem landed7_apply (c : Dev nD) (t : Fin cfg0.N) (d : (cfg0.win 7).block.Idx → Elt F (cfg0.win 7).elt)
    (p : Fin 1256) (r : Fin 10000) (hr : r.val = 1256 * t.val + p.val) (dd : Fin 256) :
    (landed m c 7 t d : S1256x256.Idx → Elt F .f32) (ix2 p dd) = m ((c : Thread nD τ).loc main_arg2) (ix2 r dd) := by
  have hlt : ∀ a, ((ix2 p dd : S1256x256.Idx) a).val < (cfg0.win 7).xsize (grid0.coords t) a := fun a =>
    match a with
    | ⟨0, _⟩ => by
      show p.val < (cfg0.win 7).xsize (grid0.coords t) 0
      have := (xsize0_7 t).1; have := r.isLt; have := p.isLt; omega
    | ⟨1, _⟩ => by
      show dd.val < (cfg0.win 7).xsize (grid0.coords t) 1
      rw [(xsize0_7 t).2]; exact dd.isLt
  obtain ⟨y, hy, e⟩ := fill_apply_of_lt (cfg0.win 7) (grid0.coords t) d (part m c 7 t) (ix2 p dd) hlt
  show (cfg0.win 7).fill (grid0.coords t) d (part m c 7 t) (ix2 p dd) = _
  rw [e]
  show ((cfg0.win 7).blk t).view.read (Elt F) (arrs m c 7) y = _
  rw [View.read_apply]
  show V m c main_arg2 (((cfg0.win 7).blk t).view.emb y) = _
  rw [V_arg2]
  refine congrArg _ (funext fun a => Fin.ext ?_)
  show (((cfg0.win 7).rect t).emb y a : ℕ) = _
  rw [Window.rect_emb_val, hy]
  exact (show ∀ a : Fin 2, (cfg0.win 7).index t a * (cfg0.win 7).size a + ((ix2 p dd : S1256x256.Idx) a).val
      = ((ix2 r dd : S10000x256.Idx) a).val from fun a =>
    match a with
    | ⟨0, _⟩ => by
      show (cfg0.win 7).index t 0 * 1256 + p.val = r.val
      rw [(index0_7 t).1]; omega
    | ⟨1, _⟩ => by
      show (cfg0.win 7).index t 1 * 256 + dd.val = dd.val
      rw [(index0_7 t).2]; omega) a

end Cert.KernelIdeal.Frame

end
-- ==== Proof.KiCover.lean ====
/-
  The result array's blocks cover it. The result has 10000 rows of 256 columns; its window writes back at every one of
  the eight grid points the rows 1256·t … 1256·t + 1255 that lie inside the array, all the columns: all 1256 rows
  for t < 7, the first 1208 for t = 7 (7·1256 = 8792 and 8792 + 1208 = 10000). So row r is in the block of
  point r / 1256, at row r − 1256·(r / 1256) of it.
-/
import proofs.«156365_g712964571491_cont_9to1c4b_112_17_alg».proof.Proof.Gen.KernelIdeal.Points
import Idealize.ShloMosaic.Lib.Pipeline.Value

noncomputable section

namespace Cert.KernelIdeal.Cover

open Cert.KernelIdeal Cert.KernelIdeal.Gen
open Idealize.ShloMosaic Idealize.ShloMosaic.TcCoe
open Idealize.SL Idealize.SL.Sem

/-- The grid has eight points. -/
theorem N_eq : cfg0.N = 8 := by decide

/-- The result window's index map and cuts, decided over the grid: point `t` has block row `t` and block column
    zero; the block has all its 1256 rows inside the array but at the last point, where 1208 are; every column is. -/
theorem idx10 : ∀ t : Fin cfg0.N, win0_10.index t (0 : Fin 2) = t.val ∧ win0_10.index t (1 : Fin 2) = 0
    ∧ win0_10.xsize (grid0.coords t) (0 : Fin 2) = (if t.val < 7 then 1256 else 1208)
    ∧ win0_10.xsize (grid0.coords t) (1 : Fin 2) = 256 :=
  (by decide +kernel : ∀ t : Fin grid0.N, _)

/-- An index of the result array is in point `t`'s block iff its row is among the block's 1256 rows (the rows past
    the array's end are no index's, and every column is in). -/
theorem mem_blk10 (t : Fin cfg0.N) (i : S10000x256.Idx) :
    i ∈ ((cfg0.win 10).blk t).view.set ↔ 1256 * t.val ≤ (i 0).val ∧ (i 0).val < 1256 * t.val + 1256 := by
  show i ∈ ((View.whole main_v4).slice (win0_10.rect t)).set ↔ _
  rw [View.set_slice_whole, Rect.mem_set_unit]
  obtain ⟨e0, e1, e2, e3⟩ := idx10 t
  have h0 : (i 0).val < 10000 := (i 0).isLt
  have h1 : (i 1).val < 256 := (i 1).isLt
  have ht : t.val < 8 := N_eq ▸ t.isLt
  constructor
  · intro h
    have b0 : win0_10.index t (0 : Fin 2) * 1256 ≤ (i 0).val
        ∧ (i 0).val < win0_10.index t (0 : Fin 2) * 1256 + win0_10.xsize (grid0.coords t) (0 : Fin 2) := h 0
    rw [e0, e2] at b0
    split at b0 <;> omega
  · intro h a
    match a with
    | ⟨0, _⟩ =>
      show win0_10.index t (0 : Fin 2) * 1256 ≤ (i 0).val
        ∧ (i 0).val < win0_10.index t (0 : Fin 2) * 1256 + win0_10.xsize (grid0.coords t) (0 : Fin 2)
      rw [e0, e2]
      split <;> omega
    | ⟨1, _⟩ =>
      show win0_10.index t (1 : Fin 2) * 256 ≤ (i 1).val
        ∧ (i 1).val < win0_10.index t (1 : Fin 2) * 256 + win0_10.xsize (grid0.coords t) (1 : Fin 2)
      rw [e1, e3]
      omega

/-- Where an element of point `t`'s block sits in the result array: row 1256·t plus its row in the block, and its own
    column. -/
theorem blk10_emb (t : Fin cfg0.N) (y : ((cfg0.win 10).xblock (grid0.coords t)).Idx) :
    (((((cfg0.win 10).blk t).view.emb y : S10000x256.Idx) 0).val = 1256 * t.val + (y 0).val)
      ∧ (((((cfg0.win 10).blk t).view.emb y : S10000x256.Idx) 1).val = (y 1).val) := by
  obtain ⟨e0, e1, e2, e3⟩ := idx10 t
  constructor
  · show win0_10.index t (0 : Fin 2) * 1256 + 1 * (y 0).val = _
    rw [e0]; omega
  · show win0_10.index t (1 : Fin 2) * 256 + 1 * (y 1).val = _
    rw [e1]; omega

/-- Every index of the result array is in some point's block: row `r` in that of point `r / 1256` (the eight blocks'
    rows, 1256 each but the last's 1208, are the array's 10000). -/
theorem cover10' (i : S10000x256.Idx) :
    ∃ t : Fin cfg0.N, (cfg0.win 10).flush t = true ∧ i ∈ ((cfg0.win 10).blk t).view.set := by
  have h0 : (i 0).val < 10000 := (i 0).isLt
  refine ⟨⟨(i 0).val / 1256, by rw [N_eq]; omega⟩, flush0_10 _, ?_⟩
  rw [mem_blk10]
  show 1256 * ((i 0).val / 1256) ≤ (i 0).val ∧ (i 0).val < 1256 * ((i 0).val / 1256) + 1256
  omega

/-- The same at the index type of the window's array on a core. -/
theorem cover10 {c : Dev nD} (i : ((cfg0.win 10).arr.view.loc (c : Thread nD τ)).2.ty.Idx) :
    ∃ t : Fin cfg0.N, (cfg0.win 10).flush t = true ∧ i ∈ ((cfg0.win 10).blk t).view.set :=
  cover10' i

end Cert.KernelIdeal.Cover

end
-- ==== Proof.KiFinal.lean ====
/-
  The result array after the region is the layer. Each grid point's write-back writes the rows of its block that lie
  inside the array; those rows of what the body left are the layer's rows 1256·t + p, because the point's weight
  quarters and embedding block are those rows of the arrays, the scratch holds the projected features, and the two
  normalisation rows are the scale and the shift. The eight blocks cover the array.
-/
import proofs.«156365_g712964571491_cont_9to1c4b_112_17_alg».proof.Proof.KiOut
import proofs.«156365_g712964571491_cont_9to1c4b_112_17_alg».proof.Proof.KiBlocks
import proofs.«156365_g712964571491_cont_9to1c4b_112_17_alg».proof.Proof.KiCover
import proofs.«156365_g712964571491_cont_9to1c4b_112_17_alg».proof.Proof.KerPayOut
import proofs.«156365_g712964571491_cont_9to1c4b_112_17_alg».proof.Proof.KiData
import Idealize.ShloMosaic.Lib.Pipeline.Value

set_option maxRecDepth 16384

noncomputable section

namespace Cert.KernelIdeal.Frame

open Cert.KernelIdeal Cert.KernelIdeal.Gen Cert.KernelIdeal.Entry
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Body

variable (m : (ℓ : Loc nD τ sig) → Buf (Elt Ideal) ℓ)

/-- The layer in the scaled arrangement as the result array of core c. -/
abbrev specArr (c : Dev nD) : Buf (Elt Ideal) ((c : Thread nD τ).loc main_v4) :=
  fun (i : S10000x256.Idx) => Gcn.outScaled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)

/-- The scratch holds the specification's projected features. -/
theorem feat_apply (c : Dev nD) (k : Fin 2048) (d : Fin 256) :
    featAt m c (ix2 k d) = Gcn.proj (m ((c : Thread nD τ).loc main_arg0)) (m ((c : Thread nD τ).loc main_arg3)) (m ((c : Thread nD τ).loc main_arg4)) k d := by
  rw [featAt_eq, held0_eq, held1_eq, held2_eq]
  exact KerValue.proj_eq_spec _ _ _ _ _ k d

/-- Row p of what point t leaves in the result's buffer is row 1256·t + p of the layer, when that row exists. -/
theorem outAt_apply (c : Dev nD) (t : Fin cfg0.N) (p : Fin 1256) (q : Fin 256) (r : Fin 10000)
    (hr : r.val = 1256 * t.val + p.val) :
    outAt m c t (ix2 p q) = Gcn.outScaled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r q := by
  rw [outAt_eq]
  refine KerValue.out_eq_spec_of_val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (landed0 m c 3 t) (landed0 m c 4 t) (landed0 m c 5 t) (landed0 m c 6 t)
    (slice0 (featAt m c)) (slice1 (featAt m c)) (slice2 (featAt m c)) (slice3 (featAt m c))
    (landed0 m c 7 t) (held m c 8 t) (held m c 9 t) p q r ?_ ?_ ?_ ?_ ?_ ?_ ?_ ?_ ?_ ?_ ?_
  · exact fun d => landed7_apply m c t _ p r hr d
  · intro d; rw [held8_eq]; exact KerValue.hostReshape_apply _ _ 0 d
  · intro d; rw [held9_eq]; exact KerValue.hostReshape_apply _ _ 0 d
  · exact fun j k hk => landed3_apply m c t _ p r hr j k hk
  · exact fun j k hk => landed4_apply m c t _ p r hr j k hk
  · exact fun j k hk => landed5_apply m c t _ p r hr j k hk
  · exact fun j k hk => landed6_apply m c t _ p r hr j k hk
  · intro j k d hk
    rw [slice0_apply, feat_apply]
    exact congrArg (fun k' => Gcn.proj _ _ _ k' d) (Fin.ext hk.symm)
  · intro j k d hk
    rw [slice1_apply, feat_apply]
    exact congrArg (fun k' => Gcn.proj _ _ _ k' d) (Fin.ext hk.symm)
  · intro j k d hk
    rw [slice2_apply, feat_apply]
    exact congrArg (fun k' => Gcn.proj _ _ _ k' d) (Fin.ext hk.symm)
  · intro j k d hk
    rw [slice3_apply, feat_apply]
    exact congrArg (fun k' => Gcn.proj _ _ _ k' d) (Fin.ext hk.symm)

/-- What point t's write-back writes is its block of the layer. -/
theorem cut_outAt (c : Dev nD) (t : Fin cfg0.N) :
    (cfg0.win 10).cut (grid0.coords t) (outAt m c t) = ((cfg0.win 10).blk t).view.read (Elt Ideal) (specArr m c) := by
  funext y
  obtain ⟨hrow, hcol⟩ := Cover.blk10_emb t y
  have hL : (cfg0.win 10).xinj (grid0.coords t) y
      = ix2 (n0 := 1256) (n1 := 256) ((cfg0.win 10).xinj (grid0.coords t) y 0) ((cfg0.win 10).xinj (grid0.coords t) y 1) :=
    eq_ix2 (n0 := 1256) (n1 := 256) _
  have hR : (((cfg0.win 10).blk t).view.emb y : S10000x256.Idx)
      = ix2 (n0 := 10000) (n1 := 256) ((((cfg0.win 10).blk t).view.emb y : S10000x256.Idx) 0) ((cfg0.win 10).xinj (grid0.coords t) y 1) := by
    funext a
    match a with
    | ⟨0, _⟩ => rfl
    | ⟨1, _⟩ => exact Fin.ext hcol
  show outAt m c t ((cfg0.win 10).xinj (grid0.coords t) y) = specArr m c (((cfg0.win 10).blk t).view.emb y)
  refine (congrArg (outAt m c t) hL).trans ?_
  refine Eq.trans ?_ (congrArg (specArr m c) hR).symm
  exact outAt_apply m c t _ _ _ hrow

/-- So the result array ends holding the layer. -/
theorem final_out (c : Dev nD) (inv : InvAt Ideal) : (datsOf m c (outAt m c) inv).arrAt 10 cfg0.N = specArr m c :=
  (datsOf m c (outAt m c) inv).arrAt_eq_of_cover 10 (specArr m c)
    (fun t _ => by
      show (cfg0.win 10).cut (grid0.coords t) ((datsOf m c (outAt m c) inv).after 10 t) = _
      rw [after_10]
      exact cut_outAt m c t)
    (fun i => Cover.cover10 i)

end Cert.KernelIdeal.Frame

end
-- ==== Proof.RefTerm.lean ====
/-
  The reference program's result as a term of its seven arguments, in six stages: every operation of the
  program, in the program's order, applied to the terms of its operands. The three outlined functions
  (the clip of the degree, the rectification, the variance with its guarded division) are written
  out where they are called. Nothing is simplified: each line is the operation as the program states it.
-/
import proofs.«156365_g712964571491_cont_9to1c4b_112_17_alg».proof.ReferenceIdeal
import Idealize.ShloMosaic.PureOps.Ideal

noncomputable section

namespace Cert.ReferenceIdeal.RefTerm

open Idealize.ShloMosaic
open Cert.ReferenceIdeal
open Cert.ReferenceIdeal.Facts₀

/-- The projected features: H against the transposed W, plus the bias broadcast along the rows. -/
def wh [Cert.ReferenceIdeal.Facts] (a0 : FVec Ideal S2048x256 .f32) (a3 : FVec Ideal S256x256 .f32)
    (a4 : FVec Ideal S256 .f32) : FVec Ideal S2048x256 .f32 :=
  let v0 : FVec Ideal S256x256 .f32 := transpose S256x256 [1, 0] a3 transposes_S256x256_S256x256_1_0
  let v1 : FVec Ideal S2048x256 .f32 :=
    Host.dotGeneral (F := Ideal) dot_S2048x256_S256x256_S2048x256_1_0_0_1_n_n none a0 v0
  let v2 : FVec Ideal S1x256 .f32 := broadcastInDim S1x256 ![1] bcast_S256_S1x256_1 a4
  let v3 : FVec Ideal S2048x256 .f32 := broadcastInDim S2048x256 ![0, 1] bcast_S1x256_S2048x256_0_1 v2
  addf (F := Ideal) v1 v3

/-- The clipped degree: each row of A summed from zero, as a column, then the larger of one and it. -/
def clipDeg [Cert.ReferenceIdeal.Facts] (a1 : FVec Ideal S10000x2048 .f32) : FVec Ideal S10000x1 .f32 :=
  let cst : FVec Ideal S_ .f32 := constant (F := Ideal) S_ .f32 0x00000000#32
  let v5 : FVec Ideal S10000 .f32 :=
    Host.reduceAdd (F := Ideal) a1 cst reducesTo_S10000x2048_S10000_d1 h_S_
  let v6 : FVec Ideal S10000x1 .f32 := broadcastInDim S10000x1 ![0] bcast_S10000_S10000x1_0 v5
  let cst_0 : FVec Ideal S_ .f32 := constant (F := Ideal) S_ .f32 0x3F800000#32
  -- the clip: the larger of one and the degree
  let call0_v0 : FVec Ideal S_ .f32 := id cst_0
  let call0_v1 : FVec Ideal S10000x1 .f32 := broadcastInDim S10000x1 ![] bcast_S_S10000x1 call0_v0
  maximumf (F := Ideal) call0_v1 v6

/-- The embedding plus the rectified message: every weight divided by its row's clipped degree, aggregated
    against the projected features, the larger of that and zero, added to E. -/
def xsum [Cert.ReferenceIdeal.Facts] (a1 : FVec Ideal S10000x2048 .f32) (a2 : FVec Ideal S10000x256 .f32)
    (p : FVec Ideal S2048x256 .f32) (dg : FVec Ideal S10000x1 .f32) : FVec Ideal S10000x256 .f32 :=
  let v8 : FVec Ideal S10000x2048 .f32 := broadcastInDim S10000x2048 ![0, 1] bcast_S10000x1_S10000x2048_0_1 dg
  let v9 : FVec Ideal S10000x2048 .f32 := Host.divf (F := Ideal) a1 v8
  let v10 : FVec Ideal S10000x256 .f32 :=
    Host.dotGeneral (F := Ideal) dot_S10000x2048_S2048x256_S10000x256_1_0_0_1_n_n none v9 p
  -- the rectification: the larger of the aggregate and zero
  let call1_cst : FVec Ideal S_ .f32 := constant (F := Ideal) S_ .f32 0x00000000#32
  let call1_v0 : FVec Ideal S10000x256 .f32 := broadcastInDim S10000x256 ![] bcast_S_S10000x256 call1_cst
  let v11 : FVec Ideal S10000x256 .f32 := maximumf (F := Ideal) v10 call1_v0
  -- the embedding plus the message
  addf (F := Ideal) a2 v11

/-- The row mean: the row's sum from zero, divided by 256. -/
def meanCol [Cert.ReferenceIdeal.Facts] (x : FVec Ideal S10000x256 .f32) : FVec Ideal S10000x1 .f32 :=
  let cst_1 : FVec Ideal S_ .f32 := constant (F := Ideal) S_ .f32 0x00000000#32
  let v13 : FVec Ideal S10000 .f32 :=
    Host.reduceAdd (F := Ideal) x cst_1 reducesTo_S10000x256_S10000_d1 h_S_
  let v14 : FVec Ideal S10000x1 .f32 := broadcastInDim S10000x1 ![0] bcast_S10000_S10000x1_0 v13
  let cst_2 : FVec Ideal S_ .f32 := constant (F := Ideal) S_ .f32 0x43800000#32
  let v15 : FVec Ideal S10000x1 .f32 := broadcastInDim S10000x1 ![] bcast_S_S10000x1 cst_2
  Host.divf (F := Ideal) v14 v15

/-- The row variance: the mean again, the squared deviations summed from zero, divided by 256 less the
    degrees of freedom given up (none), the quotient kept where that divisor is positive. -/
def varCol [Cert.ReferenceIdeal.Facts] (x : FVec Ideal S10000x256 .f32) : FVec Ideal S10000x1 .f32 :=
  let c : IVec S_ 32 := constantI S_ 32 0#32
  let call2_cst : FVec Ideal S_ .f32 := constant (F := Ideal) S_ .f32 0x00000000#32
  let call2_v0 : FVec Ideal S10000 .f32 :=
    Host.reduceAdd (F := Ideal) x call2_cst reducesTo_S10000x256_S10000_d1 h_S_
  let call2_v1 : FVec Ideal S10000x1 .f32 := broadcastInDim S10000x1 ![0] bcast_S10000_S10000x1_0 call2_v0
  let call2_cst_0 : FVec Ideal S_ .f32 := constant (F := Ideal) S_ .f32 0x43800000#32
  let call2_v2 : FVec Ideal S10000x1 .f32 := broadcastInDim S10000x1 ![] bcast_S_S10000x1 call2_cst_0
  let call2_v3 : FVec Ideal S10000x1 .f32 := Host.divf (F := Ideal) call2_v1 call2_v2
  let call2_v4 : FVec Ideal S10000x256 .f32 :=
    broadcastInDim S10000x256 ![0, 1] bcast_S10000x1_S10000x256_0_1 call2_v3
  let call2_v5 : FVec Ideal S10000x256 .f32 := subf (F := Ideal) x call2_v4
  let call2_v6 : FVec Ideal S10000x256 .f32 := mulf (F := Ideal) call2_v5 call2_v5
  let call2_v7 : FVec Ideal S_ .f32 := sitofp (F := Ideal) .f32 c
  let call2_cst_1 : FVec Ideal S_ .f32 := constant (F := Ideal) S_ .f32 0x43800000#32
  let call2_v8 : FVec Ideal S_ .f32 := subf (F := Ideal) call2_cst_1 call2_v7
  let call2_cst_2 : FVec Ideal S_ .f32 := constant (F := Ideal) S_ .f32 0x00000000#32
  let call2_v9 : FVec Ideal S10000 .f32 :=
    Host.reduceAdd (F := Ideal) call2_v6 call2_cst_2 reducesTo_S10000x256_S10000_d1 h_S_
  let call2_v10 : FVec Ideal S10000x1 .f32 := broadcastInDim S10000x1 ![0] bcast_S10000_S10000x1_0 call2_v9
  let call2_v11 : FVec Ideal S10000x1 .f32 := broadcastInDim S10000x1 ![] bcast_S_S10000x1 call2_v8
  let call2_v12 : FVec Ideal S10000x1 .f32 := Host.divf (F := Ideal) call2_v10 call2_v11
  let call2_cst_3 : FVec Ideal S_ .f32 := constant (F := Ideal) S_ .f32 0x00000000#32
  let call2_v13 : IVec S_ 1 := cmpf (F := Ideal) .ogt call2_v8 call2_cst_3
  let call2_cst_4 : FVec Ideal S_ .f32 := constant (F := Ideal) S_ .f32 0x7FC00000#32
  let call2_call0_v0 : FVec Ideal S_ .f32 := id call2_cst_4
  let call2_call0_v1 : FVec Ideal S10000x1 .f32 := broadcastInDim S10000x1 ![] bcast_S_S10000x1 call2_call0_v0
  select (broadcastInDim S10000x1 ![] bcast_S_S10000x1 call2_v13) call2_v12 call2_call0_v1

/-- The deviation from the mean over the square root of the variance plus the stabiliser, scaled by γ and
    shifted by β. -/
def normed [Cert.ReferenceIdeal.Facts] (x : FVec Ideal S10000x256 .f32) (mu va : FVec Ideal S10000x1 .f32)
    (a5 a6 : FVec Ideal S256 .f32) : FVec Ideal S10000x256 .f32 :=
  let v18 : FVec Ideal S10000x256 .f32 := broadcastInDim S10000x256 ![0, 1] bcast_S10000x1_S10000x256_0_1 mu
  let v19 : FVec Ideal S10000x256 .f32 := subf (F := Ideal) x v18
  let cst_3 : FVec Ideal S_ .f32 := constant (F := Ideal) S_ .f32 0x3727C5AC#32
  let v20 : FVec Ideal S10000x1 .f32 := broadcastInDim S10000x1 ![] bcast_S_S10000x1 cst_3
  let v21 : FVec Ideal S10000x1 .f32 := addf (F := Ideal) va v20
  let v22 : FVec Ideal S10000x1 .f32 := Host.sqrt (F := Ideal) v21
  let v23 : FVec Ideal S10000x256 .f32 := broadcastInDim S10000x256 ![0, 1] bcast_S10000x1_S10000x256_0_1 v22
  let v24 : FVec Ideal S10000x256 .f32 := Host.divf (F := Ideal) v19 v23
  let v25 : FVec Ideal S1x256 .f32 := broadcastInDim S1x256 ![1] bcast_S256_S1x256_1 a5
  let v26 : FVec Ideal S10000x256 .f32 := broadcastInDim S10000x256 ![0, 1] bcast_S1x256_S10000x256_0_1 v25
  let v27 : FVec Ideal S10000x256 .f32 := mulf (F := Ideal) v24 v26
  let v28 : FVec Ideal S1x256 .f32 := broadcastInDim S1x256 ![1] bcast_S256_S1x256_1 a6
  let v29 : FVec Ideal S10000x256 .f32 := broadcastInDim S10000x256 ![0, 1] bcast_S1x256_S10000x256_0_1 v28
  addf (F := Ideal) v27 v29

/-- The reference's result: H the features, A the weights, E the embeddings, W and b the linear map and its
    bias, γ and β the normalisation's scale and shift, as arguments 0 to 6. -/
def refTerm [Cert.ReferenceIdeal.Facts] (a0 : FVec Ideal S2048x256 .f32) (a1 : FVec Ideal S10000x2048 .f32)
    (a2 : FVec Ideal S10000x256 .f32) (a3 : FVec Ideal S256x256 .f32) (a4 a5 a6 : FVec Ideal S256 .f32) :
    FVec Ideal S10000x256 .f32 :=
  normed (xsum a1 a2 (wh a0 a3 a4) (clipDeg a1)) (meanCol (xsum a1 a2 (wh a0 a3 a4) (clipDeg a1)))
    (varCol (xsum a1 a2 (wh a0 a3 a4) (clipDeg a1))) a5 a6

end Cert.ReferenceIdeal.RefTerm

end
-- ==== Proof.RefOps.lean ====
/-
  The reference program's @main as one straight line: its own operations in order, and, where it calls an
  outlined function (the clip of the degree, the rectification, the variance with its guarded quotient), that
  function's operations in the call's place, over the buffers the call names. The line is the program: both are
  the same chain of steps once the calls are unfolded. No buffer of the program is scoped, and every operation
  touches TensorCore buffers only, so the line's run is the fold of the operations' results over the launch
  contents.
-/
import proofs.«156365_g712964571491_cont_9to1c4b_112_17_alg».proof.ReferenceIdeal
import proofs.«156365_g712964571491_cont_9to1c4b_112_17_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The 63 operations of @main in order, the three calls unfolded: nine before the clip, the clip's three, three
    up to the aggregate, the rectification's three, eight up to the integer zero, the variance's twenty and its
    guarded selection's three, and the fourteen of the normalisation. -/
abbrev ops : List (HloOp τ sig (Elt F)) :=
  [ -- the projected features
    unary main_arg3 main_v0 ((transpose S256x256 [1, 0] · transposes_S256x256_S256x256_1_0) : (⟨S256x256, .f32⟩ : BufTy).Contents (Elt F) → (⟨S256x256, .f32⟩ : BufTy).Contents (Elt F)),
    binary main_arg0 main_v0 main_v1 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg4 main_v2 (broadcastInDim S1x256 ![1] bcast_S256_S1x256_1 : (⟨S256, .f32⟩ : BufTy).Contents (Elt F) → (⟨S1x256, .f32⟩ : BufTy).Contents (Elt F)),
    unary main_v2 main_v3 (broadcastInDim S2048x256 ![0, 1] bcast_S1x256_S2048x256_0_1 : (⟨S1x256, .f32⟩ : BufTy).Contents (Elt F) → (⟨S2048x256, .f32⟩ : BufTy).Contents (Elt F)),
    binary main_v1 main_v3 main_v4 (addf : (⟨S2048x256, .f32⟩ : BufTy).Contents (Elt F) → (⟨S2048x256, .f32⟩ : BufTy).Contents (Elt F) → (⟨S2048x256, .f32⟩ : BufTy).Contents (Elt F)),
    -- the degree, as a column
    nullary main_cst (constant S_ .f32 0x00000000#32),
    binary main_arg1 main_cst main_v5 ((fun x v => Host.reduceAdd x v reducesTo_S10000x2048_S10000_d1 h_S_) : (⟨S10000x2048, .f32⟩ : BufTy).Contents (Elt F) → (⟨S_, .f32⟩ : BufTy).Contents (Elt F) → (⟨S10000, .f32⟩ : BufTy).Contents (Elt F)),
    unary main_v5 main_v6 (broadcastInDim S10000x1 ![0] bcast_S10000_S10000x1_0 : (⟨S10000, .f32⟩ : BufTy).Contents (Elt F) → (⟨S10000x1, .f32⟩ : BufTy).Contents (Elt F)),
    nullary main_cst_0 (constant S_ .f32 0x3F800000#32),
    -- the clip: the larger of one and the degree
    TRef.unary (.of main_cst_0 : TRef sig ⟨S_, .f32⟩) main_call0.v0 id,
    TRef.unary main_call0.v0 main_call0.v1 (broadcastInDim S10000x1 ![] bcast_S_S10000x1),
    TRef.binary main_call0.v1 (.of main_v6 : TRef sig ⟨S10000x1, .f32⟩) main_call0.v2 maximumf,
    -- the weights divided by the clipped degree, aggregated against the projected features
    unary main_v7 main_v8 (broadcastInDim S10000x2048 ![0, 1] bcast_S10000x1_S10000x2048_0_1 : (⟨S10000x1, .f32⟩ : BufTy).Contents (Elt F) → (⟨S10000x2048, .f32⟩ : BufTy).Contents (Elt F)),
    binary main_arg1 main_v8 main_v9 (Host.divf : (⟨S10000x2048, .f32⟩ : BufTy).Contents (Elt F) → (⟨S10000x2048, .f32⟩ : BufTy).Contents (Elt F) → (⟨S10000x2048, .f32⟩ : BufTy).Contents (Elt F)),
    binary main_v9 main_v4 main_v10 ((fun l r => Host.dotGeneral dot_S10000x2048_S2048x256_S10000x256_1_0_0_1_n_n none l r) : (⟨S10000x2048, .f32⟩ : BufTy).Contents (Elt F) → (⟨S2048x256, .f32⟩ : BufTy).Contents (Elt F) → (⟨S10000x256, .f32⟩ : BufTy).Contents (Elt F)),
    -- the rectification: the larger of the aggregate and zero
    TRef.nullary main_call1.cst (constant S_ .f32 0x00000000#32),
    TRef.unary main_call1.cst main_call1.v0 (broadcastInDim S10000x256 ![] bcast_S_S10000x256),
    TRef.binary (.of main_v10 : TRef sig ⟨S10000x256, .f32⟩) main_call1.v0 main_call1.v1 maximumf,
    -- the embedding plus the message, and its row mean
    binary main_arg2 main_v11 main_v12 (addf : (⟨S10000x256, .f32⟩ : BufTy).Contents (Elt F) → (⟨S10000x256, .f32⟩ : BufTy).Contents (Elt F) → (⟨S10000x256, .f32⟩ : BufTy).Contents (Elt F)),
    nullary main_cst_1 (constant S_ .f32 0x00000000#32),
    binary main_v12 main_cst_1 main_v13 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v13 main_v14 (broadcastInDim S10000x1 ![0] bcast_S10000_S10000x1_0 : (⟨S10000, .f32⟩ : BufTy).Contents (Elt F) → (⟨S10000x1, .f32⟩ : BufTy).Contents (Elt F)),
    nullary main_cst_2 (constant S_ .f32 0x43800000#32),
    unary main_cst_2 main_v15 (broadcastInDim S10000x1 ![] bcast_S_S10000x1 : (⟨S_, .f32⟩ : BufTy).Contents (Elt F) → (⟨S10000x1, .f32⟩ : BufTy).Contents (Elt F)),
    binary main_v14 main_v15 main_v16 (Host.divf : (⟨S10000x1, .f32⟩ : BufTy).Contents (Elt F) → (⟨S10000x1, .f32⟩ : BufTy).Contents (Elt F) → (⟨S10000x1, .f32⟩ : BufTy).Contents (Elt F)),
    nullary main_c (constantI S_ 32 0#32),
    -- the variance: the mean again, the squared deviations summed, divided by 256 less the integer zero
    TRef.nullary main_call2.cst (constant S_ .f32 0x00000000#32),
    TRef.binary (.of main_v12 : TRef sig ⟨S10000x256, .f32⟩) main_call2.cst main_call2.v0 (fun x v => Host.reduceAdd x v reducesTo_S10000x256_S10000_d1 h_S_),
    TRef.unary main_call2.v0 main_call2.v1 (broadcastInDim S10000x1 ![0] bcast_S10000_S10000x1_0),
    TRef.nullary main_call2.cst_0 (constant S_ .f32 0x43800000#32),
    TRef.unary main_call2.cst_0 main_call2.v2 (broadcastInDim S10000x1 ![] bcast_S_S10000x1),
    TRef.binary main_call2.v1 main_call2.v2 main_call2.v3 Host.divf,
    TRef.unary main_call2.v3 main_call2.v4 (broadcastInDim S10000x256 ![0, 1] bcast_S10000x1_S10000x256_0_1),
    TRef.binary (.of main_v12 : TRef sig ⟨S10000x256, .f32⟩) main_call2.v4 main_call2.v5 subf,
    TRef.binary main_call2.v5 main_call2.v5 main_call2.v6 mulf,
    TRef.unary (.of main_c : TRef sig ⟨S_, .i32⟩) main_call2.v7 (sitofp .f32),
    TRef.nullary main_call2.cst_1 (constant S_ .f32 0x43800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S10000x256_S10000_d1 h_S_),
    TRef.unary main_call2.v9 main_call2.v10 (broadcastInDim S10000x1 ![0] bcast_S10000_S10000x1_0),
    TRef.unary main_call2.v8 main_call2.v11 (broadcastInDim S10000x1 ![] bcast_S_S10000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    -- the guarded selection: the quotient where the divisor is positive
    TRef.unary main_call2.cst_4 main_call2.call0.v0 id,
    TRef.unary main_call2.call0.v0 main_call2.call0.v1 (broadcastInDim S10000x1 ![] bcast_S_S10000x1),
    TRef.ternary main_call2.v13 main_call2.v12 main_call2.call0.v1 main_call2.call0.v2 (fun p a b => select (broadcastInDim S10000x1 ![] bcast_S_S10000x1 p) a b),
    -- the normalisation: deviation from the mean over the root of variance plus stabiliser, scaled and shifted
    unary main_v16 main_v18 (broadcastInDim S10000x256 ![0, 1] bcast_S10000x1_S10000x256_0_1 : (⟨S10000x1, .f32⟩ : BufTy).Contents (Elt F) → (⟨S10000x256, .f32⟩ : BufTy).Contents (Elt F)),
    binary main_v12 main_v18 main_v19 (subf : (⟨S10000x256, .f32⟩ : BufTy).Contents (Elt F) → (⟨S10000x256, .f32⟩ : BufTy).Contents (Elt F) → (⟨S10000x256, .f32⟩ : BufTy).Contents (Elt F)),
    nullary main_cst_3 (constant S_ .f32 0x3727C5AC#32),
    unary main_cst_3 main_v20 (broadcastInDim S10000x1 ![] bcast_S_S10000x1 : (⟨S_, .f32⟩ : BufTy).Contents (Elt F) → (⟨S10000x1, .f32⟩ : BufTy).Contents (Elt F)),
    binary main_v17 main_v20 main_v21 (addf : (⟨S10000x1, .f32⟩ : BufTy).Contents (Elt F) → (⟨S10000x1, .f32⟩ : BufTy).Contents (Elt F) → (⟨S10000x1, .f32⟩ : BufTy).Contents (Elt F)),
    unary main_v21 main_v22 (Host.sqrt : (⟨S10000x1, .f32⟩ : BufTy).Contents (Elt F) → (⟨S10000x1, .f32⟩ : BufTy).Contents (Elt F)),
    unary main_v22 main_v23 (broadcastInDim S10000x256 ![0, 1] bcast_S10000x1_S10000x256_0_1 : (⟨S10000x1, .f32⟩ : BufTy).Contents (Elt F) → (⟨S10000x256, .f32⟩ : BufTy).Contents (Elt F)),
    binary main_v19 main_v23 main_v24 (Host.divf : (⟨S10000x256, .f32⟩ : BufTy).Contents (Elt F) → (⟨S10000x256, .f32⟩ : BufTy).Contents (Elt F) → (⟨S10000x256, .f32⟩ : BufTy).Contents (Elt F)),
    unary main_arg5 main_v25 (broadcastInDim S1x256 ![1] bcast_S256_S1x256_1 : (⟨S256, .f32⟩ : BufTy).Contents (Elt F) → (⟨S1x256, .f32⟩ : BufTy).Contents (Elt F)),
    unary main_v25 main_v26 (broadcastInDim S10000x256 ![0, 1] bcast_S1x256_S10000x256_0_1 : (⟨S1x256, .f32⟩ : BufTy).Contents (Elt F) → (⟨S10000x256, .f32⟩ : BufTy).Contents (Elt F)),
    binary main_v24 main_v26 main_v27 (mulf : (⟨S10000x256, .f32⟩ : BufTy).Contents (Elt F) → (⟨S10000x256, .f32⟩ : BufTy).Contents (Elt F) → (⟨S10000x256, .f32⟩ : BufTy).Contents (Elt F)),
    unary main_arg6 main_v28 (broadcastInDim S1x256 ![1] bcast_S256_S1x256_1 : (⟨S256, .f32⟩ : BufTy).Contents (Elt F) → (⟨S1x256, .f32⟩ : BufTy).Contents (Elt F)),
    unary main_v28 main_v29 (broadcastInDim S10000x256 ![0, 1] bcast_S1x256_S10000x256_0_1 : (⟨S1x256, .f32⟩ : BufTy).Contents (Elt F) → (⟨S10000x256, .f32⟩ : BufTy).Contents (Elt F)),
    binary main_v27 main_v29 main_v30 (addf : (⟨S10000x256, .f32⟩ : BufTy).Contents (Elt F) → (⟨S10000x256, .f32⟩ : BufTy).Contents (Elt F) → (⟨S10000x256, .f32⟩ : BufTy).Contents (Elt F)) ]

/-- @main is that line: each called function's body unfolds to its operations, and a chain of steps followed
    by the rest is the one chain (sequencing is associative, a bare return is its unit). -/
theorem main_eq (c : Dev nD) : main (F := F) c = seq ops := rfl

/-- No TensorCore buffer of the program is scoped. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation of the line reads and writes TensorCore buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub ..,
    nullary_bufs_sub .., binary_bufs_sub .., unary_bufs_sub .., nullary_bufs_sub ..,
    unary_bufs_sub .., unary_bufs_sub .., binary_bufs_sub ..,
    unary_bufs_sub .., binary_bufs_sub .., binary_bufs_sub ..,
    nullary_bufs_sub .., unary_bufs_sub .., binary_bufs_sub ..,
    binary_bufs_sub .., nullary_bufs_sub .., binary_bufs_sub .., unary_bufs_sub .., nullary_bufs_sub ..,
    unary_bufs_sub .., binary_bufs_sub .., nullary_bufs_sub ..,
    nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    unary_bufs_sub .., binary_bufs_sub .., nullary_bufs_sub .., binary_bufs_sub .., nullary_bufs_sub ..,
    unary_bufs_sub .., unary_bufs_sub .., ternary_bufs_sub ..,
    unary_bufs_sub .., binary_bufs_sub .., nullary_bufs_sub .., unary_bufs_sub .., binary_bufs_sub ..,
    unary_bufs_sub .., unary_bufs_sub .., binary_bufs_sub .., unary_bufs_sub .., unary_bufs_sub ..,
    binary_bufs_sub .., unary_bufs_sub .., unary_bufs_sub .., binary_bufs_sub ..⟩

/-- On the one device, for any float values, from any memory with zero counters: every weakly fair execution of
    @main terminates, and each TensorCore buffer ends at the fold of the line's results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference program's run, read back: from any memory with zero counters every weakly fair execution of
  @main terminates with the result buffer at the reference's term of the seven arguments' launch contents and the
  arguments unchanged. The result is the fold of the straight line's results at the result buffer: each
  operation's function applied to what its operands' buffers hold, which are in turn earlier operations'
  results, down to the arguments, which no operation writes.
-/
import proofs.«156365_g712964571491_cont_9to1c4b_112_17_alg».proof.ReferenceIdeal
import proofs.«156365_g712964571491_cont_9to1c4b_112_17_alg».proof.Proof.Gen.ReferenceIdeal
import proofs.«156365_g712964571491_cont_9to1c4b_112_17_alg».proof.Proof.RefTerm
import proofs.«156365_g712964571491_cont_9to1c4b_112_17_alg».proof.Proof.RefOps
import Idealize.ShloMosaic.PureOps.Ideal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

/-- The fold at the result buffer is the reference's term of the contents at the argument buffers: each
    operation's result at its own buffer is its function of its operands' contents, at any other buffer what
    was there; composed from the result buffer down to the arguments, that is the staged term. -/
theorem result_eq (V : Valuation τ sig (Elt Ideal)) :
    after (ops (F := Ideal)) V (main_v30 : DevRef τ sig)
      = RefTerm.refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

/-- No operation of the line writes argument 0: the fold leaves it as it was. -/
theorem arg0_eq (V : Valuation τ sig (Elt Ideal)) :
    after (ops (F := Ideal)) V (main_arg0 : DevRef τ sig) = V (main_arg0 : DevRef τ sig) := by
  after_results_simp

/-- No operation of the line writes argument 1: the fold leaves it as it was. -/
theorem arg1_eq (V : Valuation τ sig (Elt Ideal)) :
    after (ops (F := Ideal)) V (main_arg1 : DevRef τ sig) = V (main_arg1 : DevRef τ sig) := by
  after_results_simp

/-- No operation of the line writes argument 2: the fold leaves it as it was. -/
theorem arg2_eq (V : Valuation τ sig (Elt Ideal)) :
    after (ops (F := Ideal)) V (main_arg2 : DevRef τ sig) = V (main_arg2 : DevRef τ sig) := by
  after_results_simp

/-- No operation of the line writes argument 3: the fold leaves it as it was. -/
theorem arg3_eq (V : Valuation τ sig (Elt Ideal)) :
    after (ops (F := Ideal)) V (main_arg3 : DevRef τ sig) = V (main_arg3 : DevRef τ sig) := by
  after_results_simp

/-- No operation of the line writes argument 4: the fold leaves it as it was. -/
theorem arg4_eq (V : Valuation τ sig (Elt Ideal)) :
    after (ops (F := Ideal)) V (main_arg4 : DevRef τ sig) = V (main_arg4 : DevRef τ sig) := by
  after_results_simp

/-- No operation of the line writes argument 5: the fold leaves it as it was. -/
theorem arg5_eq (V : Valuation τ sig (Elt Ideal)) :
    after (ops (F := Ideal)) V (main_arg5 : DevRef τ sig) = V (main_arg5 : DevRef τ sig) := by
  after_results_simp

/-- No operation of the line writes argument 6: the fold leaves it as it was. -/
theorem arg6_eq (V : Valuation τ sig (Elt Ideal)) :
    after (ops (F := Ideal)) V (main_arg6 : DevRef τ sig) = V (main_arg6 : DevRef τ sig) := by
  after_results_simp

/-- On the one device, from any memory with zero counters: every weakly fair execution of @main terminates with
    the result buffer at the reference's term of the arguments' launch contents, and the seven arguments
    unchanged. -/
theorem run [Cert.ReferenceIdeal.Facts] (m : (ℓ : Loc nD τ sig) → Buf (Elt Ideal) ℓ) (g : Dev nD → PrngReg) :
    θ_run (Cert.ReferenceIdeal.defs (F := Ideal)) (onTc (τ := τ) (Cert.ReferenceIdeal.main (F := Ideal)))
      ⟨m, fun _ => 0, g⟩ (fun r => ∀ c : Dev nD,
      r.2.mem ((c.tc : Thread nD τ).loc main_v30)
          = RefTerm.refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v30).trans (result_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_after (F := Ideal) m g)

end Cert.ReferenceIdeal.RefRun

end
-- ==== Proof.RefSpec.lean ====
/-
  The reference's result, stage by stage, read at an index.

  Each stage of the reference is a short chain of array operations: a transpose, a product of two matrices, a sum
  along the rows, a vector laid out as a row or as a column, a row or a column spread over a matrix, and pointwise
  arithmetic. Read at one index, a layout operation is its operand at the index it copies from, a product is the sum
  over the contracted coordinate of the factors' products, and a row sum from an initial value is that value plus the
  sum of the row. With the words 0, 1 and 256 at their real values, the stages are the specification's quantities:
  the projected features P, the clipped degree max(1, g), the embedding plus the rectified message, the row mean,
  the row variance (its divisor 256 − 0 is 256, which is positive, so the guarded selection keeps the quotient), and
  the normalisation by a division by the square root. Composed, the reference's result is the layer in the
  arrangement that divides the weights and divides by the square root, at every (r, d).
-/
import proofs.«156365_g712964571491_cont_9to1c4b_112_17_alg».proof.Proof.RefTerm
import proofs.«156365_g712964571491_cont_9to1c4b_112_17_alg».proof.Proof.Spec
import proofs.«156365_g712964571491_cont_9to1c4b_112_17_alg».proof.Proof.KerPayConst
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefSpec

open Idealize.ShloMosaic Idealize.ShloMosaic.ValueIdx
open Cert.ReferenceIdeal Cert.ReferenceIdeal.Facts₀
open scoped BigOperators

variable [Cert.ReferenceIdeal.Facts]

/-! ## Layout operations of the program at an index -/

/-- A vector of 256 entries laid as one row reads, at `(u, d)`, the vector at `d`. -/
theorem vecRow_apply {α : Type} (x : S256.Idx → α) (u : Fin 1) (d : Fin 256) :
    broadcastInDim S1x256 ![1] bcast_S256_S1x256_1 x (ix2 u d) = x (ix1 d) :=
  broadcastInDim_apply _ _ x _ (ix1 d) fun a => match a with | ⟨0, _⟩ => rfl

/-- One row spread down 2048 rows reads, at `(k, d)`, the row at `d`. -/
theorem rowSpreadH_apply {α : Type} (v : S1x256.Idx → α) (k : Fin 2048) (d : Fin 256) :
    broadcastInDim S2048x256 ![0, 1] bcast_S1x256_S2048x256_0_1 v (ix2 k d) = v (ix2 (0 : Fin 1) d) :=
  broadcastInDim_apply _ _ v _ (ix2 (0 : Fin 1) d) fun a => match a with | ⟨0, _⟩ => rfl | ⟨1, _⟩ => rfl

/-- One row spread down 10000 rows reads, at `(r, d)`, the row at `d`. -/
theorem rowSpreadE_apply {α : Type} (v : S1x256.Idx → α) (r : Fin 10000) (d : Fin 256) :
    broadcastInDim S10000x256 ![0, 1] bcast_S1x256_S10000x256_0_1 v (ix2 r d) = v (ix2 (0 : Fin 1) d) :=
  broadcastInDim_apply _ _ v _ (ix2 (0 : Fin 1) d) fun a => match a with | ⟨0, _⟩ => rfl | ⟨1, _⟩ => rfl

/-- A vector of 10000 entries laid as a column reads, at `(r, u)`, the vector at `r`. -/
theorem vecCol_apply {α : Type} (x : S10000.Idx → α) (r : Fin 10000) (u : Fin 1) :
    broadcastInDim S10000x1 ![0] bcast_S10000_S10000x1_0 x (ix2 r u) = x (ix1 r) :=
  broadcastInDim_apply _ _ x _ (ix1 r) fun a => match a with | ⟨0, _⟩ => rfl

/-- A column spread over 2048 columns reads, at `(r, k)`, the column at `r`. -/
theorem colSpreadA_apply {α : Type} (v : S10000x1.Idx → α) (r : Fin 10000) (k : Fin 2048) :
    broadcastInDim S10000x2048 ![0, 1] bcast_S10000x1_S10000x2048_0_1 v (ix2 r k) = v (ix2 r (0 : Fin 1)) :=
  broadcastInDim_apply _ _ v _ (ix2 r (0 : Fin 1)) fun a => match a with | ⟨0, _⟩ => rfl | ⟨1, _⟩ => rfl

/-- A column spread over 256 columns reads, at `(r, d)`, the column at `r`. -/
theorem colSpreadE_apply {α : Type} (v : S10000x1.Idx → α) (r : Fin 10000) (d : Fin 256) :
    broadcastInDim S10000x256 ![0, 1] bcast_S10000x1_S10000x256_0_1 v (ix2 r d) = v (ix2 r (0 : Fin 1)) :=
  broadcastInDim_apply _ _ v _ (ix2 r (0 : Fin 1)) fun a => match a with | ⟨0, _⟩ => rfl | ⟨1, _⟩ => rfl

/-- A column has one entry per row: its index `(r, u)` is `(r, 0)`. -/
theorem col_ix (r : Fin 10000) (u : Fin 1) : (ix2 r u : S10000x1.Idx) = ix2 r (0 : Fin 1) := by
  have hu : u = 0 := Fin.ext (by omega)
  rw [hu]

/-! ## The square root and the constants of the variance's guarded quotient -/

/-- The host's square root at an index is the square root of the element. -/
theorem hostSqrt_apply {s : Shape} (x : FVec Ideal s .f32) (i : s.Idx) :
    Host.sqrt (F := Ideal) x i = Ideal.sqrt (x i) := rfl

/-- The integer zero read as a real is zero. -/
theorem sitofp_zero32 : FloatOps.sitofp (F := Ideal) .f32 (0#32 : BitVec 32) = (0 : EReal) := by
  show ((((0#32 : BitVec 32).toInt : ℤ) : ℝ) : EReal) = 0
  simp

/-- The guard of the variance's quotient holds: 256 is above zero. -/
theorem guard256 : Ideal.cmp .ogt ((256 : ℝ) : EReal) 0 = 1#1 := by
  have h : (0 : EReal) < ((256 : ℝ) : EReal) := EReal.coe_pos.mpr (by norm_num)
  show BitVec.ofBool (decide ((0 : EReal) < ((256 : ℝ) : EReal))) = 1#1
  rw [decide_eq_true h]
  rfl

/-! ## A row's sum from an initial value -/

/-- The sum of a matrix along its second axis from an initial scalar reads, at `p`, that scalar plus the sum of row `p`. -/
theorem hostRowSum_apply {a b : ℕ} (x : FVec Ideal ⟨2, ![a, b]⟩ .f32) (c0 : FVec Ideal S_ .f32)
    (h' : (⟨2, ![a, b]⟩ : Shape).ReducesTo [1] ⟨1, ![a]⟩) (h : (⟨2, ![a, b]⟩ : Shape).Reduces [1] ⟨1, ![a]⟩)
    (hu : 0 < S_.numel) (p : Fin a) :
    Host.reduceAdd (F := Ideal) x c0 h' hu (ix1 p) = c0 ix0 + ∑ k : Fin b, x (ix2 p k) := by
  refine (hostReduceAdd_apply x c0 h' hu (ix1 p)).trans ?_
  refine (Ideal.hostReduceAdd_single h' h x _ (ix1 p)).trans ?_
  rw [eq_ix0 (Shape.Idx.first hu)]
  refine congrArg (c0 ix0 + ·) (Finset.sum_congr rfl fun k _ => congrArg x (funext fun c => Fin.ext ?_))
  match c with
  | ⟨0, _⟩ => rfl
  | ⟨1, _⟩ => rfl

/-! ## The projection's product: the 2048×256 features by a 256×256 matrix -/

theorem lhs_proj_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch from fun h => by cases h),
    dif_pos (show (0 : Fin S2048x256.rank) ∈ dot_S2048x256_S256x256_S2048x256_1_0_0_1_n_n.lhsNonContracting from List.mem_singleton.mpr rfl)]
  rfl
theorem lhs_proj_1 (i : S2048x256.Idx) (q : dot_S2048x256_S256x256_S2048x256_1_0_0_1_n_n.contr.Idx) :
    (dot_S2048x256_S256x256_S2048x256_1_0_0_1_n_n.lhsIdx i q 1).val = (q ⟨0, Nat.one_pos⟩).val :=
  dot_S2048x256_S256x256_S2048x256_1_0_0_1_n_n.lhsIdx_val_of_single rfl i q
theorem rhs_proj_0 (i : S2048x256.Idx) (q : dot_S2048x256_S256x256_S2048x256_1_0_0_1_n_n.contr.Idx) :
    (dot_S2048x256_S256x256_S2048x256_1_0_0_1_n_n.rhsIdx i q 0).val = (q ⟨0, Nat.one_pos⟩).val :=
  dot_S2048x256_S256x256_S2048x256_1_0_0_1_n_n.rhsIdx_val_of_single rfl i q
theorem rhs_proj_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch from fun h => by cases h),
    dif_pos (show (1 : Fin S256x256.rank) ∈ dot_S2048x256_S256x256_S2048x256_1_0_0_1_n_n.rhsNonContracting from List.mem_singleton.mpr rfl)]
  rfl

/-- The product reads, at `(k, d)`, row `k` of the left factor against column `d` of the right one. -/
theorem projDot_apply (x : FVec Ideal S2048x256 .f32) (w : FVec Ideal S256x256 .f32) (k : Fin 2048) (d : Fin 256) :
    Host.dotGeneral (F := Ideal) dot_S2048x256_S256x256_S2048x256_1_0_0_1_n_n none x w (ix2 k d)
      = ∑ c : Fin 256, x (ix2 k c) * w (ix2 c d) := by
  simp only [Host.dotGeneral]
  rw [Ideal.dotGeneral_apply, ← Equiv.sum_comp (contrEquiv1 dot_S2048x256_S256x256_S2048x256_1_0_0_1_n_n 256 rfl rfl).symm]
  refine Finset.sum_congr rfl fun c _ => ?_
  have hk := contrEquiv1_symm_val dot_S2048x256_S256x256_S2048x256_1_0_0_1_n_n 256 rfl rfl c
  have el : dot_S2048x256_S256x256_S2048x256_1_0_0_1_n_n.lhsIdx (ix2 k d) ((contrEquiv1 dot_S2048x256_S256x256_S2048x256_1_0_0_1_n_n 256 rfl rfl).symm c) = ix2 k c := funext fun ax => Fin.ext (by
    match ax with
    | ⟨0, _⟩ => exact lhs_proj_0 _ _
    | ⟨1, _⟩ => exact (lhs_proj_1 _ _).trans hk)
  have er : dot_S2048x256_S256x256_S2048x256_1_0_0_1_n_n.rhsIdx (ix2 k d) ((contrEquiv1 dot_S2048x256_S256x256_S2048x256_1_0_0_1_n_n 256 rfl rfl).symm c) = ix2 c d := funext fun ax => Fin.ext (by
    match ax with
    | ⟨0, _⟩ => exact (rhs_proj_0 _ _).trans hk
    | ⟨1, _⟩ => exact rhs_proj_1 _ _)
  rw [el, er]

/-! ## The aggregation's product: the 10000×2048 weights by the 2048×256 projected features -/

theorem lhs_agg_0 (i : S10000x256.Idx) (q : dot_S10000x2048_S2048x256_S10000x256_1_0_0_1_n_n.contr.Idx) :
    (dot_S10000x2048_S2048x256_S10000x256_1_0_0_1_n_n.lhsIdx i q 0).val = (i 0).val := by
  unfold DotDims.lhsIdx
  rw [dif_neg (show ¬(0 : Fin S10000x2048.rank) ∈ dot_S10000x2048_S2048x256_S10000x256_1_0_0_1_n_n.lhsBatch from fun h => by cases h),
    dif_pos (show (0 : Fin S10000x2048.rank) ∈ dot_S10000x2048_S2048x256_S10000x256_1_0_0_1_n_n.lhsNonContracting from List.mem_singleton.mpr rfl)]
  rfl
theorem lhs_agg_1 (i : S10000x256.Idx) (q : dot_S10000x2048_S2048x256_S10000x256_1_0_0_1_n_n.contr.Idx) :
    (dot_S10000x2048_S2048x256_S10000x256_1_0_0_1_n_n.lhsIdx i q 1).val = (q ⟨0, Nat.one_pos⟩).val :=
  dot_S10000x2048_S2048x256_S10000x256_1_0_0_1_n_n.lhsIdx_val_of_single rfl i q
theorem rhs_agg_0 (i : S10000x256.Idx) (q : dot_S10000x2048_S2048x256_S10000x256_1_0_0_1_n_n.contr.Idx) :
    (dot_S10000x2048_S2048x256_S10000x256_1_0_0_1_n_n.rhsIdx i q 0).val = (q ⟨0, Nat.one_pos⟩).val :=
  dot_S10000x2048_S2048x256_S10000x256_1_0_0_1_n_n.rhsIdx_val_of_single rfl i q
theorem rhs_agg_1 (i : S10000x256.Idx) (q : dot_S10000x2048_S2048x256_S10000x256_1_0_0_1_n_n.contr.Idx) :
    (dot_S10000x2048_S2048x256_S10000x256_1_0_0_1_n_n.rhsIdx i q 1).val = (i 1).val := by
  unfold DotDims.rhsIdx
  rw [dif_neg (show ¬(1 : Fin S2048x256.rank) ∈ dot_S10000x2048_S2048x256_S10000x256_1_0_0_1_n_n.rhsBatch from fun h => by cases h),
    dif_pos (show (1 : Fin S2048x256.rank) ∈ dot_S10000x2048_S2048x256_S10000x256_1_0_0_1_n_n.rhsNonContracting from List.mem_singleton.mpr rfl)]
  rfl

/-- The product reads, at `(r, d)`, row `r` of the weights against column `d` of the features. -/
theorem aggDot_apply (a : FVec Ideal S10000x2048 .f32) (p : FVec Ideal S2048x256 .f32) (r : Fin 10000) (d : Fin 256) :
    Host.dotGeneral (F := Ideal) dot_S10000x2048_S2048x256_S10000x256_1_0_0_1_n_n none a p (ix2 r d)
      = ∑ c : Fin 2048, a (ix2 r c) * p (ix2 c d) := by
  simp only [Host.dotGeneral]
  rw [Ideal.dotGeneral_apply, ← Equiv.sum_comp (contrEquiv1 dot_S10000x2048_S2048x256_S10000x256_1_0_0_1_n_n 2048 rfl rfl).symm]
  refine Finset.sum_congr rfl fun c _ => ?_
  have hk := contrEquiv1_symm_val dot_S10000x2048_S2048x256_S10000x256_1_0_0_1_n_n 2048 rfl rfl c
  have el : dot_S10000x2048_S2048x256_S10000x256_1_0_0_1_n_n.lhsIdx (ix2 r d) ((contrEquiv1 dot_S10000x2048_S2048x256_S10000x256_1_0_0_1_n_n 2048 rfl rfl).symm c) = ix2 r c := funext fun ax => Fin.ext (by
    match ax with
    | ⟨0, _⟩ => exact lhs_agg_0 _ _
    | ⟨1, _⟩ => exact (lhs_agg_1 _ _).trans hk)
  have er : dot_S10000x2048_S2048x256_S10000x256_1_0_0_1_n_n.rhsIdx (ix2 r d) ((contrEquiv1 dot_S10000x2048_S2048x256_S10000x256_1_0_0_1_n_n 2048 rfl rfl).symm c) = ix2 c d := funext fun ax => Fin.ext (by
    match ax with
    | ⟨0, _⟩ => exact (rhs_agg_0 _ _).trans hk
    | ⟨1, _⟩ => exact rhs_agg_1 _ _)
  rw [el, er]

/-! ## The stages of the reference at an index -/

/-- The projected features at `(k, d)`: row `k` of H against row `d` of W (W enters transposed), plus the bias at `d`. -/
theorem wh_apply (a0 : FVec Ideal S2048x256 .f32) (a3 : FVec Ideal S256x256 .f32) (a4 : FVec Ideal S256 .f32)
    (k : Fin 2048) (d : Fin 256) : RefTerm.wh a0 a3 a4 (ix2 k d) = Gcn.proj a0 a3 a4 k d := by
  unfold RefTerm.wh Gcn.proj
  simp -dsimp only [addf_apply, projDot_apply, rowSpreadH_apply, vecRow_apply, transpose_ix2_apply]

/-- The clipped degree at row `r`: the larger of one and the row's sum of weights (the sum starts from zero). -/
theorem clipDeg_apply (a1 : FVec Ideal S10000x2048 .f32) (r : Fin 10000) (u : Fin 1) :
    RefTerm.clipDeg a1 (ix2 r u) = max 1 (Gcn.degree a1 r) := by
  unfold RefTerm.clipDeg Gcn.degree
  simp -dsimp only [maximumf_apply, broadcastInDim_scalar_apply, vecCol_apply, id_eq, constant_apply,
    hostRowSum_apply _ _ reducesTo_S10000x2048_S10000_d1 (by decide) h_S_,
    Ideal.ofBits_one_f32, Ideal.ofBits_zero_f32, zero_add]

/-- The embedding plus the rectified message at `(r, d)`: every weight of row `r` divided by that row's divisor,
    aggregated against column `d` of the features, the larger of that and zero, added to the embedding. -/
theorem xsum_apply (a1 : FVec Ideal S10000x2048 .f32) (a2 : FVec Ideal S10000x256 .f32)
    (p : FVec Ideal S2048x256 .f32) (dg : FVec Ideal S10000x1 .f32) (r : Fin 10000) (d : Fin 256) :
    RefTerm.xsum a1 a2 p dg (ix2 r d)
      = a2 (ix2 r d) + max (∑ k : Fin 2048, Ideal.div (a1 (ix2 r k)) (dg (ix2 r 0)) * p (ix2 k d)) 0 := by
  unfold RefTerm.xsum
  simp -dsimp only [addf_apply, maximumf_apply, aggDot_apply, hostDivf_apply, colSpreadA_apply,
    broadcastInDim_scalar_apply, constant_apply, Ideal.ofBits_zero_f32]

/-- The mean column at row `r`: the row's sum (from zero) over 256. -/
theorem meanCol_apply (x : FVec Ideal S10000x256 .f32) (r : Fin 10000) (u : Fin 1) :
    RefTerm.meanCol x (ix2 r u) = Gcn.rowMean (fun d => x (ix2 r d)) := by
  unfold RefTerm.meanCol Gcn.rowMean
  simp -dsimp only [hostDivf_apply, broadcastInDim_scalar_apply, vecCol_apply, constant_apply,
    hostRowSum_apply _ _ reducesTo_S10000x256_S10000_d1 (by decide) h_S_,
    Ideal.ofBits_zero_f32, zero_add, Cert.KernelIdeal.KerValue.ofBits_256_f32]

/-- The variance column at row `r`: the squared deviations from the row's mean, summed (from zero), over 256; the
    guard 256 − 0 > 0 holds, so the selection keeps this quotient. -/
theorem varCol_apply (x : FVec Ideal S10000x256 .f32) (r : Fin 10000) (u : Fin 1) :
    RefTerm.varCol x (ix2 r u) = Gcn.rowVar (fun d => x (ix2 r d)) := by
  unfold RefTerm.varCol Gcn.rowVar Gcn.rowMean
  simp -dsimp only [select_apply, broadcastInDim_scalar_apply, cmpf_apply, subf_apply, sitofp_apply, constantI_apply,
    constant_apply, id_eq, hostDivf_apply, vecCol_apply, mulf_apply, colSpreadE_apply,
    hostRowSum_apply _ _ reducesTo_S10000x256_S10000_d1 (by decide) h_S_,
    Cert.KernelIdeal.KerValue.ofBits_256_f32, Ideal.ofBits_zero_f32, sitofp_zero32, sub_zero, zero_add,
    Ideal.cmpf_def, guard256, select_one]

/-- The normalisation at `(r, d)`: the deviation from the row's mean over the square root of the row's variance plus the
    stabiliser, times the scale at `d`, plus the shift at `d`. -/
theorem normed_apply (x : FVec Ideal S10000x256 .f32) (mu va : FVec Ideal S10000x1 .f32) (a5 a6 : FVec Ideal S256 .f32)
    (r : Fin 10000) (d : Fin 256) :
    RefTerm.normed x mu va a5 a6 (ix2 r d)
      = Ideal.div (x (ix2 r d) - mu (ix2 r 0)) (Ideal.sqrt (va (ix2 r 0) + Gcn.eps)) * a5 (ix1 d) + a6 (ix1 d) := by
  unfold RefTerm.normed
  simp -dsimp only [addf_apply, mulf_apply, hostDivf_apply, subf_apply, colSpreadE_apply, rowSpreadE_apply, vecRow_apply,
    broadcastInDim_scalar_apply, constant_apply, hostSqrt_apply]

/-- The reference's result is the layer of the specification, index by index. -/
theorem refTerm_eq_spec (a0 : FVec Ideal S2048x256 .f32) (a1 : FVec Ideal S10000x2048 .f32)
    (a2 : FVec Ideal S10000x256 .f32) (a3 : FVec Ideal S256x256 .f32) (a4 a5 a6 : FVec Ideal S256 .f32) :
    RefTerm.refTerm a0 a1 a2 a3 a4 a5 a6 = fun i => Gcn.outDivided a0 a1 a2 a3 a4 a5 a6 (i 0) (i 1) := by
  funext i
  obtain ⟨r, d, rfl⟩ : ∃ (r : Fin 10000) (d : Fin 256), i = ix2 r d := ⟨i 0, i 1, eq_ix2 i⟩
  have hx : ∀ (r : Fin 10000) (d : Fin 256),
      RefTerm.xsum a1 a2 (RefTerm.wh a0 a3 a4) (RefTerm.clipDeg a1) (ix2 r d) = Gcn.xDivided a0 a1 a2 a3 a4 r d := by
    intro r d
    rw [xsum_apply, clipDeg_apply]
    unfold Gcn.xDivided
    simp only [wh_apply]
  show RefTerm.normed _ _ _ a5 a6 (ix2 r d) = Gcn.outDivided a0 a1 a2 a3 a4 a5 a6 r d
  rw [normed_apply, meanCol_apply, varCol_apply]
  unfold Gcn.outDivided Gcn.normSqrt
  simp only [hx]

end Cert.ReferenceIdeal.RefSpec

end
-- ==== Proof.Algebra.lean ====
/-
  The layer's two arrangements are one function on finite inputs.

  Finite inputs keep every intermediate quantity real: a finite sum of reals read in the extended reals is the
  real sum, and the larger of two reals is the same in both orders. The clipped degree D = max(g, 1) = max(1, g)
  is then a real at least one, so dividing by it is multiplying by the positive real 1/D; that factor leaves the
  finite sum (distributivity in ℝ) and passes through the rectification (max(z·c, 0) = max(z, 0)·c for c ≥ 0): the
  two message rows are one real row. On a real row, mean and variance are real, the variance a sum of squares
  over 256 and so nonnegative; adding the positive ε gives a positive real u, where the reciprocal square root is
  the real (√u)⁻¹ and dividing by √u ≠ 0 is multiplying by that same real: the two normalisations agree.
-/
import proofs.«156365_g712964571491_cont_9to1c4b_112_17_alg».proof.Proof.Spec
import Mathlib.Algebra.BigOperators.Group.Finset.Basic
import Mathlib.Algebra.Order.Ring.Unbundled.Basic
import Mathlib.Data.EReal.Operations
import Mathlib.Analysis.Real.Sqrt
import Mathlib.Analysis.SpecialFunctions.Pow.Real
import Mathlib.Tactic.NormNum
import Mathlib.Tactic.Positivity
import Mathlib.Tactic.Ring
import Mathlib.Tactic.Linarith

noncomputable section

namespace Gcn

open Idealize.ShloMosaic Idealize.ShloMosaic.ValueIdx

/-! ### The three single-precision words the layer spells -/

/-- The word 0x3F800000 denotes 1: exponent field 127 (unbiased 0), zero fraction. -/
theorem ofBits_one : Ideal.ofBits .f32 0x3F800000#32 = (1 : EReal) := by
  simp [Ideal.ofBits, Ideal.ieee, -EReal.coe_mul]; norm_num

/-- The word 0x43800000 denotes 256 = 2⁸: exponent field 135 (unbiased 8), zero fraction. -/
theorem ofBits_256 : Ideal.ofBits .f32 0x43800000#32 = ((256 : ℝ) : EReal) := by
  simp [Ideal.ofBits, Ideal.ieee, -EReal.coe_mul]; norm_num

/-- The word 0x3727C5AC has exponent field 110 (unbiased −17) and fraction 2606508, so it denotes
    (2²³ + 2606508) · 2⁻⁴⁰ = 10995116 · 2⁻⁴⁰. -/
theorem eps_eq : eps = (((10995116 : ℝ) * (2 : ℝ) ^ (-40 : ℤ) : ℝ) : EReal) := by
  simp [eps, Ideal.ofBits, Ideal.ieee, -EReal.coe_mul]

/-- ε is a positive real. -/
theorem eps_pos : ∃ e : ℝ, 0 < e ∧ eps = (e : EReal) :=
  ⟨(10995116 : ℝ) * (2 : ℝ) ^ (-40 : ℤ), by positivity, eps_eq⟩

/-! ### Reals inside the extended reals -/

/-- A finite sum of reals, each read as an extended real, is their real sum read as an extended real:
    the inclusion ℝ → EReal is additive, by induction on the index set. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The inclusion ℝ → EReal is monotone, so it carries the larger of two reals to the larger of their images. -/
theorem max_coe (x y : ℝ) : max (x : EReal) (y : EReal) = ((max x y : ℝ) : EReal) :=
  (EReal.coe_strictMono.monotone.map_max).symm

/-- In ℝ: a nonnegative factor c leaves a finite sum and passes through the rectification,
    max(Σ_k a_k·c·p_k, 0) = max(Σ_k a_k·p_k, 0)·c. -/
theorem relu_sum_scale {ι : Type*} (s : Finset ι) (a p : ι → ℝ) {c : ℝ} (hc : 0 ≤ c) :
    max (∑ k ∈ s, a k * c * p k) 0 = max (∑ k ∈ s, a k * p k) 0 * c := by
  rw [max_mul_of_nonneg _ _ hc, zero_mul, Finset.sum_mul]
  congr 1
  exact Finset.sum_congr rfl (fun k _ => by ring)

/-! ### The message -/

section Message

variable {H : ShH.Idx → EReal} {A : ShA.Idx → EReal} {E : ShE.Idx → EReal} {W : ShW.Idx → EReal}
  {b : ShV.Idx → EReal}

/-- With H, W and b real, every projected feature Σ_j H[k,j]·W[d,j] + b[d] is real. -/
theorem proj_real (hH : AllReal H) (hW : AllReal W) (hb : AllReal b) (k : Fin 2048) (d : Fin 256) :
    ∃ p : ℝ, proj H W b k d = (p : EReal) := by
  have hH' : ∀ i, ∃ v : ℝ, H i = (v : EReal) := hH
  have hW' : ∀ i, ∃ v : ℝ, W i = (v : EReal) := hW
  have hb' : ∀ i, ∃ v : ℝ, b i = (v : EReal) := hb
  choose h hh using hH'
  choose w hw using hW'
  choose c hc using hb'
  refine ⟨(∑ j : Fin 256, h (ix2 k j) * w (ix2 d j)) + c (ix1 d), ?_⟩
  simp only [proj, hh, hw, hc, ← EReal.coe_mul, sum_coe, ← EReal.coe_add]

/-- On finite inputs, row r of both arrangements of "embedding plus message" is one and the same real row. -/
theorem x_real (hH : AllReal H) (hA : AllReal A) (hE : AllReal E) (hW : AllReal W) (hb : AllReal b)
    (r : Fin 10000) :
    ∃ x : Fin 256 → ℝ, (∀ d, xScaled H A E W b r d = (x d : EReal)) ∧
      (∀ d, xDivided H A E W b r d = (x d : EReal)) := by
  have hA' : ∀ i, ∃ v : ℝ, A i = (v : EReal) := hA
  have hE' : ∀ i, ∃ v : ℝ, E i = (v : EReal) := hE
  choose a ha using hA'
  choose e he using hE'
  choose p hp using (fun k d => proj_real hH hW hb k d)
  -- the degree is a real g, the clipped degree the real D = max(g, 1) ≥ 1
  have hg : degree A r = ((∑ k : Fin 2048, a (ix2 r k) : ℝ) : EReal) := by
    simp only [degree, ha, sum_coe]
  obtain ⟨D, hD1, hDpos⟩ : ∃ D : ℝ, max (degree A r) 1 = (D : EReal) ∧ 0 < D :=
    ⟨max (∑ k : Fin 2048, a (ix2 r k)) 1, by rw [hg, ← EReal.coe_one, max_coe],
      lt_of_lt_of_le one_pos (le_max_right _ _)⟩
  have hD2 : max 1 (degree A r) = (D : EReal) := by rw [max_comm, hD1]
  have hDne : D ≠ 0 := ne_of_gt hDpos
  refine ⟨fun d => e (ix2 r d) + max (∑ k : Fin 2048, a (ix2 r k) * p k d) 0 * (1 / D), ?_, ?_⟩
  · intro d
    have hagg : agg H A W b r d = ((∑ k : Fin 2048, a (ix2 r k) * p k d : ℝ) : EReal) := by
      simp only [agg, ha, hp, ← EReal.coe_mul, sum_coe]
    rw [xScaled, hagg, hD1, Ideal.div_coe hDne, one_mul, he, ← EReal.coe_zero, max_coe, ← EReal.coe_mul,
      ← EReal.coe_add]
  · intro d
    have hc : (0 : ℝ) ≤ 1 / D := by positivity
    rw [xDivided, hD2]
    simp only [Ideal.div_coe hDne, ha, hp, he, ← EReal.coe_mul, sum_coe]
    rw [← EReal.coe_zero, max_coe, ← EReal.coe_add, relu_sum_scale _ _ _ hc]

end Message

/-! ### The normalisation -/

/-- For a real row x and any scale g and shift s, normalising by the reciprocal square root and normalising by a
    division by the square root give the same value in every column. -/
theorem normRsqrt_eq_normSqrt (x : Fin 256 → ℝ) (g s : EReal) (d : Fin 256) :
    normRsqrt (fun d' => (x d' : EReal)) g s d = normSqrt (fun d' => (x d' : EReal)) g s d := by
  obtain ⟨e, he0, he⟩ := eps_pos
  have h256 : (256 : ℝ) ≠ 0 := by norm_num
  -- the mean is a real m
  obtain ⟨m, hm⟩ : ∃ m : ℝ, rowMean (fun d' => (x d' : EReal)) = (m : EReal) :=
    ⟨(∑ d', x d') * (1 / 256), by rw [rowMean, Ideal.div_coe h256, sum_coe, ← EReal.coe_mul]⟩
  -- the variance is a nonnegative real v
  obtain ⟨v, hv, hv0⟩ : ∃ v : ℝ, rowVar (fun d' => (x d' : EReal)) = (v : EReal) ∧ 0 ≤ v := by
    refine ⟨(∑ d', (x d' - m) * (x d' - m)) * (1 / 256), ?_,
      mul_nonneg (Finset.sum_nonneg (fun i _ => mul_self_nonneg _)) (by norm_num)⟩
    rw [rowVar, hm, Ideal.div_coe h256]
    simp only [← EReal.coe_sub, ← EReal.coe_mul, sum_coe]
  have hpos : 0 < v + e := by linarith
  have hs : Real.sqrt (v + e) ≠ 0 := (Real.sqrt_pos.mpr hpos).ne'
  rw [normRsqrt, normSqrt, hv, hm, he, ← EReal.coe_add]
  simp only [Ideal.rsqrt_coe, Ideal.sqrt_coe, if_neg (not_lt.mpr hpos.le), if_neg hpos.ne']
  rw [Ideal.div_coe hs, one_div]

/-! ### The layer -/

/-- With H, A, E, W and b real, the scaled-message / reciprocal-square-root arrangement and the
    divided-weights / square-root arrangement give the same output at every (r, d). -/
theorem outScaled_eq_outDivided (H : ShH.Idx → EReal) (A : ShA.Idx → EReal) (E : ShE.Idx → EReal)
    (W : ShW.Idx → EReal) (b γ β : ShV.Idx → EReal)
    (hH : AllReal H) (hA : AllReal A) (hE : AllReal E) (hW : AllReal W) (hb : AllReal b)
    (r : Fin 10000) (d : Fin 256) :
    outScaled H A E W b γ β r d = outDivided H A E W b γ β r d := by
  obtain ⟨x, hxs, hxd⟩ := x_real hH hA hE hW hb r
  have h1 : (fun d' => xScaled H A E W b r d') = fun d' => (x d' : EReal) := funext hxs
  have h2 : (fun d' => xDivided H A E W b r d') = fun d' => (x d' : EReal) := funext hxd
  rw [outScaled, outDivided, h1, h2]
  exact normRsqrt_eq_normSqrt x _ _ d

end Gcn

end
-- ==== Proof.Finite.lean ====
/-
  Finiteness of the seven inputs, read off the stated precondition.

  The precondition is the conjunction, over the seven arrays, of "every entry x has |x| < +∞", each conjunct an
  and-reduction over all axes of the entrywise comparison of |x| with the single-precision pattern of +∞. On the
  extended reals |x| = max x (−x), and max x (−x) < ⊤ excludes x = ⊤ and x = ⊥ alike: every entry is a real number.
-/
import proofs.«156365_g712964571491_cont_9to1c4b_112_17_alg».proof.Pre_finite_inputs
import proofs.«156365_g712964571491_cont_9to1c4b_112_17_alg».proof.Proof.Gen.Pre_finite_inputs
import proofs.«156365_g712964571491_cont_9to1c4b_112_17_alg».proof.Proof.Spec
import Idealize.ShloMosaic.Lib.ReduceAll
import Idealize.ShloMosaic.PureOps.Ideal

noncomputable section

namespace Gcn

open Idealize.ShloMosaic Idealize.ShloMosaic.ValueIdx

/-- The scalar shape has one index. -/
instance scalarIdxSubsingleton : Subsingleton (⟨0, ![]⟩ : Shape).Idx :=
  ⟨fun a b => funext fun d => d.elim0⟩

/-- An extended real whose absolute value max x (−x) lies strictly below ⊤ is a real number. -/
theorem exists_real_of_abs_lt_top (x : EReal) (h : max x (-x) < ⊤) : ∃ v : ℝ, x = (v : EReal) := by
  induction x using EReal.rec with
  | bot => simp at h
  | coe v => exact ⟨v, rfl⟩
  | top => simp at h

/-- The single-precision pattern 0x7F800000 denotes +∞. -/
theorem ofBits_inf : Ideal.ofBits .f32 0x7F800000#32 = (⊤ : EReal) := by
  simp [Ideal.ofBits, Ideal.ieee]

/-- An and-reduction over all axes of (|x| < +∞) that equals 1 makes every entry of x real. -/
theorem allReal_of_andReduce {S : Shape} {axes : List (Fin S.rank)} (x : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : IVec (⟨0, ![]⟩ : Shape) 1)
    (e : Host.reduce IntOp.andi
          (cmpf .olt (Host.absf x)
            (broadcastInDim S ![] hb (constant (F := Ideal) (⟨0, ![]⟩ : Shape) .f32 0x7F800000#32)))
          init hr hu ix0 = 1#1) :
    AllReal x := by
  intro i
  have hi := Host.reduce_andi_all _ init hr hu ix0 e i
  have hlt : max (x i) (-(x i)) < (⊤ : EReal) := by
    have h2 : Ideal.cmp .olt (max (x i) (-(x i))) (Ideal.ofBits .f32 0x7F800000#32) = 1#1 := hi
    rw [ofBits_inf] at h2
    by_contra hn
    simp [Ideal.cmp, hn] at h2
  exact exists_real_of_abs_lt_top (x i) hlt

open Cert.Pre_finite_inputs in
/-- The stated precondition makes every entry of each of the seven inputs a real number. -/
theorem allReal_of_pre [Cert.Pre_finite_inputs.Facts]
    (a0 : FVec Ideal Cert.Pre_finite_inputs.S2048x256 .f32) (a1 : FVec Ideal Cert.Pre_finite_inputs.S10000x2048 .f32)
    (a2 : FVec Ideal Cert.Pre_finite_inputs.S10000x256 .f32) (a3 : FVec Ideal Cert.Pre_finite_inputs.S256x256 .f32)
    (a4 a5 a6 : FVec Ideal Cert.Pre_finite_inputs.S256 .f32)
    (h : Cert.Pre_finite_inputs.fn (F := Ideal) a0 a1 a2 a3 a4 a5 a6 = fun _ => 1#1) :
    AllReal a0 ∧ AllReal a1 ∧ AllReal a2 ∧ AllReal a3 ∧ AllReal a4 ∧ AllReal a5 ∧ AllReal a6 := by
  have e := congrFun h ix0
  dsimp only [Cert.Pre_finite_inputs.fn, Cert.Pre_finite_inputs.fn_part1, Idealize.ShloMosaic.andi] at e
  simp only [IntOp.andi_eq_one] at e
  obtain ⟨⟨⟨⟨⟨⟨e0, e1⟩, e2⟩, e3⟩, e4⟩, e5⟩, e6⟩ := e
  exact ⟨allReal_of_andReduce a0 _ _ _ _ e0, allReal_of_andReduce a1 _ _ _ _ e1,
    allReal_of_andReduce a2 _ _ _ _ e2, allReal_of_andReduce a3 _ _ _ _ e3,
    allReal_of_andReduce a4 _ _ _ _ e4, allReal_of_andReduce a5 _ _ _ _ e5,
    allReal_of_andReduce a6 _ _ _ _ e6⟩

end Gcn

end
-- ==== Proof.RefJoin.lean ====
/-
  The reference's half of the comparison. From any memory the reference program runs to the end with its seven
  arguments unchanged; and when its arguments are those of the kernel program and every entry of them is a real
  number, its result array is the layer in the arrangement that scales the rectified aggregate and multiplies by
  a reciprocal square root: the reference computes the arrangement that divides the weights and divides by the
  square root, and on real entries the two arrangements are one function, index by index.
-/
import proofs.«156365_g712964571491_cont_9to1c4b_112_17_alg».proof.Defs
import proofs.«156365_g712964571491_cont_9to1c4b_112_17_alg».proof.Proof.Gen.ReferenceIdeal
import proofs.«156365_g712964571491_cont_9to1c4b_112_17_alg».proof.Proof.Gen.KernelIdeal
import proofs.«156365_g712964571491_cont_9to1c4b_112_17_alg».proof.Proof.Gen.Pre_finite_inputs
import proofs.«156365_g712964571491_cont_9to1c4b_112_17_alg».proof.Proof.RefRun
import proofs.«156365_g712964571491_cont_9to1c4b_112_17_alg».proof.Proof.RefSpec
import proofs.«156365_g712964571491_cont_9to1c4b_112_17_alg».proof.Proof.Algebra
import proofs.«156365_g712964571491_cont_9to1c4b_112_17_alg».proof.Proof.Finite

noncomputable section

namespace Cert.Proof.Parts

open Idealize.ShloMosaic Idealize.SL.Sem

/-- The layer in the scaled arrangement, as a whole array of the kernel program's seven arguments on core `c`. -/
def specOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v4) :=
  fun (i : Gcn.ShE.Idx) => Gcn.outScaled (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (i 0) (i 1)

/-- The reference program runs to the end from any memory, and its seven arguments end as they began. -/
theorem frame_ri [hR : Cert.ReferenceIdeal.Facts] [hP : Cert.Pre_finite_inputs.Facts] : Cert.frame_ReferenceIdeal := fun m g _ =>
  (θ_run Cert.ReferenceIdeal.defs _ _).mono (fun _ h c => (h c).2) (Cert.ReferenceIdeal.RefRun.run m g)

/-- From a memory that agrees with the kernel program's on the seven arguments, all of whose entries are real, the
    reference program ends with its result array at the layer in the scaled arrangement of the kernel program's
    arguments, and with its own arguments unchanged. -/
theorem ref_half [hR : Cert.ReferenceIdeal.Facts] [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        r.2.mem ((c.tc : Thread Cert.ReferenceIdeal.nD Cert.ReferenceIdeal.τ).loc Cert.ReferenceIdeal.main_v30) = specOf m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) := by
  refine (θ_run Cert.ReferenceIdeal.defs _ _).mono (fun _ h c => ⟨(h c).1.trans ?_, (h c).2⟩) (Cert.ReferenceIdeal.RefRun.run m' g')
  obtain ⟨e0, e1, e2, e3, e4, e5, e6⟩ := hagree c
  rw [e0, e1, e2, e3, e4, e5, e6, Cert.ReferenceIdeal.RefSpec.refTerm_eq_spec]
  obtain ⟨h0, h1, h2, h3, h4, _, _⟩ := Gcn.allReal_of_pre _ _ _ _ _ _ _ (hpre c)
  funext i
  exact (Gcn.outScaled_eq_outDivided _ _ _ _ _ _ _ h0 h1 h2 h3 h4 (i 0) (i 1)).symm

end Cert.Proof.Parts

end
-- ==== Proof.lean ====
/-
  One bipartite graph-convolution layer followed by a layer normalisation: the kernel and the reference compute the
  same array on the extended reals, over finite inputs.

  The kernel projects the question features once (at the first grid point, into a scratch it keeps), then for each
  block of 1256 students sums the student's weights and aggregates them against the projected features quarter by
  quarter, rectifies, scales by the reciprocal of the clipped degree, adds the embedding and normalises each row by
  a reciprocal square root. The reference divides every weight by the clipped degree before aggregating, rectifies,
  and normalises by a division by the square root. Row by row both are
      (x − mean x) · (var x + ε)^(−1/2) · γ + β,   x = E + max(Σ_k A[r,k]·P[k,·], 0) / max(Σ_k A[r,k], 1):
  the divisor is a real number at least one, so it passes through the finite sum and through the rectification,
  and var x + ε is positive, so the reciprocal square root is the reciprocal of the square root. This is where the
  inputs' finiteness is used.

  The pieces: each program runs to the end and keeps its arguments (for the kernel, at the word level and on the
  extended reals, by the pipeline's rule over the eight grid points, the weight matrix read through four windows at a
  quarter share each, the last row block cut at the arrays' end); the kernel's result array is the scaled arrangement
  of the layer, block by block; the reference's result is the divided arrangement, operation by operation; the two
  arrangements agree on real inputs. The idealisation rewrote nothing, so it preserves the kernel as it stands.
-/
import proofs.«156365_g712964571491_cont_9to1c4b_112_17_alg».proof.Defs
import proofs.«156365_g712964571491_cont_9to1c4b_112_17_alg».proof.Proof.Gen.Kernel
import proofs.«156365_g712964571491_cont_9to1c4b_112_17_alg».proof.Proof.Gen.KernelIdeal
import proofs.«156365_g712964571491_cont_9to1c4b_112_17_alg».proof.Proof.Gen.ReferenceIdeal
import proofs.«156365_g712964571491_cont_9to1c4b_112_17_alg».proof.Proof.Gen.Pre_finite_inputs
import proofs.«156365_g712964571491_cont_9to1c4b_112_17_alg».proof.Proof.KFrame
import proofs.«156365_g712964571491_cont_9to1c4b_112_17_alg».proof.Proof.KiValue
import proofs.«156365_g712964571491_cont_9to1c4b_112_17_alg».proof.Proof.KiFinal
import proofs.«156365_g712964571491_cont_9to1c4b_112_17_alg».proof.Proof.RefJoin
import Idealize.ShloMosaic.Adequacy
import Idealize.ShloMosaic.Init

noncomputable section

namespace Cert.Proof

open Idealize.ShloMosaic Idealize.SL.Sem

/-- The kernel at the word level runs to the end and keeps its seven arguments. -/
theorem frame_k : Cert.frame_Kernel := fun m g _ =>
  (θ_run (Cert.Kernel.defs (F := Bits)) _ _).mono (fun r h c => Cert.Kernel.Frame.args_kept (F := Bits) m r h c)
    (Cert.Kernel.Frame.run_main (F := Bits) m g)

/-- The kernel on the extended reals runs to the end and keeps its seven arguments. -/
theorem frame_ki : Cert.frame_KernelIdeal := fun m g _ =>
  (θ_run (Cert.KernelIdeal.defs (F := Ideal)) _ _).mono (fun _ h c => (h c).2) (Cert.KernelIdeal.Frame.run_kept m g)

/-- On the extended reals the kernel's result array is the layer in the scaled arrangement. -/
theorem kernel_half (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v4) = Cert.Proof.Parts.specOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono
    (fun _ h c => ⟨((h c).1).trans (Cert.KernelIdeal.Frame.final_out m c _), (h c).2⟩)
    (Cert.KernelIdeal.Frame.run_kept m g)

/-- From memories that agree on the arguments both programs end with the same array: the kernel's scaled
    arrangement is, over finite inputs, the reference's divided one. -/
theorem algebraic : Cert.algebraic_KernelIdeal_ReferenceIdeal := fun m g m' g' hpre hagree =>
  ⟨Cert.Proof.Parts.specOf m, kernel_half m g, Cert.Proof.Parts.ref_half m m' g' hpre hagree⟩

theorem claim : Cert.Claim :=
  ⟨Cert.Kernel.Gen.facts, Cert.KernelIdeal.Gen.facts, Cert.ReferenceIdeal.Gen.facts, Cert.Pre_finite_inputs.Gen.facts,
    frame_k, frame_ki, Cert.Proof.Parts.frame_ri, trivial, algebraic⟩

end Cert.Proof

end
